-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000 : Shape := ⟨1, ![400000]⟩
abbrev S8x128x128 : Shape := ⟨3, ![8, 128, 128]⟩
abbrev S8x128 : Shape := ⟨2, ![8, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000 : S_.BroadcastsInDim S400000 (![] : Fin 0 → Fin S400000.rank)
  reducesTo_S400000_S_d0 : S400000.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg2 : IVec S400000 32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_c_6 : IVec S_ 32 := constantI S_ 32 0#32
  let main_v19 : IVec S400000 32 := broadcastInDim S400000 ![] bcast_S_S400000 main_c_6
  let main_v20 : IVec S400000 1 := cmpi .sge main_arg2 main_v19
  let main_c_7 : IVec S_ 32 := constantI S_ 32 50000#32
  let main_v21 : IVec S400000 32 := broadcastInDim S400000 ![] bcast_S_S400000 main_c_7
  let main_v22 : IVec S400000 1 := cmpi .slt main_arg2 main_v21
  let main_v23 : IVec S400000 1 := andi main_v20 main_v22
  let main_c_8 : IVec S_ 1 := constantI S_ 1 1#1
  let main_v24 : IVec S_ 1 := (fun x v => Host.reduce IntOp.andi x v reducesTo_S400000_S_d0 h_S_) main_v23 main_c_8
  let main_v25 : IVec S_ 1 := andi main_v18 main_v24
  main_v25

def fn {F : FTy → Type} [FloatOps F] (main_arg0 : FVec F S50000x128 .f32) (main_arg1 : IVec S400000 32) (main_arg2 : IVec S400000 32) (main_arg3 : FVec F S400000 .f32) (main_arg4 : FVec F S8x128x128 .f32) (main_arg5 : FVec F S8x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000 .f32 := Host.absf main_arg3
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S8x128x128 .f32 := Host.absf main_arg4
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S8x128 .f32 := Host.absf main_arg5
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg2 main_v13 main_v16
-- ==== Kernel.lean ====
abbrev S50000x128 : Shape := ⟨2, ![50000, 128]⟩
abbrev S400000 : Shape := ⟨1, ![400000]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S128 : Shape := ⟨1, ![128]⟩
abbrev S1x128 : Shape := ⟨2, ![1, 128]⟩
abbrev S50176x128 : Shape := ⟨2, ![50176, 128]⟩
abbrev S1024x128 : Shape := ⟨2, ![1024, 128]⟩
abbrev S401408 : Shape := ⟨1, ![401408]⟩
abbrev S401408x1 : Shape := ⟨2, ![401408, 1]⟩
abbrev S1x401408 : Shape := ⟨2, ![1, 401408]⟩
abbrev S401408x128 : Shape := ⟨2, ![401408, 128]⟩
abbrev S128x1 : Shape := ⟨2, ![128, 1]⟩
abbrev S1x50176 : Shape := ⟨2, ![1, 50176]⟩
abbrev S128x50176 : Shape := ⟨2, ![128, 50176]⟩
abbrev S8192x128 : Shape := ⟨2, ![8192, 128]⟩
abbrev S1x8192 : Shape := ⟨2, ![1, 8192]⟩
abbrev S1024x1 : Shape := ⟨2, ![1024, 1]⟩
abbrev S1024x8192 : Shape := ⟨2, ![1024, 8192]⟩

abbrev nBuf : Space → Nat
  | .hbm => 30
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S400000, .i32⟩
  | .hbm, ⟨2, _⟩ => ⟨S400000, .i32⟩
  | .hbm, ⟨3, _⟩ => ⟨S400000, .f32⟩
  | .hbm, ⟨4, _⟩ => ⟨S8x128x128, .f32⟩
  | .hbm, ⟨5, _⟩ => ⟨S8x128, .f32⟩
  | .hbm, ⟨6, _⟩ => ⟨S_, .f32⟩
  | .hbm, ⟨7, _⟩ => ⟨S128x128, .f32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S_, .i32⟩
  | .hbm, ⟨12, _⟩ => ⟨S_, .f32⟩
  | .hbm, ⟨13, _⟩ => ⟨S50176x128, .f32⟩
  | .hbm, ⟨14, _⟩ => ⟨S50176x128, .bf16⟩
  | .hbm, ⟨15, _⟩ => ⟨S_, .i32⟩
  | .hbm, ⟨16, _⟩ => ⟨S_, .i32⟩
  | .hbm, ⟨17, _⟩ => ⟨S401408, .i32⟩
  | .hbm, ⟨18, _⟩ => ⟨S_, .i32⟩
  | .hbm, ⟨19, _⟩ => ⟨S_, .i32⟩
  | .hbm, ⟨20, _⟩ => ⟨S401408, .i32⟩
  | .hbm, ⟨21, _⟩ => ⟨S_, .i32⟩
  | .hbm, ⟨22, _⟩ => ⟨S_, .f32⟩
  | .hbm, ⟨23, _⟩ => ⟨S401408, .f32⟩
  | .hbm, ⟨24, _⟩ => ⟨S401408x1, .i32⟩
  | .hbm, ⟨25, _⟩ => ⟨S401408x1, .f32⟩
  | .hbm, ⟨26, _⟩ => ⟨S1x401408, .i32⟩
  | .hbm, ⟨27, _⟩ => ⟨S401408x128, .bf16⟩
  | .hbm, ⟨28, _⟩ => ⟨S50176x128, .f32⟩
  | .hbm, ⟨29, _⟩ => ⟨S50000x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1x128, .f32⟩
  | .local _ .vmem, ⟨4, _⟩ => ⟨S1024x128, .bf16⟩
  | .local _ .vmem, ⟨5, _⟩ => ⟨S1024x128, .bf16⟩
  | .local _ .vmem, ⟨6, _⟩ => ⟨S50176x128, .bf16⟩
  | .local _ .vmem, ⟨7, _⟩ => ⟨S128x1, .i32⟩
  | .local _ .vmem, ⟨8, _⟩ => ⟨S128x1, .i32⟩
  | .local _ .vmem, ⟨9, _⟩ => ⟨S128x1, .f32⟩
  | .local _ .vmem, ⟨10, _⟩ => ⟨S128x1, .f32⟩
  | .local _ .vmem, ⟨11, _⟩ => ⟨S128x128, .bf16⟩
  | .local _ .vmem, ⟨12, _⟩ => ⟨S128x128, .bf16⟩
  | .local _ .vmem, ⟨13, _⟩ => ⟨S8192x128, .bf16⟩
  | .local _ .vmem, ⟨14, _⟩ => ⟨S8192x128, .bf16⟩
  | .local _ .vmem, ⟨15, _⟩ => ⟨S1x8192, .i32⟩
  | .local _ .vmem, ⟨16, _⟩ => ⟨S1x8192, .i32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_call1_v0 : Ref sig .tc := ⟨.hbm, 16, rfl⟩
abbrev main_v5 : Ref sig .tc := ⟨.hbm, 17, rfl⟩
abbrev main_c_2 : Ref sig .tc := ⟨.hbm, 18, rfl⟩
abbrev main_call2_v0 : Ref sig .tc := ⟨.hbm, 19, rfl⟩
abbrev main_v6 : Ref sig .tc := ⟨.hbm, 20, rfl⟩
abbrev main_c_3 : Ref sig .tc := ⟨.hbm, 21, rfl⟩
abbrev main_call3_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![3136], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S50176x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![49, 49], ![false, false]⟩

def k2_cond2 (i : grid2.Coords) : BitVec 1 :=
  let arg1 : BitVec 32 := BitVec.ofNat 32 (i 1).val
  let c48_i32 : BitVec 32 := 48#32
  let v23 : BitVec 1 := Scalar.cmpi .eq arg1 c48_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S8192x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x8192 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  reducesTo_S8x128x128_S128x128_d0 : S8x128x128.ReducesTo [0] S128x128
  h_S_ : 0 < S_.numel
  reducesTo_S8x128_S128_d0 : S8x128.ReducesTo [0] S128
  shapeCasts_S128_S1x128 : S128.ShapeCasts S1x128
  pads_S50000x128_S50176x128_01760_000 : S50000x128.Pads (![0, 0] : Fin 2 → Nat) ![176, 0] ![0, 0] S50176x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  packedbf16_S1024x128_S1024x128_0_0 : (Rect.unit (s := S1024x128) ![0, 0] S1024x128.size inb_S1024x128_S1024x128_0_0).PackedRows (EltTy.packing .bf16)
  pads_S400000_S401408_014080 : S400000.Pads (![0] : Fin 1 → Nat) ![1408] ![0] S401408
  shapeCasts_S401408_S401408x1 : S401408.ShapeCasts S401408x1
  shapeCasts_S401408_S1x401408 : S401408.ShapeCasts S1x401408
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S1x50176_d1_w32 : S1x50176.Iotas .tc 32 [1]
  broadcasts_S128x1_S128x50176 : S128x1.Broadcasts S128x50176
  broadcasts_S1x50176_S128x50176 : S1x50176.Broadcasts S128x50176
  inb_S50176x128_S50176x128_0_0 : ∀ a, (![0, 0] : Fin 2 → Nat) a + S50176x128.size a ≤ S50176x128.size a
  h_S50176x128 : 0 < S50176x128.numel
  shapeCasts_S50176x128_S50176x128 : S50176x128.ShapeCasts S50176x128
  packedbf16_S128x128_S128x128_0_0 : (Rect.unit (s := S128x128) ![0, 0] S128x128.size inb_S128x128_S128x128_0_0).PackedRows (EltTy.packing .bf16)
  iota_S1024x1_d0_w32 : S1024x1.Iotas .tc 32 [0]
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1024x1_S1024x8192 : S1024x1.Broadcasts S1024x8192
  broadcasts_S1x8192_S1024x8192 : S1x8192.Broadcasts S1024x8192
  natLt_1_32 : 1 < 32
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  slices_S50176x128_S50000x128_0_0 : S50176x128.Slices ![0, 0] S50000x128
  dot_S1024x128_S128x128_S1024x128_1_0_0_1_n_n_wf : DotDims.WF S1024x128 S128x128 S1024x128 [1] [0] [0] [1] [] []
  dot_S128x50176_S50176x128_S128x128_1_0_0_1_n_n_wf : DotDims.WF S128x50176 S50176x128 S128x128 [1] [0] [0] [1] [] []
  dot_S1024x8192_S8192x128_S1024x128_1_0_0_1_n_n_wf : DotDims.WF S1024x8192 S8192x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S50176x128.size a
  hwx0_0 : ∀ i : grid0.Coords, EltTy.bits .f32 = 32 ∨ (Rect.block (s := S50176x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S50176x128.size a
  hwx0_3 : ∀ i : grid0.Coords, EltTy.bits .bf16 = 32 ∨ (Rect.block (s := S50176x128) S1024x128.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S50176x128.size a ≤ S50176x128.size a
  hwx1_0 : ∀ i : grid1.Coords, EltTy.bits .bf16 = 32 ∨ (Rect.block (s := S50176x128) S50176x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S401408x1.size a
  hwx1_1 : ∀ i : grid1.Coords, EltTy.bits .i32 = 32 ∨ (Rect.block (s := S401408x1) S128x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S401408x1.size a
  hwx1_2 : ∀ i : grid1.Coords, EltTy.bits .f32 = 32 ∨ (Rect.block (s := S401408x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S401408x128.size a
  hwx1_3 : ∀ i : grid1.Coords, EltTy.bits .bf16 = 32 ∨ (Rect.block (s := S401408x128) S128x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S401408x128.size a
  hwx2_0 : ∀ i : grid2.Coords, EltTy.bits .bf16 = 32 ∨ (Rect.block (s := S401408x128) S8192x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x8192.size a ≤ S1x401408.size a
  hwx2_1 : ∀ i : grid2.Coords, EltTy.bits .i32 = 32 ∨ (Rect.block (s := S1x401408) S1x8192.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S50176x128.size a
  hwx2_2 : ∀ i : grid2.Coords, EltTy.bits .f32 = 32 ∨ (Rect.block (s := S50176x128) S1024x128.size (cc2_transform_2 i) (hinb2_2 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S128x50176_S50176x128_S128x128_1_0_0_1_n_n : DotDims S128x50176 S50176x128 S128x128 where
  lhsContracting := [1]
  rhsContracting := [0]
  lhsNonContracting := [0]
  rhsNonContracting := [1]
  lhsBatch := []
  rhsBatch := []
  wf := dot_S128x50176_S50176x128_S128x128_1_0_0_1_n_n_wf
def dot_S1024x8192_S8192x128_S1024x128_1_0_0_1_n_n : DotDims S1024x8192 S8192x128 S1024x128 where
  lhsContracting := [1]
  rhsContracting := [0]
  lhsNonContracting := [0]
  rhsNonContracting := [1]
  lhsBatch := []
  rhsBatch := []
  wf := dot_S1024x8192_S8192x128_S1024x128_1_0_0_1_n_n_wf

abbrev win0_0 : Pipeline.Window sig grid0 :=
  Pipeline.Window.ofSpec (Memref.whole main_v3) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S50176x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v8) S128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S128x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1x8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S400000 : Shape := ⟨1, ![400000]⟩
abbrev S8x128x128 : Shape := ⟨3, ![8, 128, 128]⟩
abbrev S8x128 : Shape := ⟨2, ![8, 128]⟩
abbrev S_ : Shape := ⟨0, ![]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S400000x1 : Shape := ⟨2, ![400000, 1]⟩
abbrev S400000x128 : Shape := ⟨2, ![400000, 128]⟩

abbrev nBuf : Space → Nat
  | .hbm => 211
  | .vmem => 0
  | .smem => 0
  | _ => 0

abbrev hbmTy0_0 (i : Nat) : BufTy := match i % 128 with
  | 0 => ⟨S50000x128, .f32⟩
  | 1 => ⟨S400000, .i32⟩
  | 2 => ⟨S400000, .i32⟩
  | 3 => ⟨S400000, .f32⟩
  | 4 => ⟨S8x128x128, .f32⟩
  | 5 => ⟨S8x128, .f32⟩
  | 6 => ⟨S_, .f32⟩
  | 7 => ⟨S50000x128, .f32⟩
  | 8 => ⟨S1x128x128, .f32⟩
  | 9 => ⟨S128x128, .f32⟩
  | 10 => ⟨S50000x128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S400000x1, .f32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S400000x128, .f32⟩
  | 26 => ⟨S400000x128, .f32⟩
  | 27 => ⟨S400000x128, .f32⟩
  | 28 => ⟨S_, .f32⟩
  | 29 => ⟨S50000x128, .f32⟩
  | 30 => ⟨S400000x1, .i32⟩
  | 31 => ⟨S50000x128, .f32⟩
  | 32 => ⟨S50000x128, .f32⟩
  | 33 => ⟨S1x128x128, .f32⟩
  | 34 => ⟨S128x128, .f32⟩
  | 35 => ⟨S50000x128, .f32⟩
  | 36 => ⟨S1x128, .f32⟩
  | 37 => ⟨S128, .f32⟩
  | 38 => ⟨S1x128, .f32⟩
  | 39 => ⟨S50000x128, .f32⟩
  | 40 => ⟨S50000x128, .f32⟩
  | 41 => ⟨S400000x1, .f32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S400000x128, .f32⟩
  | 51 => ⟨S400000x128, .f32⟩
  | 52 => ⟨S400000x128, .f32⟩
  | 53 => ⟨S_, .f32⟩
  | 54 => ⟨S50000x128, .f32⟩
  | 55 => ⟨S400000x1, .i32⟩
  | 56 => ⟨S50000x128, .f32⟩
  | 57 => ⟨S50000x128, .f32⟩
  | 58 => ⟨S1x128x128, .f32⟩
  | 59 => ⟨S128x128, .f32⟩
  | 60 => ⟨S50000x128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S400000x1, .f32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S400000x128, .f32⟩
  | 76 => ⟨S400000x128, .f32⟩
  | 77 => ⟨S400000x128, .f32⟩
  | 78 => ⟨S_, .f32⟩
  | 79 => ⟨S50000x128, .f32⟩
  | 80 => ⟨S400000x1, .i32⟩
  | 81 => ⟨S50000x128, .f32⟩
  | 82 => ⟨S50000x128, .f32⟩
  | 83 => ⟨S1x128x128, .f32⟩
  | 84 => ⟨S128x128, .f32⟩
  | 85 => ⟨S50000x128, .f32⟩
  | 86 => ⟨S1x128, .f32⟩
  | 87 => ⟨S128, .f32⟩
  | 88 => ⟨S1x128, .f32⟩
  | 89 => ⟨S50000x128, .f32⟩
  | 90 => ⟨S50000x128, .f32⟩
  | 91 => ⟨S400000x1, .f32⟩
  | 92 => ⟨S_, .i32⟩
  | 93 => ⟨S400000, .i32⟩
  | 94 => ⟨S400000, .i1⟩
  | 95 => ⟨S_, .i32⟩
  | 96 => ⟨S400000, .i32⟩
  | 97 => ⟨S400000, .i32⟩
  | 98 => ⟨S400000, .i32⟩
  | 99 => ⟨S400000x1, .i32⟩
  | 100 => ⟨S400000x128, .f32⟩
  | 101 => ⟨S400000x128, .f32⟩
  | 102 => ⟨S400000x128, .f32⟩
  | 103 => ⟨S_, .f32⟩
  | 104 => ⟨S50000x128, .f32⟩
  | 105 => ⟨S400000x1, .i32⟩
  | 106 => ⟨S50000x128, .f32⟩
  | 107 => ⟨S50000x128, .f32⟩
  | 108 => ⟨S1x128x128, .f32⟩
  | 109 => ⟨S128x128, .f32⟩
  | 110 => ⟨S50000x128, .f32⟩
  | 111 => ⟨S1x128, .f32⟩
  | 112 => ⟨S128, .f32⟩
  | 113 => ⟨S1x128, .f32⟩
  | 114 => ⟨S50000x128, .f32⟩
  | 115 => ⟨S50000x128, .f32⟩
  | 116 => ⟨S400000x1, .f32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S400000x128, .f32⟩
  | 126 => ⟨S400000x128, .f32⟩
  | 127 => ⟨S400000x128, .f32⟩
  | _ => ⟨S50000x128, .f32⟩

abbrev hbmTy0_1 (i : Nat) : BufTy := match i % 128 with
  | 0 => ⟨S_, .f32⟩
  | 1 => ⟨S50000x128, .f32⟩
  | 2 => ⟨S400000x1, .i32⟩
  | 3 => ⟨S50000x128, .f32⟩
  | 4 => ⟨S50000x128, .f32⟩
  | 5 => ⟨S1x128x128, .f32⟩
  | 6 => ⟨S128x128, .f32⟩
  | 7 => ⟨S50000x128, .f32⟩
  | 8 => ⟨S1x128, .f32⟩
  | 9 => ⟨S128, .f32⟩
  | 10 => ⟨S1x128, .f32⟩
  | 11 => ⟨S50000x128, .f32⟩
  | 12 => ⟨S50000x128, .f32⟩
  | 13 => ⟨S400000x1, .f32⟩
  | 14 => ⟨S_, .i32⟩
  | 15 => ⟨S400000, .i32⟩
  | 16 => ⟨S400000, .i1⟩
  | 17 => ⟨S_, .i32⟩
  | 18 => ⟨S400000, .i32⟩
  | 19 => ⟨S400000, .i32⟩
  | 20 => ⟨S400000, .i32⟩
  | 21 => ⟨S400000x1, .i32⟩
  | 22 => ⟨S400000x128, .f32⟩
  | 23 => ⟨S400000x128, .f32⟩
  | 24 => ⟨S400000x128, .f32⟩
  | 25 => ⟨S_, .f32⟩
  | 26 => ⟨S50000x128, .f32⟩
  | 27 => ⟨S400000x1, .i32⟩
  | 28 => ⟨S50000x128, .f32⟩
  | 29 => ⟨S50000x128, .f32⟩
  | 30 => ⟨S1x128x128, .f32⟩
  | 31 => ⟨S128x128, .f32⟩
  | 32 => ⟨S50000x128, .f32⟩
  | 33 => ⟨S1x128, .f32⟩
  | 34 => ⟨S128, .f32⟩
  | 35 => ⟨S1x128, .f32⟩
  | 36 => ⟨S50000x128, .f32⟩
  | 37 => ⟨S50000x128, .f32⟩
  | 38 => ⟨S400000x1, .f32⟩
  | 39 => ⟨S_, .i32⟩
  | 40 => ⟨S400000, .i32⟩
  | 41 => ⟨S400000, .i1⟩
  | 42 => ⟨S_, .i32⟩
  | 43 => ⟨S400000, .i32⟩
  | 44 => ⟨S400000, .i32⟩
  | 45 => ⟨S400000, .i32⟩
  | 46 => ⟨S400000x1, .i32⟩
  | 47 => ⟨S400000x128, .f32⟩
  | 48 => ⟨S400000x128, .f32⟩
  | 49 => ⟨S400000x128, .f32⟩
  | 50 => ⟨S_, .f32⟩
  | 51 => ⟨S50000x128, .f32⟩
  | 52 => ⟨S400000x1, .i32⟩
  | 53 => ⟨S50000x128, .f32⟩
  | 54 => ⟨S50000x128, .f32⟩
  | 55 => ⟨S1x128x128, .f32⟩
  | 56 => ⟨S128x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S400000x1, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S400000x128, .f32⟩
  | 73 => ⟨S400000x128, .f32⟩
  | 74 => ⟨S400000x128, .f32⟩
  | 75 => ⟨S_, .f32⟩
  | 76 => ⟨S50000x128, .f32⟩
  | 77 => ⟨S400000x1, .i32⟩
  | 78 => ⟨S50000x128, .f32⟩
  | 79 => ⟨S50000x128, .f32⟩
  | 80 => ⟨S_, .f32⟩
  | 81 => ⟨S50000x128, .f32⟩
  | 82 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_2 : Ref sig .tc := ⟨.hbm, 42, rfl⟩
abbrev main_v32 : Ref sig .tc := ⟨.hbm, 43, rfl⟩
abbrev main_v33 : Ref sig .tc := ⟨.hbm, 44, rfl⟩
abbrev main_c_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_c_5 : Ref sig .tc := ⟨.hbm, 67, rfl⟩
abbrev main_v54 : Ref sig .tc := ⟨.hbm, 68, rfl⟩
abbrev main_v55 : Ref sig .tc := ⟨.hbm, 69, rfl⟩
abbrev main_c_6 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_7 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_c_8 : Ref sig .tc := ⟨.hbm, 92, rfl⟩
abbrev main_v76 : Ref sig .tc := ⟨.hbm, 93, rfl⟩
abbrev main_v77 : Ref sig .tc := ⟨.hbm, 94, rfl⟩
abbrev main_c_9 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_10 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_c_11 : Ref sig .tc := ⟨.hbm, 117, rfl⟩
abbrev main_v98 : Ref sig .tc := ⟨.hbm, 118, rfl⟩
abbrev main_v99 : Ref sig .tc := ⟨.hbm, 119, rfl⟩
abbrev main_c_12 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_13 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_c_14 : Ref sig .tc := ⟨.hbm, 142, rfl⟩
abbrev main_v120 : Ref sig .tc := ⟨.hbm, 143, rfl⟩
abbrev main_v121 : Ref sig .tc := ⟨.hbm, 144, rfl⟩
abbrev main_c_15 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_cst_16 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_c_17 : Ref sig .tc := ⟨.hbm, 167, rfl⟩
abbrev main_v142 : Ref sig .tc := ⟨.hbm, 168, rfl⟩
abbrev main_v143 : Ref sig .tc := ⟨.hbm, 169, rfl⟩
abbrev main_c_18 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_cst_19 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_c_20 : Ref sig .tc := ⟨.hbm, 192, rfl⟩
abbrev main_v164 : Ref sig .tc := ⟨.hbm, 193, rfl⟩
abbrev main_v165 : Ref sig .tc := ⟨.hbm, 194, rfl⟩
abbrev main_c_21 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_cst_22 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_call0_cst : Ref sig .tc := ⟨.hbm, 208, rfl⟩
abbrev main_call0_v0 : Ref sig .tc := ⟨.hbm, 209, rfl⟩
abbrev main_v177 : Ref sig .tc := ⟨.hbm, 210, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  slices_S8x128x128_S1x128x128_0_0_0 : S8x128x128.Slices ![0, 0, 0] S1x128x128
  shapeCasts_S1x128x128_S128x128 : S1x128x128.ShapeCasts S128x128
  slices_S8x128_S1x128_0_0 : S8x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x128_0_1 : S400000x1.BroadcastsInDim S400000x128 (![0, 1] : Fin 2 → Fin S400000x128.rank)
  slices_S8x128x128_S1x128x128_1_0_0 : S8x128x128.Slices ![1, 0, 0] S1x128x128
  slices_S8x128_S1x128_1_0 : S8x128.Slices ![1, 0] S1x128
  slices_S8x128x128_S1x128x128_2_0_0 : S8x128x128.Slices ![2, 0, 0] S1x128x128
  slices_S8x128_S1x128_2_0 : S8x128.Slices ![2, 0] S1x128
  slices_S8x128x128_S1x128x128_3_0_0 : S8x128x128.Slices ![3, 0, 0] S1x128x128
  slices_S8x128_S1x128_3_0 : S8x128.Slices ![3, 0] S1x128
  slices_S8x128x128_S1x128x128_4_0_0 : S8x128x128.Slices ![4, 0, 0] S1x128x128
  slices_S8x128_S1x128_4_0 : S8x128.Slices ![4, 0] S1x128
  slices_S8x128x128_S1x128x128_5_0_0 : S8x128x128.Slices ![5, 0, 0] S1x128x128
  slices_S8x128_S1x128_5_0 : S8x128.Slices ![5, 0] S1x128
  slices_S8x128x128_S1x128x128_6_0_0 : S8x128x128.Slices ![6, 0, 0] S1x128x128
  slices_S8x128_S1x128_6_0 : S8x128.Slices ![6, 0] S1x128
  slices_S8x128x128_S1x128x128_7_0_0 : S8x128x128.Slices ![7, 0, 0] S1x128x128
  slices_S8x128_S1x128_7_0 : S8x128.Slices ![7, 0] S1x128
  dot_S50000x128_S128x128_S50000x128_1_0_0_1_n_n_wf : DotDims.WF S50000x128 S128x128 S50000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

class Facts : Prop extends Facts₀ where

variable [Facts]
-- ==== Proof.K.Reg0.lean ====
/-
  The dense transform (first kernel region): per grid point it reads a 1024-row block of the padded node
  features, the whole summed weight matrix and the summed bias row, and stores the block's affine image.
  Here: the block each window shows at a point, what the body leaves in the output window's staging buffer
  as a function of the three input blocks, the region's proof data at ANY entry contents `V`, and the body
  obligation at every point.
-/
import proofs.«410919_j82858509074624_1_alg».proof.Proof.Gen.Kernel.Launch
import proofs.«410919_j82858509074624_1_alg».proof.Proof.Gen.Kernel.Skeleton
import proofs.«410919_j82858509074624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S1024x128 := Rect.unit (s := S1024x128) ![0, 0] S1024x128.size inb_S1024x128_S1024x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- The output window's staging buffer after the body: its one whole-block store, as a function of the
    three input blocks. -/
def out0_3 (x0 : Vec F S1024x128 .f32) (x1 : Vec F S128x128 .f32) (x2 : Vec F S1x128 .f32) : Vec F S1024x128 .bf16 :=
  View.canon [⟨rX0, k0_pay1 (View.ld x0 rX0) (View.ld x1 rW0) (View.ld x2 rB0)⟩]

/-- The region's proof data: arrays as found; inputs keep their blocks; the output holds `out0_3` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- An input window's current staging buffer holds its block at every point, fetched there or not: where it
    is not fetched the block index has not moved, so the previous point's block is this point's. For any
    proof data whose array is `V`'s and whose body leaves the block in place. Window 0 (the feature block). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 (the weight matrix: one block for the whole grid, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2 (the bias row: one block for the whole grid, fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one store is over the whole block, so it covers it. -/
theorem cover0_3 (p0 : Vec F S1024x128 .bf16) (y : S1024x128.Idx) :
    ∃ pc ∈ ([⟨rX0, p0⟩] : List (View.Piece (Elt F) S1024x128 .bf16)), y ∈ pc.1.set :=
  View.cover_of_tiled [⟨rX0, p0⟩] S1024x128.size (by rfl) y

set_option maxHeartbeats 1000000 in
/-- The body on whole staging memrefs, the three inputs' at read contents and the output's at anything, runs to
    the continuation holding the inputs' as they were and the output's at `out0_3` of the inputs'. -/
theorem sound_kernel0 (c : Dev nD) (E : Set ℕ) (i : grid0.Coords)
    (arg1 : Memref sig .tc .vmem S1024x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1024x128 .bf16) (harg4 : arg4.IsWhole)
    (x0 : Vec F S1024x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the dense transform at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Reg1.lean ====
/-
  The gather region (second kernel region): per grid point it reads a block of 128 edges (their column
  indices and weights) and the whole transformed-feature array, forms the 128 × 50176 selector whose entry
  (e, n) is the edge's weight when n is the edge's column and zero otherwise, and stores the selector's
  product with the features. Here: the blocks, what the body leaves in the output window's buffer, the
  region's proof data at ANY entry contents `V`, and the body obligation at every point.
-/
import proofs.«410919_j82858509074624_1_alg».proof.Proof.Gen.Kernel.Launch
import proofs.«410919_j82858509074624_1_alg».proof.Proof.Gen.Kernel.Skeleton
import proofs.«410919_j82858509074624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rH1 : Rect S50176x128 := Rect.unit (s := S50176x128) ![0, 0] S50176x128.size inb_S50176x128_S50176x128_0_0
abbrev rE1 : Rect S128x1 := Rect.unit (s := S128x1) ![0, 0] S128x1.size inb_S128x1_S128x1_0_0
abbrev rO1 : Rect S128x128 := Rect.unit (s := S128x128) ![0, 0] S128x128.size inb_S128x128_S128x128_0_0

/-- The output window's staging buffer after the body: its one whole-block store, as a function of the
    features (window 0), the column indices (window 1) and the weights (window 2). -/
def out1_3 (x0 : Vec F S50176x128 .bf16) (x1 : Vec F S128x1 .i32) (x2 : Vec F S128x1 .f32) : Vec F S128x128 .bf16 :=
  View.canon [⟨rO1, k1_pay1 (View.ld x1 rE1) (View.ld x2 rE1) (View.ld x0 rH1)⟩]

/-- The region's proof data: arrays as found; inputs keep their blocks; the output holds `out1_3` of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- An input window's current staging buffer holds its block at every point, fetched there or not: where it
    is not fetched the block index has not moved, so the previous point's block is this point's. For any
    proof data whose array is `V`'s and whose body leaves the block in place. Window 0 (the feature matrix:
    one block for the whole grid, fetched at the first point only). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (the block of column indices). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 (the block of edge weights). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The one store is over the whole block, so it covers it. -/
theorem cover1_3 (p0 : Vec F S128x128 .bf16) (y : S128x128.Idx) :
    ∃ pc ∈ ([⟨rO1, p0⟩] : List (View.Piece (Elt F) S128x128 .bf16)), y ∈ pc.1.set :=
  View.cover_of_tiled [⟨rO1, p0⟩] S128x128.size (by rfl) y

set_option maxHeartbeats 1000000 in
/-- The body on whole staging memrefs, the three inputs' at read contents and the output's at anything, runs to
    the continuation holding the inputs' as they were and the output's at `out1_3` of the inputs'. -/
theorem sound_kernel1 (c : Dev nD) (E : Set ℕ) (i : grid1.Coords)
    (arg1 : Memref sig .tc .vmem S50176x128 .bf16) (harg1 : arg1.IsWhole)
    (arg2 : Memref sig .tc .vmem S128x1 .i32) (harg2 : arg2.IsWhole)
    (arg3 : Memref sig .tc .vmem S128x1 .f32) (harg3 : arg3.IsWhole)
    (arg4 : Memref sig .tc .vmem S128x128 .bf16) (harg4 : arg4.IsWhole)
    (x0 : Vec F S50176x128 .bf16) (x1 : Vec F S128x1 .i32) (x2 : Vec F S128x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__gather_kernel i arg1 harg1 arg2 harg2 arg3 harg3 arg4 harg4) K := by
  simp only [cc1__gather_kernel_eq_skeleton]; unfold cc1__gather_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the gather region at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Reg2.lean ====
/-
  The scatter-add region (third kernel region), on a 49 × 49 grid (i, j): the scratch accumulator is reset
  at j = 0, at every point it gains the product of the point's 1024 × 8192 row-selector (entry (r, e) is one
  when edge e of the j-th chunk lands on row 1024·i + r, else zero) with the chunk's messages, and at j = 48
  its positive part is stored to the output block i. The accumulator is carried from point to point, so the
  region's invariant names what it holds after each point. Here: the blocks, the accumulator after each
  point by recursion on the point, the proof data at ANY entry contents `V`, the body obligation, and the
  invariant's two ends.
-/
import proofs.«410919_j82858509074624_1_alg».proof.Proof.Gen.Kernel.Launch
import proofs.«410919_j82858509074624_1_alg».proof.Proof.Gen.Kernel.Skeleton
import proofs.«410919_j82858509074624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch accumulator, a whole scoped buffer of the kernel's own. -/
abbrev scM2 : Memref sig .tc .vmem S1024x128 .f32 := Memref.whole cc2_scratch0

/-- One accumulation step at grid coordinates `i`: the accumulator `prev` plus the selector-times-messages
    product of the point's message block `xmsg` and row-index block `xrow`. -/
def acc2 (i : grid2.Coords) (xmsg : Vec F S8192x128 .bf16) (xrow : Vec F S1x8192 .i32) (prev : Vec F S1024x128 .f32) :
    Vec F S1024x128 .f32 :=
  k2_pay2 i xrow xmsg prev

/-- What the accumulator holds after the body at position `n`: at a chunk index j = 0 (n ≡ 0 mod 49) one step
    from the zero block, otherwise one step from what the point before left. -/
def sAt2 (c : Dev nD) : (n : ℕ) → n < cfg2.N → Vec F S1024x128 .f32
  | 0, hn => acc2 (grid2.coords ⟨0, hn⟩) (iblk2 V c 0 ⟨0, hn⟩) (iblk2 V c 1 ⟨0, hn⟩) (k2_pay1 (F := F))
  | n + 1, hn =>
    if (n + 1) % 49 = 0 then
      acc2 (grid2.coords ⟨n + 1, hn⟩) (iblk2 V c 0 ⟨n + 1, hn⟩) (iblk2 V c 1 ⟨n + 1, hn⟩) (k2_pay1 (F := F))
    else
      acc2 (grid2.coords ⟨n + 1, hn⟩) (iblk2 V c 0 ⟨n + 1, hn⟩) (iblk2 V c 1 ⟨n + 1, hn⟩) (sAt2 c n (Nat.lt_of_succ_lt hn))

theorem sAt2_reset (c : Dev nD) (t : Fin cfg2.N) (h : t.val % 49 = 0) :
    sAt2 V c t.val t.isLt = acc2 (grid2.coords t) (iblk2 V c 0 t) (iblk2 V c 1 t) (k2_pay1 (F := F)) := by
  obtain ⟨n, hn⟩ := t
  cases n with
  | zero => rfl
  | succ n => exact (if_pos h)

theorem sAt2_step (c : Dev nD) (t : Fin cfg2.N) (h : ¬ t.val % 49 = 0) :
    sAt2 V c t.val t.isLt = acc2 (grid2.coords t) (iblk2 V c 0 t) (iblk2 V c 1 t)
      (sAt2 V c (t.val - 1) (Nat.lt_of_le_of_lt (Nat.sub_le _ _) t.isLt)) := by
  obtain ⟨n, hn⟩ := t
  cases n with
  | zero => exact absurd (Nat.zero_mod _) h
  | succ n => exact (if_neg h)

/-- The core's scoped buffers that region 2 neither stages nor uses (the other regions' staging buffers), each at
    some contents, beside a statement `S` about the scratch accumulator. -/
def restWith (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ S)

/-- The class invariant of region 2, with the scratch accumulator singled out at some contents. -/
theorem PhiA2_eq (c : Dev nD) :
    (Pipeline.ΦA spec2 c : sProp 𝕄)
      = iprop(restWith (F := F) c iprop(∃ d, owns (c : Thread nD τ) scM2 fullShare d) ∗ (∃ r, prngReg c r)) := by
  unfold Pipeline.ΦA restWith; rw [scopedRest2_eq]; simp only [scM2, owns_whole]; try rfl

/-- A statement about the accumulator may be weakened beside the untouched buffers. -/
theorem restWith_mono (c : Dev nD) {S S' : sProp 𝕄} (h : S ⊢ S') : restWith (F := F) c S ⊢ restWith (F := F) c S' := by
  unfold restWith
  iintro ⟨H0, H1, H2, H3, H4, H5, H6, H7, H8, H9, H10, H11, H12, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iapply h; iexact HS

/-- The region invariant before position `n`: before the first point the class's (every scoped buffer at
    anything); afterwards the same with the scratch accumulator at what the point before left in it. -/
def PhiS2 (c : Dev nD) : (n : ℕ) → n ≤ cfg2.N → sProp 𝕄
  | 0, _ => Pipeline.ΦA spec2 c
  | n + 1, hn => iprop(restWith (F := F) c (owns (c : Thread nD τ) scM2 fullShare (sAt2 V c n hn)) ∗ (∃ r, prngReg c r))

/-- The accumulator's statement taken out from beside the untouched buffers, with the way to put another back. -/
theorem restWith_swap (c : Dev nD) (S S' : sProp 𝕄) :
    restWith (F := F) c S ⊢ iprop(S ∗ (S' -∗ restWith (F := F) c S')) := by
  unfold restWith
  iintro ⟨H0, H1, H2, H3, H4, H5, H6, H7, H8, H9, H10, H11, H12, HS⟩
  isplitl [HS]; · iexact HS
  iintro HS'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HS'

theorem PhiS2_zero (c : Dev nD) (n : ℕ) (h : n ≤ cfg2.N) (hz : n = 0) : PhiS2 V c n h = Pipeline.ΦA spec2 c := by
  subst hz; rfl

/-- After point `n`: the accumulator at that point's contents. -/
theorem PhiS2_succ (c : Dev nD) (n : ℕ) (hn : n < cfg2.N) :
    PhiS2 V c (n + 1) hn = iprop(restWith (F := F) c (owns (c : Thread nD τ) scM2 fullShare (sAt2 V c n hn)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(restWith (F := F) c (owns (c : Thread nD τ) scM2 fullShare (sAt2 V c (n - 1) (by omega))) ∗ (∃ r, prngReg c r)) := by
  cases n with
  | zero => exact absurd rfl hz
  | succ n => rfl

/-- The region's proof data: arrays as found; inputs keep their blocks; the output block holds the positive
    part of the accumulator (consulted only where the pipeline writes the block back, at j = 48); the invariant
    carries the accumulator. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (sAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (sAt2 V c t.val t.isLt) := by dsimp only [dat2]

/-! ## The body's branch conditions and where the output window is idle -/

/-- The body's first condition (the chunk index is zero), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 49). -/
theorem hcond2_0 : ∀ t : Fin cfg2.N, cond2_0 (grid2.coords t) ↔ t.val % 49 = 0 :=
  (by decide +kernel : ∀ t : Fin grid2.N, cond2_0 (grid2.coords t) ↔ t.val % 49 = 0)

/-- The body's second condition (the chunk index is the last, 48). -/
abbrev cond2_1 (i : grid2.Coords) : Prop := k2_cond2 i = 1#1
/-- It holds at the points ≡ 48 (mod 49). -/
theorem hcond2_1 : ∀ t : Fin cfg2.N, cond2_1 (grid2.coords t) ↔ t.val % 49 = 48 :=
  (by decide +kernel : ∀ t : Fin grid2.N, cond2_1 (grid2.coords t) ↔ t.val % 49 = 48)

/-- The input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
/-- Away from the last chunk the output window is idle and not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last chunk it is live. -/
theorem liveAt2_2 : ∀ t : Fin cfg2.N, cond2_1 (grid2.coords t) → cfg2.idle 2 (grid2.coords t) = false := by decide +kernel

/-! ## The body's triple, one per control case -/

abbrev rS2 : Rect S1024x128 := Rect.unit (s := S1024x128) ![0, 0] S1024x128.size inb_S1024x128_S1024x128_0_0

/-- The offset of every access of the body: the origin. -/
theorem hz2 : (![0, 0] : Fin 2 → Nat) = fun _ => 0 := funext fun a => by fin_cases a <;> rfl

/-- A list of stores whose last is over the whole block covers the block. -/
theorem cover2_head (p0 : Vec F S1024x128 .f32) (L : List (View.Piece (Elt F) S1024x128 .f32)) (y : S1024x128.Idx) :
    ∃ pc ∈ ((⟨rS2, p0⟩ : View.Piece (Elt F) S1024x128 .f32) :: L), y ∈ pc.1.set := by
  obtain ⟨pc, hpc, hy⟩ := View.cover_of_tiled [(⟨rS2, p0⟩ : View.Piece (Elt F) S1024x128 .f32)] S1024x128.size (by rfl) y
  rw [List.mem_singleton] at hpc; subst hpc
  exact ⟨_, List.mem_cons_self .., hy⟩

set_option maxHeartbeats 1000000 in
/-- Middle chunks (neither the first nor the last): the accumulator gains one step; the output block is untouched. -/
theorem run2_B (c : Dev nD) (E : Set ℕ) (i : grid2.Coords)
    (arg2 : Memref sig .tc .vmem S8192x128 .bf16) (harg2 : arg2.IsWhole)
    (arg3 : Memref sig .tc .vmem S1x8192 .i32) (harg3 : arg3.IsWhole)
    (arg4 : Memref sig .tc .vmem S1024x128 .f32) (harg4 : arg4.IsWhole)
    (arg5 : Memref sig .tc .vmem S1024x128 .f32) (harg5 : arg5.IsWhole)
    (hc0 : ¬cond2_0 i) (hc1 : ¬cond2_1 i)
    (xmsg : Vec F S8192x128 .bf16) (xrow : Vec F S1x8192 .i32) (xo : Vec F S1024x128 .f32) (prev : Vec F S1024x128 .f32)
    (K : PUnit → sProp 𝕄) :
    iprop(owns (c : Thread nD τ) arg2 fullShare xmsg ∗ owns (c : Thread nD τ) arg3 fullShare xrow
        ∗ owns (c : Thread nD τ) arg4 fullShare xo ∗ owns (c : Thread nD τ) arg5 fullShare prev
        ∗ (iprop(owns (c : Thread nD τ) arg2 fullShare xmsg ∗ owns (c : Thread nD τ) arg3 fullShare xrow
            ∗ owns (c : Thread nD τ) arg4 fullShare xo ∗ owns (c : Thread nD τ) arg5 fullShare (acc2 i xmsg xrow prev)) -∗ K ⟨⟩))
      ⊢ wp frame (wpE (defs₀ (F := F)) Variants.none c none) E (cc2__scatter_kernel i arg2 harg2 arg3 harg3 arg4 harg4 arg5 harg5) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover2_head _ _), View.canon_unit_zero (S := S1024x128) hz2]
  simp only [View.readAt_eq_ld, View.ld_unit_zero (S := S1x8192) hz2, View.ld_unit_zero (S := S8192x128) hz2, View.ld_unit_zero (S := S1024x128) hz2]
  try rfl

set_option maxHeartbeats 1000000 in
/-- First chunk: the accumulator, whatever it held, is reset to the zero block and gains one step; the output block is untouched. -/
theorem run2_A (c : Dev nD) (E : Set ℕ) (i : grid2.Coords)
    (arg2 : Memref sig .tc .vmem S8192x128 .bf16) (harg2 : arg2.IsWhole)
    (arg3 : Memref sig .tc .vmem S1x8192 .i32) (harg3 : arg3.IsWhole)
    (arg4 : Memref sig .tc .vmem S1024x128 .f32) (harg4 : arg4.IsWhole)
    (arg5 : Memref sig .tc .vmem S1024x128 .f32) (harg5 : arg5.IsWhole)
    (hc0 : cond2_0 i) (hc1 : ¬cond2_1 i)
    (xmsg : Vec F S8192x128 .bf16) (xrow : Vec F S1x8192 .i32) (xo : Vec F S1024x128 .f32) (prev : Vec F S1024x128 .f32)
    (K : PUnit → sProp 𝕄) :
    iprop(owns (c : Thread nD τ) arg2 fullShare xmsg ∗ owns (c : Thread nD τ) arg3 fullShare xrow
        ∗ owns (c : Thread nD τ) arg4 fullShare xo ∗ (∃ d, owns (c : Thread nD τ) arg5 fullShare d)
        ∗ (iprop(owns (c : Thread nD τ) arg2 fullShare xmsg ∗ owns (c : Thread nD τ) arg3 fullShare xrow
            ∗ owns (c : Thread nD τ) arg4 fullShare xo ∗ owns (c : Thread nD τ) arg5 fullShare (acc2 i xmsg xrow (k2_pay1 (F := F)))) -∗ K ⟨⟩))
      ⊢ wp frame (wpE (defs₀ (F := F)) Variants.none c none) E (cc2__scatter_kernel i arg2 harg2 arg3 harg3 arg4 harg4 arg5 harg5) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover2_head _ _), View.canon_cons_unit_zero (S := S1024x128) hz2]
  simp only [View.readAt_eq_ld, View.ld_unit_zero (S := S1x8192) hz2, View.ld_unit_zero (S := S8192x128) hz2, View.ld_unit_zero (S := S1024x128) hz2, View.readCov_unit_zero (S := S1024x128) _ hz2]
  try rfl

set_option maxHeartbeats 1000000 in
/-- Last chunk: the accumulator gains one step, and its positive part is stored over the output block, whatever that held. -/
theorem run2_C (c : Dev nD) (E : Set ℕ) (i : grid2.Coords)
    (arg2 : Memref sig .tc .vmem S8192x128 .bf16) (harg2 : arg2.IsWhole)
    (arg3 : Memref sig .tc .vmem S1x8192 .i32) (harg3 : arg3.IsWhole)
    (arg4 : Memref sig .tc .vmem S1024x128 .f32) (harg4 : arg4.IsWhole)
    (arg5 : Memref sig .tc .vmem S1024x128 .f32) (harg5 : arg5.IsWhole)
    (hc0 : ¬cond2_0 i) (hc1 : cond2_1 i)
    (xmsg : Vec F S8192x128 .bf16) (xrow : Vec F S1x8192 .i32) (xo : Vec F S1024x128 .f32) (prev : Vec F S1024x128 .f32)
    (K : PUnit → sProp 𝕄) :
    iprop(owns (c : Thread nD τ) arg2 fullShare xmsg ∗ owns (c : Thread nD τ) arg3 fullShare xrow
        ∗ (∃ d, owns (c : Thread nD τ) arg4 fullShare d) ∗ owns (c : Thread nD τ) arg5 fullShare prev
        ∗ (iprop(owns (c : Thread nD τ) arg2 fullShare xmsg ∗ owns (c : Thread nD τ) arg3 fullShare xrow
            ∗ owns (c : Thread nD τ) arg4 fullShare (k2_pay3 (acc2 i xmsg xrow prev)) ∗ owns (c : Thread nD τ) arg5 fullShare (acc2 i xmsg xrow prev)) -∗ K ⟨⟩))
      ⊢ wp frame (wpE (defs₀ (F := F)) Variants.none c none) E (cc2__scatter_kernel i arg2 harg2 arg3 harg3 arg4 harg4 arg5 harg5) K := by
  simp only [cc2__scatter_kernel_eq_skeleton]; unfold cc2__scatter_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover2_head _ _), View.canon_unit_zero (S := S1024x128) hz2]
    simp only [View.readAt_eq_ld, View.ld_unit_zero (S := S1x8192) hz2, View.ld_unit_zero (S := S8192x128) hz2, View.ld_unit_zero (S := S1024x128) hz2, View.readCov_unit_zero (S := S1024x128) _ hz2]
    try rfl
  iexists _; isplitr
  swap; · iexact H3
  ipureintro
  sl_unfold_words
  rw [View.read_writes_eq_canon _ _ _ (cover2_head _ _), View.canon_unit_zero (S := S1024x128) hz2]
  simp only [View.readAt_eq_ld, View.ld_unit_zero (S := S1x8192) hz2, View.ld_unit_zero (S := S8192x128) hz2, View.ld_unit_zero (S := S1024x128) hz2, View.readCov_unit_zero (S := S1024x128) _ hz2]
  try rfl

/-- Before any point the invariant gives the accumulator at some contents beside the untouched buffers. -/
theorem PhiS2_any (c : Dev nD) (n : ℕ) (h : n ≤ cfg2.N) :
    PhiS2 V c n h ⊢ iprop(restWith (F := F) c iprop(∃ d, owns (c : Thread nD τ) scM2 fullShare d) ∗ (∃ r, prngReg c r)) := by
  cases n with
  | zero => rw [PhiS2_zero V c 0 _ rfl, PhiA2_eq]; try exact Idealize.SL.BI.Entails.refl _
  | succ n =>
    rw [PhiS2_succ]
    exact BIClass.sep_mono (restWith_mono c (by iintro H; iexists _; iexact H)) (Idealize.SL.BI.Entails.refl _)

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- An input window's current staging buffer holds its block at every point (both are fetched at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the point's chunk index says which case it is in;
    the invariant hands the body the accumulator at what the point before left (at anything where the chunk index is
    zero) and takes it back at this point's contents; the other scoped buffers, the generator register and the core's
    debts pass through unread; the output block is handed back untouched except at the last chunk. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 2401 := lt_of_lt_of_eq t.isLt (show cfg2.N = 2401 from N_2)
  rw [PhiS2_castSucc V c t]
  by_cases h1 : t.val % 49 = 48
  · have h0 : ¬t.val % 49 = 0 := by omega
    have hz : t.val ≠ 0 := by omega
    rw [show (dat2 V c).leavesExact 2 t = owns (c : Thread nD τ) (st2_2 t) fullShare ((dat2 V c).after 2 t) from by
      unfold Dat.leavesExact; rw [liveAt2_2 t ((hcond2_1 t).mpr h1)], after2_2]
    rw [sAt2_step V c t h0, PhiS2_pos V c _ _ hz]
    refine BIClass.entails_trans (BIClass.sep_mono (BIClass.sep_mono (restWith_swap c _
      (owns (c : Thread nD τ) scM2 fullShare (acc2 (grid2.coords t) (iblk2 V c 0 t) (iblk2 V c 1 t)
        (sAt2 V c (t.val - 1) (Nat.lt_of_le_of_lt (Nat.sub_le _ _) t.isLt))))) (Idealize.SL.BI.Entails.refl _)) (Idealize.SL.BI.Entails.refl _)) ?_
    iintro ⟨⟨⟨HS, Hback⟩, Hg⟩, Ho, ⟨%d0, H0⟩, ⟨%d1, H1⟩, ⟨%d2, H2⟩⟩
    iapply (run2_C c Set.univ (grid2.coords t) _ _ _ _ _ _ _ _ (fun h => h0 ((hcond2_0 t).mp h)) ((hcond2_1 t).mpr h1)
      (iblk2 V c 0 t) (iblk2 V c 1 t) (k2_pay1 (F := F)) _ _)
    isplitl [H0]; · iexact H0
    isplitl [H1]; · iexact H1
    isplitl [H2]; · iexists _; iexact H2
    isplitl [HS]; · iexact HS
    iintro ⟨H0, H1, H2, HS⟩
    isplitl [HS Hback Hg]
    · isplitl [HS Hback]
      · iapply Hback; iexact HS
      iexact Hg
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases h0 : t.val % 49 = 0
    · rw [sAt2_reset V c t h0]
      refine BIClass.entails_trans (BIClass.sep_mono ((PhiS2_any V c _ _).trans (BIClass.sep_mono (restWith_swap c _
        (owns (c : Thread nD τ) scM2 fullShare (acc2 (grid2.coords t) (iblk2 V c 0 t) (iblk2 V c 1 t) (k2_pay1 (F := F)))))
        (Idealize.SL.BI.Entails.refl _))) (Idealize.SL.BI.Entails.refl _)) ?_
      iintro ⟨⟨⟨HS, Hback⟩, Hg⟩, Ho, ⟨%d0, H0⟩, ⟨%d1, H1⟩, ⟨%d2, H2⟩⟩
      iapply (run2_A c Set.univ (grid2.coords t) _ _ _ _ _ _ _ _ ((hcond2_0 t).mpr h0) (fun h => h1 ((hcond2_1 t).mp h))
        (iblk2 V c 0 t) (iblk2 V c 1 t) ((dat2 V c).before 2 t d2) (k2_pay1 (F := F)) _)
      isplitl [H0]; · iexact H0
      isplitl [H1]; · iexact H1
      isplitl [H2]; · iexact H2
      isplitl [HS]; · iexact HS
      iintro ⟨H0, H1, H2, HS⟩
      isplitl [HS Hback Hg]
      · isplitl [HS Hback]
        · iapply Hback; iexact HS
        iexact Hg
      isplitl [Ho]; · iexact Ho
      isplitl [H0]; · iexact H0
      isplitl [H1]; · iexact H1
      iexists _; iexact H2
    · have hz : t.val ≠ 0 := fun h => h0 (by rw [h])
      rw [sAt2_step V c t h0, PhiS2_pos V c _ _ hz]
      refine BIClass.entails_trans (BIClass.sep_mono (BIClass.sep_mono (restWith_swap c _
        (owns (c : Thread nD τ) scM2 fullShare (acc2 (grid2.coords t) (iblk2 V c 0 t) (iblk2 V c 1 t)
          (sAt2 V c (t.val - 1) (Nat.lt_of_le_of_lt (Nat.sub_le _ _) t.isLt))))) (Idealize.SL.BI.Entails.refl _)) (Idealize.SL.BI.Entails.refl _)) ?_
      iintro ⟨⟨⟨HS, Hback⟩, Hg⟩, Ho, ⟨%d0, H0⟩, ⟨%d1, H1⟩, ⟨%d2, H2⟩⟩
      iapply (run2_B c Set.univ (grid2.coords t) _ _ _ _ _ _ _ _ (fun h => h0 ((hcond2_0 t).mp h)) (fun h => h1 ((hcond2_1 t).mp h))
        (iblk2 V c 0 t) (iblk2 V c 1 t) ((dat2 V c).before 2 t d2) _ _)
      isplitl [H0]; · iexact H0
      isplitl [H1]; · iexact H1
      isplitl [H2]; · iexact H2
      isplitl [HS]; · iexact HS
      iintro ⟨H0, H1, H2, HS⟩
      isplitl [HS Hback Hg]
      · isplitl [HS Hback]
        · iapply Hback; iexact HS
        iexact Hg
      isplitl [Ho]; · iexact Ho
      isplitl [H0]; · iexact H0
      isplitl [H1]; · iexact H1
      iexists _; iexact H2

/-- The body obligation of the scatter-add region at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 2401 := N_2; omega), PhiA2_eq]
  exact BIClass.sep_mono (restWith_mono c (by iintro H; iexists _; iexact H)) (Idealize.SL.BI.Entails.refl _)

end Region2

end Cert.Kernel.Hand

end
-- ==== Proof.K.Fold.lean ====
/-
  The contents of the TensorCore's unscoped buffers at every boundary between two items of the program's
  main function — host stretch, host stretch, dense region, seven host stretches, gather region, scatter-add
  region, final host stretch — as a fold from the launch memory: a host stretch applies its operations; a
  kernel region leaves each of its windows' arrays at what its write-backs leave and every other buffer as
  entered. And the three regions' proof data, each at its own region's entry contents.
-/
import proofs.«410919_j82858509074624_1_alg».proof.Proof.K.Reg0
import proofs.«410919_j82858509074624_1_alg».proof.Proof.K.Reg1
import proofs.«410919_j82858509074624_1_alg».proof.Proof.K.Reg2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- After the first host stretch (the summed weights and biases). -/
abbrev W1 (c : Dev nD) : Valuation τ sig (Elt F) := StableHlo.after hostOps0 (W0 m c)
/-- After the second (the padded node features): the dense region's entry. -/
abbrev W2 (c : Dev nD) : Valuation τ sig (Elt F) := StableHlo.after hostOps0_1 (W1 m c)
/-- The same read at the TensorCore's references. -/
abbrev V2 (c : Dev nD) (b : Ref sig .tc) : Buf (Elt F) ((c : Thread nD τ).loc b) := W2 m c b
/-- At the dense region's exit. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 (c : Dev nD) (b : Ref sig .tc) : Buf (Elt F) ((c : Thread nD τ).loc b) := W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

/-- After each of the seven host stretches between the dense and the gather region (the padded and reshaped
    edge arrays). -/
abbrev W4 (c : Dev nD) : Valuation τ sig (Elt F) := StableHlo.after hostOps1 (W3 m c)
abbrev W5 (c : Dev nD) : Valuation τ sig (Elt F) := StableHlo.after hostOps1_1 (W4 m c)
abbrev W6 (c : Dev nD) : Valuation τ sig (Elt F) := StableHlo.after hostOps1_2 (W5 m c)
abbrev W7 (c : Dev nD) : Valuation τ sig (Elt F) := StableHlo.after hostOps1_3 (W6 m c)
abbrev W8 (c : Dev nD) : Valuation τ sig (Elt F) := StableHlo.after hostOps1_4 (W7 m c)
abbrev W9 (c : Dev nD) : Valuation τ sig (Elt F) := StableHlo.after hostOps1_5 (W8 m c)
/-- The gather region's entry. -/
abbrev W10 (c : Dev nD) : Valuation τ sig (Elt F) := StableHlo.after hostOps1_6 (W9 m c)
abbrev V10 (c : Dev nD) (b : Ref sig .tc) : Buf (Elt F) ((c : Thread nD τ).loc b) := W10 m c b
/-- At the gather region's exit: the scatter-add region's entry. -/
def W11 (c : Dev nD) : Valuation τ sig (Elt F) :=
  Pipeline.withArrays spec1 c (W10 m c) fun w => (dat1 (V10 m) c).arrAt w cfg1.N
theorem W11_arr (c : Dev nD) (w : Fin cfg1.W) :
    W11 m c (Proc.devRef .tc (Pipeline.arrRef spec1 w)) = (dat1 (V10 m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m c (Proc.devRef .tc b) = W10 m c (Proc.devRef .tc b) := by
  unfold W11; exact Pipeline.withArrays_of_ne spec1 c _ _ b hb
abbrev V11 (c : Dev nD) (b : Ref sig .tc) : Buf (Elt F) ((c : Thread nD τ).loc b) := W11 m c b
theorem hF1 (c : Dev nD) (w : Fin cfg1.W) : (dat1 (V10 m) c).arrAt w cfg1.N = V11 m c (Pipeline.arrRef spec1 w) :=
  (W11_arr m c w).symm
theorem hrest1 (c : Dev nD) : ∀ b, b ∉ Finset.univ.image (Pipeline.arrRef spec1) → V11 m c b = V10 m c b :=
  fun b hb => W11_of_ne m c b fun w e => hb (Finset.mem_image.mpr ⟨w, Finset.mem_univ _, e⟩)

/-- At the scatter-add region's exit. -/
def W12 (c : Dev nD) : Valuation τ sig (Elt F) :=
  Pipeline.withArrays spec2 c (W11 m c) fun w => (dat2 (V11 m) c).arrAt w cfg2.N
theorem W12_arr (c : Dev nD) (w : Fin cfg2.W) :
    W12 m c (Proc.devRef .tc (Pipeline.arrRef spec2 w)) = (dat2 (V11 m) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb
abbrev V12 (c : Dev nD) (b : Ref sig .tc) : Buf (Elt F) ((c : Thread nD τ).loc b) := W12 m c b
theorem hF2 (c : Dev nD) (w : Fin cfg2.W) : (dat2 (V11 m) c).arrAt w cfg2.N = V12 m c (Pipeline.arrRef spec2 w) :=
  (W12_arr m c w).symm
theorem hrest2 (c : Dev nD) : ∀ b, b ∉ Finset.univ.image (Pipeline.arrRef spec2) → V12 m c b = V11 m c b :=
  fun b hb => W12_of_ne m c b fun w e => hb (Finset.mem_image.mpr ⟨w, Finset.mem_univ _, e⟩)

/-- After the last host stretch (the slice that drops the padding rows): the contents at the return. -/
abbrev W13 (c : Dev nD) : Valuation τ sig (Elt F) := StableHlo.after hostOps3 (W12 m c)

/-- No pallas_call of the program has a prefetched table. -/
abbrev adm : (p : Fin 3) → (pcfgs (F := F) p).Adm := fun p => (cfgs p).toPCfg_adm

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V10 m) c
  | ⟨2, _⟩ => fun c => dat2 (V11 m) c

end Cert.Kernel.Hand

end
-- ==== Proof.K.Run.lean ====
/-
  The run of the whole program: its main function is thirteen items in order — two host stretches, the dense
  region, seven host stretches, the gather region, the scatter-add region, a last host stretch —, each
  entered from the buffer contents the one before it left (the fold of Fold.lean). Every weakly fair execution
  terminates without a fault, and at the end every unscoped buffer holds the fold's last contents; so the
  six argument arrays end as launched (no item writes one), and the result buffer holds the fold's value.
-/
import proofs.«410919_j82858509074624_1_alg».proof.Proof.K.Fold
import proofs.«410919_j82858509074624_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The thread state between items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and its debts, at nothing. -/
abbrev R (c : Dev nD) : sProp 𝕄 := iprop((∃ r, prngReg c r) ∗ ∃ W, owes (c : Thread nD τ) (0 : CellTallies nD τ sig Unit) W)
/-- A host stretch as an item: its operations over the unscoped buffers from the contents `W`, `R` riding along;
    it leaves those buffers at the operations' image of `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the debts: every unscoped buffer at the fold's last contents, the generator
    register at some state. -/
abbrev Tₙ (c : Dev nD) : sProp 𝕄 := iprop(StableHlo.held (c : Thread nD τ) (Pipeline.ucRefs τ sig) (W13 m c) ∗ ∃ r, prngReg c r)

/-- What the last host stretch leaves is the last thread state beside the core owing nothing. -/
theorem last_link (c : Dev nD) :
    iprop(StableHlo.held (c : Thread nD τ) (Pipeline.ucRefs τ sig) (W13 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The regions as items -/

set_option backward.isDefEq.respectTransparency.types false in
/-- The dense region over the thread state: entered from every unscoped buffer at `W2`, left at `W3`.
    Its windows' arrays are split out of the unscoped buffers at entry and put back at the exit contents; the
    generator register goes into the region's invariant and comes back out; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather region over the thread state: entered from every unscoped buffer at `W10`, left at `W11`.
    Its windows' arrays are split out of the unscoped buffers at entry and put back at the exit contents; the
    generator register goes into the region's invariant and comes back out; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V10 m) c).loose
  hwaits := Pipeline.hwaits_of_owed_zero _ _ _ _ L lv 1 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec1 c (V10 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V10 m c) (V11 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter-add region over the thread state: entered from every unscoped buffer at `W11`, left at `W12`.
    Its windows' arrays are split out of the unscoped buffers at entry and put back at the exit contents; the
    generator register goes into the region's invariant and comes back out; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m) c).loose
  hwaits := Pipeline.hwaits_of_owed_zero _ _ _ _ L lv 2 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec2 c (V11 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec2 c : sProp 𝕄)).trans (hin2 (V11 m) c)
    unfold Pipeline.ΦA
    iintro ⟨Hp, -, Hr⟩
    isplitl [Hr]; · iexact Hr
    iexact Hp
  hout c := by
    rw [Pipeline.ownSems0_none]
    refine (hout2 (V11 m) c).trans (?_ : (Pipeline.ΦA spec2 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V11 m c) (V12 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as its thirteen items, and the launch -/

/-- The thirteen items in order: a host stretch from its boundary's contents, a region per kernel call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .host (hseg hostOps1 hostOps1_sub hostOps1_fresh (W3 m)),
    .host (hseg hostOps1_1 hostOps1_1_sub hostOps1_1_fresh (W4 m)),
    .host (hseg hostOps1_2 hostOps1_2_sub hostOps1_2_fresh (W5 m)),
    .host (hseg hostOps1_3 hostOps1_3_sub hostOps1_3_fresh (W6 m)),
    .host (hseg hostOps1_4 hostOps1_4_sub hostOps1_4_fresh (W7 m)),
    .host (hseg hostOps1_5 hostOps1_5_sub hostOps1_5_fresh (W8 m)),
    .host (hseg hostOps1_6 hostOps1_6_sub hostOps1_6_fresh (W9 m)),
    .region (reg1 m),
    .region (reg2 m),
    .host (hseg hostOps3 hostOps3_sub hostOps3_fresh (W12 m)) ]

set_option backward.isDefEq.respectTransparency.types false in
/-- THE RUN: every weakly fair execution of the main function from memory `m` with zero counters terminates,
    and at the end every unscoped buffer of every core holds the fold's last contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W13 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h => h)

/-- A reference that no host stretch writes and that is no region's window array holds at the end what the
    launch memory held: the fold at its buffer walks back item by item. -/
theorem W13_of (c : Dev nD) (r : Ref sig .tc)
    (h12 : r ∉ hostOps3_W) (h11 : ∀ w, Pipeline.arrRef spec2 w ≠ r) (h10 : ∀ w, Pipeline.arrRef spec1 w ≠ r)
    (h9 : r ∉ hostOps1_6_W) (h8 : r ∉ hostOps1_5_W) (h7 : r ∉ hostOps1_4_W) (h6 : r ∉ hostOps1_3_W)
    (h5 : r ∉ hostOps1_2_W) (h4 : r ∉ hostOps1_1_W) (h3 : r ∉ hostOps1_W) (h2 : ∀ w, Pipeline.arrRef spec0 w ≠ r)
    (h1 : r ∉ hostOps0_1_W) (h0 : r ∉ hostOps0_W) :
    W13 m c (Proc.devRef .tc r) = m ((c : Thread nD τ).loc r) :=
  calc W13 m c (Proc.devRef .tc r)
    _ = W12 m c (Proc.devRef .tc r) := StableHlo.after_of_writes_sub hostOps3 _ hostOps3_writes h12
    _ = W11 m c (Proc.devRef .tc r) := W12_of_ne m c r h11
    _ = W10 m c (Proc.devRef .tc r) := W11_of_ne m c r h10
    _ = W9 m c (Proc.devRef .tc r) := StableHlo.after_of_writes_sub hostOps1_6 _ hostOps1_6_writes h9
    _ = W8 m c (Proc.devRef .tc r) := StableHlo.after_of_writes_sub hostOps1_5 _ hostOps1_5_writes h8
    _ = W7 m c (Proc.devRef .tc r) := StableHlo.after_of_writes_sub hostOps1_4 _ hostOps1_4_writes h7
    _ = W6 m c (Proc.devRef .tc r) := StableHlo.after_of_writes_sub hostOps1_3 _ hostOps1_3_writes h6
    _ = W5 m c (Proc.devRef .tc r) := StableHlo.after_of_writes_sub hostOps1_2 _ hostOps1_2_writes h5
    _ = W4 m c (Proc.devRef .tc r) := StableHlo.after_of_writes_sub hostOps1_1 _ hostOps1_1_writes h4
    _ = W3 m c (Proc.devRef .tc r) := StableHlo.after_of_writes_sub hostOps1 _ hostOps1_writes h3
    _ = W2 m c (Proc.devRef .tc r) := W3_of_ne m c r h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

/-- No item writes argument 0: the fold at its buffer walks back to the launch memory. -/
theorem W13_main_arg0 (c : Dev nD) : W13 m c (Proc.devRef .tc main_arg0) = m ((c : Thread nD τ).loc main_arg0) :=
  W13_of m c main_arg0 (by decide) (by decide) (by decide) (by decide) (by decide) (by decide) (by decide)
    (by decide) (by decide) (by decide) (by decide) (by decide) (by decide)
/-- No item writes argument 1: the fold at its buffer walks back to the launch memory. -/
theorem W13_main_arg1 (c : Dev nD) : W13 m c (Proc.devRef .tc main_arg1) = m ((c : Thread nD τ).loc main_arg1) :=
  W13_of m c main_arg1 (by decide) (by decide) (by decide) (by decide) (by decide) (by decide) (by decide)
    (by decide) (by decide) (by decide) (by decide) (by decide) (by decide)
/-- No item writes argument 2: the fold at its buffer walks back to the launch memory. -/
theorem W13_main_arg2 (c : Dev nD) : W13 m c (Proc.devRef .tc main_arg2) = m ((c : Thread nD τ).loc main_arg2) :=
  W13_of m c main_arg2 (by decide) (by decide) (by decide) (by decide) (by decide) (by decide) (by decide)
    (by decide) (by decide) (by decide) (by decide) (by decide) (by decide)
/-- No item writes argument 3: the fold at its buffer walks back to the launch memory. -/
theorem W13_main_arg3 (c : Dev nD) : W13 m c (Proc.devRef .tc main_arg3) = m ((c : Thread nD τ).loc main_arg3) :=
  W13_of m c main_arg3 (by decide) (by decide) (by decide) (by decide) (by decide) (by decide) (by decide)
    (by decide) (by decide) (by decide) (by decide) (by decide) (by decide)
/-- No item writes argument 4: the fold at its buffer walks back to the launch memory. -/
theorem W13_main_arg4 (c : Dev nD) : W13 m c (Proc.devRef .tc main_arg4) = m ((c : Thread nD τ).loc main_arg4) :=
  W13_of m c main_arg4 (by decide) (by decide) (by decide) (by decide) (by decide) (by decide) (by decide)
    (by decide) (by decide) (by decide) (by decide) (by decide) (by decide)
/-- No item writes argument 5: the fold at its buffer walks back to the launch memory. -/
theorem W13_main_arg5 (c : Dev nD) : W13 m c (Proc.devRef .tc main_arg5) = m ((c : Thread nD τ).loc main_arg5) :=
  W13_of m c main_arg5 (by decide) (by decide) (by decide) (by decide) (by decide) (by decide) (by decide)
    (by decide) (by decide) (by decide) (by decide) (by decide) (by decide)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c),
     (h c _ (mem_uc main_arg4 (by decide))).trans (W13_main_arg4 m c),
     (h c _ (mem_uc main_arg5 (by decide))).trans (W13_main_arg5 m c)⟩) (run_all m ρ)

/-- The run with the result named: the result buffer ends at the fold's value, the arguments as launched. -/
theorem run_value : θ_run defs (onTc (τ := τ) (main (F := F))) ⟨m, fun _ => 0, ρ⟩ (fun r => ∀ c : Dev nD,
      r.2.mem ((c.tc : Thread nD τ).loc main_v13) = W13 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v13 (by decide)),
     (h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c),
     (h c _ (mem_uc main_arg4 (by decide))).trans (W13_main_arg4 m c),
     (h c _ (mem_uc main_arg5 (by decide))).trans (W13_main_arg5 m c)⟩) (run_all m ρ)

end Cert.Kernel.Hand

end
-- ==== Proof.KI.Reg0.lean ====
/-
  The dense transform (first kernel region): per grid point it reads a 1024-row block of the padded node
  features, the whole summed weight matrix and the summed bias row, and stores the block's affine image.
  Here: the block each window shows at a point, what the body leaves in the output window's staging buffer
  as a function of the three input blocks, the region's proof data at ANY entry contents `V`, and the body
  obligation at every point.
-/
import proofs.«410919_j82858509074624_1_alg».proof.Proof.Gen.KernelIdeal.Launch
import proofs.«410919_j82858509074624_1_alg».proof.Proof.Gen.KernelIdeal.Skeleton
import proofs.«410919_j82858509074624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S1024x128 := Rect.unit (s := S1024x128) ![0, 0] S1024x128.size inb_S1024x128_S1024x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- The output window's staging buffer after the body: its one whole-block store, as a function of the
    three input blocks. -/
def out0_3 (x0 : Vec F S1024x128 .f32) (x1 : Vec F S128x128 .f32) (x2 : Vec F S1x128 .f32) : Vec F S1024x128 .bf16 :=
  View.canon [⟨rX0, k0_pay1 (View.ld x0 rX0) (View.ld x1 rW0) (View.ld x2 rB0)⟩]

/-- The region's proof data: arrays as found; inputs keep their blocks; the output holds `out0_3` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- An input window's current staging buffer holds its block at every point, fetched there or not: where it
    is not fetched the block index has not moved, so the previous point's block is this point's. For any
    proof data whose array is `V`'s and whose body leaves the block in place. Window 0 (the feature block). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 (the weight matrix: one block for the whole grid, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2 (the bias row: one block for the whole grid, fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one store is over the whole block, so it covers it. -/
theorem cover0_3 (p0 : Vec F S1024x128 .bf16) (y : S1024x128.Idx) :
    ∃ pc ∈ ([⟨rX0, p0⟩] : List (View.Piece (Elt F) S1024x128 .bf16)), y ∈ pc.1.set :=
  View.cover_of_tiled [⟨rX0, p0⟩] S1024x128.size (by rfl) y

set_option maxHeartbeats 1000000 in
/-- The body on whole staging memrefs, the three inputs' at read contents and the output's at anything, runs to
    the continuation holding the inputs' as they were and the output's at `out0_3` of the inputs'. -/
theorem sound_kernel0 (c : Dev nD) (E : Set ℕ) (i : grid0.Coords)
    (arg1 : Memref sig .tc .vmem S1024x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1024x128 .bf16) (harg4 : arg4.IsWhole)
    (x0 : Vec F S1024x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the dense transform at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Reg1.lean ====
/-
  The gather region (second kernel region): per grid point it reads a block of 128 edges (their column
  indices and weights) and the whole transformed-feature array, forms the 128 × 50176 selector whose entry
  (e, n) is the edge's weight when n is the edge's column and zero otherwise, and stores the selector's
  product with the features. Here: the blocks, what the body leaves in the output window's buffer, the
  region's proof data at ANY entry contents `V`, and the body obligation at every point.
-/
import proofs.«410919_j82858509074624_1_alg».proof.Proof.Gen.KernelIdeal.Launch
import proofs.«410919_j82858509074624_1_alg».proof.Proof.Gen.KernelIdeal.Skeleton
import proofs.«410919_j82858509074624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rH1 : Rect S50176x128 := Rect.unit (s := S50176x128) ![0, 0] S50176x128.size inb_S50176x128_S50176x128_0_0
abbrev rE1 : Rect S128x1 := Rect.unit (s := S128x1) ![0, 0] S128x1.size inb_S128x1_S128x1_0_0
abbrev rO1 : Rect S128x128 := Rect.unit (s := S128x128) ![0, 0] S128x128.size inb_S128x128_S128x128_0_0

/-- The output window's staging buffer after the body: its one whole-block store, as a function of the
    features (window 0), the column indices (window 1) and the weights (window 2). -/
def out1_3 (x0 : Vec F S50176x128 .bf16) (x1 : Vec F S128x1 .i32) (x2 : Vec F S128x1 .f32) : Vec F S128x128 .bf16 :=
  View.canon [⟨rO1, k1_pay1 (View.ld x1 rE1) (View.ld x2 rE1) (View.ld x0 rH1)⟩]

/-- The region's proof data: arrays as found; inputs keep their blocks; the output holds `out1_3` of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- An input window's current staging buffer holds its block at every point, fetched there or not: where it
    is not fetched the block index has not moved, so the previous point's block is this point's. For any
    proof data whose array is `V`'s and whose body leaves the block in place. Window 0 (the feature matrix:
    one block for the whole grid, fetched at the first point only). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (the block of column indices). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 (the block of edge weights). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The one store is over the whole block, so it covers it. -/
theorem cover1_3 (p0 : Vec F S128x128 .bf16) (y : S128x128.Idx) :
    ∃ pc ∈ ([⟨rO1, p0⟩] : List (View.Piece (Elt F) S128x128 .bf16)), y ∈ pc.1.set :=
  View.cover_of_tiled [⟨rO1, p0⟩] S128x128.size (by rfl) y

set_option maxHeartbeats 1000000 in
/-- The body on whole staging memrefs, the three inputs' at read contents and the output's at anything, runs to
    the continuation holding the inputs' as they were and the output's at `out1_3` of the inputs'. -/
theorem sound_kernel1 (c : Dev nD) (E : Set ℕ) (i : grid1.Coords)
    (arg1 : Memref sig .tc .vmem S50176x128 .bf16) (harg1 : arg1.IsWhole)
    (arg2 : Memref sig .tc .vmem S128x1 .i32) (harg2 : arg2.IsWhole)
    (arg3 : Memref sig .tc .vmem S128x1 .f32) (harg3 : arg3.IsWhole)
    (arg4 : Memref sig .tc .vmem S128x128 .bf16) (harg4 : arg4.IsWhole)
    (x0 : Vec F S50176x128 .bf16) (x1 : Vec F S128x1 .i32) (x2 : Vec F S128x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__gather_kernel i arg1 harg1 arg2 harg2 arg3 harg3 arg4 harg4) K := by
  simp only [cc1__gather_kernel_eq_skeleton]; unfold cc1__gather_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the gather region at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Reg2.lean ====
/-
  The scatter-add region (third kernel region), on a 49 × 49 grid (i, j): the scratch accumulator is reset
  at j = 0, at every point it gains the product of the point's 1024 × 8192 row-selector (entry (r, e) is one
  when edge e of the j-th chunk lands on row 1024·i + r, else zero) with the chunk's messages, and at j = 48
  its positive part is stored to the output block i. The accumulator is carried from point to point, so the
  region's invariant names what it holds after each point. Here: the blocks, the accumulator after each
  point by recursion on the point, the proof data at ANY entry contents `V`, the body obligation, and the
  invariant's two ends.
-/
import proofs.«410919_j82858509074624_1_alg».proof.Proof.Gen.KernelIdeal.Launch
import proofs.«410919_j82858509074624_1_alg».proof.Proof.Gen.KernelIdeal.Skeleton
import proofs.«410919_j82858509074624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch accumulator, a whole scoped buffer of the kernel's own. -/
abbrev scM2 : Memref sig .tc .vmem S1024x128 .f32 := Memref.whole cc2_scratch0

/-- One accumulation step at grid coordinates `i`: the accumulator `prev` plus the selector-times-messages
    product of the point's message block `xmsg` and row-index block `xrow`. -/
def acc2 (i : grid2.Coords) (xmsg : Vec F S8192x128 .bf16) (xrow : Vec F S1x8192 .i32) (prev : Vec F S1024x128 .f32) :
    Vec F S1024x128 .f32 :=
  k2_pay2 i xrow xmsg prev

/-- What the accumulator holds after the body at position `n`: at a chunk index j = 0 (n ≡ 0 mod 49) one step
    from the zero block, otherwise one step from what the point before left. -/
def sAt2 (c : Dev nD) : (n : ℕ) → n < cfg2.N → Vec F S1024x128 .f32
  | 0, hn => acc2 (grid2.coords ⟨0, hn⟩) (iblk2 V c 0 ⟨0, hn⟩) (iblk2 V c 1 ⟨0, hn⟩) (k2_pay1 (F := F))
  | n + 1, hn =>
    if (n + 1) % 49 = 0 then
      acc2 (grid2.coords ⟨n + 1, hn⟩) (iblk2 V c 0 ⟨n + 1, hn⟩) (iblk2 V c 1 ⟨n + 1, hn⟩) (k2_pay1 (F := F))
    else
      acc2 (grid2.coords ⟨n + 1, hn⟩) (iblk2 V c 0 ⟨n + 1, hn⟩) (iblk2 V c 1 ⟨n + 1, hn⟩) (sAt2 c n (Nat.lt_of_succ_lt hn))

theorem sAt2_reset (c : Dev nD) (t : Fin cfg2.N) (h : t.val % 49 = 0) :
    sAt2 V c t.val t.isLt = acc2 (grid2.coords t) (iblk2 V c 0 t) (iblk2 V c 1 t) (k2_pay1 (F := F)) := by
  obtain ⟨n, hn⟩ := t
  cases n with
  | zero => rfl
  | succ n => exact (if_pos h)

theorem sAt2_step (c : Dev nD) (t : Fin cfg2.N) (h : ¬ t.val % 49 = 0) :
    sAt2 V c t.val t.isLt = acc2 (grid2.coords t) (iblk2 V c 0 t) (iblk2 V c 1 t)
      (sAt2 V c (t.val - 1) (Nat.lt_of_le_of_lt (Nat.sub_le _ _) t.isLt)) := by
  obtain ⟨n, hn⟩ := t
  cases n with
  | zero => exact absurd (Nat.zero_mod _) h
  | succ n => exact (if_neg h)

/-- The core's scoped buffers that region 2 neither stages nor uses (the other regions' staging buffers), each at
    some contents, beside a statement `S` about the scratch accumulator. -/
def restWith (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ S)

/-- The class invariant of region 2, with the scratch accumulator singled out at some contents. -/
theorem PhiA2_eq (c : Dev nD) :
    (Pipeline.ΦA spec2 c : sProp 𝕄)
      = iprop(restWith (F := F) c iprop(∃ d, owns (c : Thread nD τ) scM2 fullShare d) ∗ (∃ r, prngReg c r)) := by
  unfold Pipeline.ΦA restWith; rw [scopedRest2_eq]; simp only [scM2, owns_whole]; try rfl

/-- A statement about the accumulator may be weakened beside the untouched buffers. -/
theorem restWith_mono (c : Dev nD) {S S' : sProp 𝕄} (h : S ⊢ S') : restWith (F := F) c S ⊢ restWith (F := F) c S' := by
  unfold restWith
  iintro ⟨H0, H1, H2, H3, H4, H5, H6, H7, H8, H9, H10, H11, H12, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iapply h; iexact HS

/-- The region invariant before position `n`: before the first point the class's (every scoped buffer at
    anything); afterwards the same with the scratch accumulator at what the point before left in it. -/
def PhiS2 (c : Dev nD) : (n : ℕ) → n ≤ cfg2.N → sProp 𝕄
  | 0, _ => Pipeline.ΦA spec2 c
  | n + 1, hn => iprop(restWith (F := F) c (owns (c : Thread nD τ) scM2 fullShare (sAt2 V c n hn)) ∗ (∃ r, prngReg c r))

/-- The accumulator's statement taken out from beside the untouched buffers, with the way to put another back. -/
theorem restWith_swap (c : Dev nD) (S S' : sProp 𝕄) :
    restWith (F := F) c S ⊢ iprop(S ∗ (S' -∗ restWith (F := F) c S')) := by
  unfold restWith
  iintro ⟨H0, H1, H2, H3, H4, H5, H6, H7, H8, H9, H10, H11, H12, HS⟩
  isplitl [HS]; · iexact HS
  iintro HS'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HS'

theorem PhiS2_zero (c : Dev nD) (n : ℕ) (h : n ≤ cfg2.N) (hz : n = 0) : PhiS2 V c n h = Pipeline.ΦA spec2 c := by
  subst hz; rfl

/-- After point `n`: the accumulator at that point's contents. -/
theorem PhiS2_succ (c : Dev nD) (n : ℕ) (hn : n < cfg2.N) :
    PhiS2 V c (n + 1) hn = iprop(restWith (F := F) c (owns (c : Thread nD τ) scM2 fullShare (sAt2 V c n hn)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(restWith (F := F) c (owns (c : Thread nD τ) scM2 fullShare (sAt2 V c (n - 1) (by omega))) ∗ (∃ r, prngReg c r)) := by
  cases n with
  | zero => exact absurd rfl hz
  | succ n => rfl

/-- The region's proof data: arrays as found; inputs keep their blocks; the output block holds the positive
    part of the accumulator (consulted only where the pipeline writes the block back, at j = 48); the invariant
    carries the accumulator. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (sAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (sAt2 V c t.val t.isLt) := by dsimp only [dat2]

/-! ## The body's branch conditions and where the output window is idle -/

/-- The body's first condition (the chunk index is zero), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 49). -/
theorem hcond2_0 : ∀ t : Fin cfg2.N, cond2_0 (grid2.coords t) ↔ t.val % 49 = 0 :=
  (by decide +kernel : ∀ t : Fin grid2.N, cond2_0 (grid2.coords t) ↔ t.val % 49 = 0)

/-- The body's second condition (the chunk index is the last, 48). -/
abbrev cond2_1 (i : grid2.Coords) : Prop := k2_cond2 i = 1#1
/-- It holds at the points ≡ 48 (mod 49). -/
theorem hcond2_1 : ∀ t : Fin cfg2.N, cond2_1 (grid2.coords t) ↔ t.val % 49 = 48 :=
  (by decide +kernel : ∀ t : Fin grid2.N, cond2_1 (grid2.coords t) ↔ t.val % 49 = 48)

/-- The input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
/-- Away from the last chunk the output window is idle and not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last chunk it is live. -/
theorem liveAt2_2 : ∀ t : Fin cfg2.N, cond2_1 (grid2.coords t) → cfg2.idle 2 (grid2.coords t) = false := by decide +kernel

/-! ## The body's triple, one per control case -/

abbrev rS2 : Rect S1024x128 := Rect.unit (s := S1024x128) ![0, 0] S1024x128.size inb_S1024x128_S1024x128_0_0

/-- The offset of every access of the body: the origin. -/
theorem hz2 : (![0, 0] : Fin 2 → Nat) = fun _ => 0 := funext fun a => by fin_cases a <;> rfl

/-- A list of stores whose last is over the whole block covers the block. -/
theorem cover2_head (p0 : Vec F S1024x128 .f32) (L : List (View.Piece (Elt F) S1024x128 .f32)) (y : S1024x128.Idx) :
    ∃ pc ∈ ((⟨rS2, p0⟩ : View.Piece (Elt F) S1024x128 .f32) :: L), y ∈ pc.1.set := by
  obtain ⟨pc, hpc, hy⟩ := View.cover_of_tiled [(⟨rS2, p0⟩ : View.Piece (Elt F) S1024x128 .f32)] S1024x128.size (by rfl) y
  rw [List.mem_singleton] at hpc; subst hpc
  exact ⟨_, List.mem_cons_self .., hy⟩

set_option maxHeartbeats 1000000 in
/-- Middle chunks (neither the first nor the last): the accumulator gains one step; the output block is untouched. -/
theorem run2_B (c : Dev nD) (E : Set ℕ) (i : grid2.Coords)
    (arg2 : Memref sig .tc .vmem S8192x128 .bf16) (harg2 : arg2.IsWhole)
    (arg3 : Memref sig .tc .vmem S1x8192 .i32) (harg3 : arg3.IsWhole)
    (arg4 : Memref sig .tc .vmem S1024x128 .f32) (harg4 : arg4.IsWhole)
    (arg5 : Memref sig .tc .vmem S1024x128 .f32) (harg5 : arg5.IsWhole)
    (hc0 : ¬cond2_0 i) (hc1 : ¬cond2_1 i)
    (xmsg : Vec F S8192x128 .bf16) (xrow : Vec F S1x8192 .i32) (xo : Vec F S1024x128 .f32) (prev : Vec F S1024x128 .f32)
    (K : PUnit → sProp 𝕄) :
    iprop(owns (c : Thread nD τ) arg2 fullShare xmsg ∗ owns (c : Thread nD τ) arg3 fullShare xrow
        ∗ owns (c : Thread nD τ) arg4 fullShare xo ∗ owns (c : Thread nD τ) arg5 fullShare prev
        ∗ (iprop(owns (c : Thread nD τ) arg2 fullShare xmsg ∗ owns (c : Thread nD τ) arg3 fullShare xrow
            ∗ owns (c : Thread nD τ) arg4 fullShare xo ∗ owns (c : Thread nD τ) arg5 fullShare (acc2 i xmsg xrow prev)) -∗ K ⟨⟩))
      ⊢ wp frame (wpE (defs₀ (F := F)) Variants.none c none) E (cc2__scatter_kernel i arg2 harg2 arg3 harg3 arg4 harg4 arg5 harg5) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover2_head _ _), View.canon_unit_zero (S := S1024x128) hz2]
  simp only [View.readAt_eq_ld, View.ld_unit_zero (S := S1x8192) hz2, View.ld_unit_zero (S := S8192x128) hz2, View.ld_unit_zero (S := S1024x128) hz2]
  try rfl

set_option maxHeartbeats 1000000 in
/-- First chunk: the accumulator, whatever it held, is reset to the zero block and gains one step; the output block is untouched. -/
theorem run2_A (c : Dev nD) (E : Set ℕ) (i : grid2.Coords)
    (arg2 : Memref sig .tc .vmem S8192x128 .bf16) (harg2 : arg2.IsWhole)
    (arg3 : Memref sig .tc .vmem S1x8192 .i32) (harg3 : arg3.IsWhole)
    (arg4 : Memref sig .tc .vmem S1024x128 .f32) (harg4 : arg4.IsWhole)
    (arg5 : Memref sig .tc .vmem S1024x128 .f32) (harg5 : arg5.IsWhole)
    (hc0 : cond2_0 i) (hc1 : ¬cond2_1 i)
    (xmsg : Vec F S8192x128 .bf16) (xrow : Vec F S1x8192 .i32) (xo : Vec F S1024x128 .f32) (prev : Vec F S1024x128 .f32)
    (K : PUnit → sProp 𝕄) :
    iprop(owns (c : Thread nD τ) arg2 fullShare xmsg ∗ owns (c : Thread nD τ) arg3 fullShare xrow
        ∗ owns (c : Thread nD τ) arg4 fullShare xo ∗ (∃ d, owns (c : Thread nD τ) arg5 fullShare d)
        ∗ (iprop(owns (c : Thread nD τ) arg2 fullShare xmsg ∗ owns (c : Thread nD τ) arg3 fullShare xrow
            ∗ owns (c : Thread nD τ) arg4 fullShare xo ∗ owns (c : Thread nD τ) arg5 fullShare (acc2 i xmsg xrow (k2_pay1 (F := F)))) -∗ K ⟨⟩))
      ⊢ wp frame (wpE (defs₀ (F := F)) Variants.none c none) E (cc2__scatter_kernel i arg2 harg2 arg3 harg3 arg4 harg4 arg5 harg5) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover2_head _ _), View.canon_cons_unit_zero (S := S1024x128) hz2]
  simp only [View.readAt_eq_ld, View.ld_unit_zero (S := S1x8192) hz2, View.ld_unit_zero (S := S8192x128) hz2, View.ld_unit_zero (S := S1024x128) hz2, View.readCov_unit_zero (S := S1024x128) _ hz2]
  try rfl

set_option maxHeartbeats 1000000 in
/-- Last chunk: the accumulator gains one step, and its positive part is stored over the output block, whatever that held. -/
theorem run2_C (c : Dev nD) (E : Set ℕ) (i : grid2.Coords)
    (arg2 : Memref sig .tc .vmem S8192x128 .bf16) (harg2 : arg2.IsWhole)
    (arg3 : Memref sig .tc .vmem S1x8192 .i32) (harg3 : arg3.IsWhole)
    (arg4 : Memref sig .tc .vmem S1024x128 .f32) (harg4 : arg4.IsWhole)
    (arg5 : Memref sig .tc .vmem S1024x128 .f32) (harg5 : arg5.IsWhole)
    (hc0 : ¬cond2_0 i) (hc1 : cond2_1 i)
    (xmsg : Vec F S8192x128 .bf16) (xrow : Vec F S1x8192 .i32) (xo : Vec F S1024x128 .f32) (prev : Vec F S1024x128 .f32)
    (K : PUnit → sProp 𝕄) :
    iprop(owns (c : Thread nD τ) arg2 fullShare xmsg ∗ owns (c : Thread nD τ) arg3 fullShare xrow
        ∗ (∃ d, owns (c : Thread nD τ) arg4 fullShare d) ∗ owns (c : Thread nD τ) arg5 fullShare prev
        ∗ (iprop(owns (c : Thread nD τ) arg2 fullShare xmsg ∗ owns (c : Thread nD τ) arg3 fullShare xrow
            ∗ owns (c : Thread nD τ) arg4 fullShare (k2_pay3 (acc2 i xmsg xrow prev)) ∗ owns (c : Thread nD τ) arg5 fullShare (acc2 i xmsg xrow prev)) -∗ K ⟨⟩))
      ⊢ wp frame (wpE (defs₀ (F := F)) Variants.none c none) E (cc2__scatter_kernel i arg2 harg2 arg3 harg3 arg4 harg4 arg5 harg5) K := by
  simp only [cc2__scatter_kernel_eq_skeleton]; unfold cc2__scatter_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover2_head _ _), View.canon_unit_zero (S := S1024x128) hz2]
    simp only [View.readAt_eq_ld, View.ld_unit_zero (S := S1x8192) hz2, View.ld_unit_zero (S := S8192x128) hz2, View.ld_unit_zero (S := S1024x128) hz2, View.readCov_unit_zero (S := S1024x128) _ hz2]
    try rfl
  iexists _; isplitr
  swap; · iexact H3
  ipureintro
  sl_unfold_words
  rw [View.read_writes_eq_canon _ _ _ (cover2_head _ _), View.canon_unit_zero (S := S1024x128) hz2]
  simp only [View.readAt_eq_ld, View.ld_unit_zero (S := S1x8192) hz2, View.ld_unit_zero (S := S8192x128) hz2, View.ld_unit_zero (S := S1024x128) hz2, View.readCov_unit_zero (S := S1024x128) _ hz2]
  try rfl

/-- Before any point the invariant gives the accumulator at some contents beside the untouched buffers. -/
theorem PhiS2_any (c : Dev nD) (n : ℕ) (h : n ≤ cfg2.N) :
    PhiS2 V c n h ⊢ iprop(restWith (F := F) c iprop(∃ d, owns (c : Thread nD τ) scM2 fullShare d) ∗ (∃ r, prngReg c r)) := by
  cases n with
  | zero => rw [PhiS2_zero V c 0 _ rfl, PhiA2_eq]; try exact Idealize.SL.BI.Entails.refl _
  | succ n =>
    rw [PhiS2_succ]
    exact BIClass.sep_mono (restWith_mono c (by iintro H; iexists _; iexact H)) (Idealize.SL.BI.Entails.refl _)

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- An input window's current staging buffer holds its block at every point (both are fetched at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the point's chunk index says which case it is in;
    the invariant hands the body the accumulator at what the point before left (at anything where the chunk index is
    zero) and takes it back at this point's contents; the other scoped buffers, the generator register and the core's
    debts pass through unread; the output block is handed back untouched except at the last chunk. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 2401 := lt_of_lt_of_eq t.isLt (show cfg2.N = 2401 from N_2)
  rw [PhiS2_castSucc V c t]
  by_cases h1 : t.val % 49 = 48
  · have h0 : ¬t.val % 49 = 0 := by omega
    have hz : t.val ≠ 0 := by omega
    rw [show (dat2 V c).leavesExact 2 t = owns (c : Thread nD τ) (st2_2 t) fullShare ((dat2 V c).after 2 t) from by
      unfold Dat.leavesExact; rw [liveAt2_2 t ((hcond2_1 t).mpr h1)], after2_2]
    rw [sAt2_step V c t h0, PhiS2_pos V c _ _ hz]
    refine BIClass.entails_trans (BIClass.sep_mono (BIClass.sep_mono (restWith_swap c _
      (owns (c : Thread nD τ) scM2 fullShare (acc2 (grid2.coords t) (iblk2 V c 0 t) (iblk2 V c 1 t)
        (sAt2 V c (t.val - 1) (Nat.lt_of_le_of_lt (Nat.sub_le _ _) t.isLt))))) (Idealize.SL.BI.Entails.refl _)) (Idealize.SL.BI.Entails.refl _)) ?_
    iintro ⟨⟨⟨HS, Hback⟩, Hg⟩, Ho, ⟨%d0, H0⟩, ⟨%d1, H1⟩, ⟨%d2, H2⟩⟩
    iapply (run2_C c Set.univ (grid2.coords t) _ _ _ _ _ _ _ _ (fun h => h0 ((hcond2_0 t).mp h)) ((hcond2_1 t).mpr h1)
      (iblk2 V c 0 t) (iblk2 V c 1 t) (k2_pay1 (F := F)) _ _)
    isplitl [H0]; · iexact H0
    isplitl [H1]; · iexact H1
    isplitl [H2]; · iexists _; iexact H2
    isplitl [HS]; · iexact HS
    iintro ⟨H0, H1, H2, HS⟩
    isplitl [HS Hback Hg]
    · isplitl [HS Hback]
      · iapply Hback; iexact HS
      iexact Hg
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases h0 : t.val % 49 = 0
    · rw [sAt2_reset V c t h0]
      refine BIClass.entails_trans (BIClass.sep_mono ((PhiS2_any V c _ _).trans (BIClass.sep_mono (restWith_swap c _
        (owns (c : Thread nD τ) scM2 fullShare (acc2 (grid2.coords t) (iblk2 V c 0 t) (iblk2 V c 1 t) (k2_pay1 (F := F)))))
        (Idealize.SL.BI.Entails.refl _))) (Idealize.SL.BI.Entails.refl _)) ?_
      iintro ⟨⟨⟨HS, Hback⟩, Hg⟩, Ho, ⟨%d0, H0⟩, ⟨%d1, H1⟩, ⟨%d2, H2⟩⟩
      iapply (run2_A c Set.univ (grid2.coords t) _ _ _ _ _ _ _ _ ((hcond2_0 t).mpr h0) (fun h => h1 ((hcond2_1 t).mp h))
        (iblk2 V c 0 t) (iblk2 V c 1 t) ((dat2 V c).before 2 t d2) (k2_pay1 (F := F)) _)
      isplitl [H0]; · iexact H0
      isplitl [H1]; · iexact H1
      isplitl [H2]; · iexact H2
      isplitl [HS]; · iexact HS
      iintro ⟨H0, H1, H2, HS⟩
      isplitl [HS Hback Hg]
      · isplitl [HS Hback]
        · iapply Hback; iexact HS
        iexact Hg
      isplitl [Ho]; · iexact Ho
      isplitl [H0]; · iexact H0
      isplitl [H1]; · iexact H1
      iexists _; iexact H2
    · have hz : t.val ≠ 0 := fun h => h0 (by rw [h])
      rw [sAt2_step V c t h0, PhiS2_pos V c _ _ hz]
      refine BIClass.entails_trans (BIClass.sep_mono (BIClass.sep_mono (restWith_swap c _
        (owns (c : Thread nD τ) scM2 fullShare (acc2 (grid2.coords t) (iblk2 V c 0 t) (iblk2 V c 1 t)
          (sAt2 V c (t.val - 1) (Nat.lt_of_le_of_lt (Nat.sub_le _ _) t.isLt))))) (Idealize.SL.BI.Entails.refl _)) (Idealize.SL.BI.Entails.refl _)) ?_
      iintro ⟨⟨⟨HS, Hback⟩, Hg⟩, Ho, ⟨%d0, H0⟩, ⟨%d1, H1⟩, ⟨%d2, H2⟩⟩
      iapply (run2_B c Set.univ (grid2.coords t) _ _ _ _ _ _ _ _ (fun h => h0 ((hcond2_0 t).mp h)) (fun h => h1 ((hcond2_1 t).mp h))
        (iblk2 V c 0 t) (iblk2 V c 1 t) ((dat2 V c).before 2 t d2) _ _)
      isplitl [H0]; · iexact H0
      isplitl [H1]; · iexact H1
      isplitl [H2]; · iexact H2
      isplitl [HS]; · iexact HS
      iintro ⟨H0, H1, H2, HS⟩
      isplitl [HS Hback Hg]
      · isplitl [HS Hback]
        · iapply Hback; iexact HS
        iexact Hg
      isplitl [Ho]; · iexact Ho
      isplitl [H0]; · iexact H0
      isplitl [H1]; · iexact H1
      iexists _; iexact H2

/-- The body obligation of the scatter-add region at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 2401 := N_2; omega), PhiA2_eq]
  exact BIClass.sep_mono (restWith_mono c (by iintro H; iexists _; iexact H)) (Idealize.SL.BI.Entails.refl _)

end Region2

end Cert.KernelIdeal.Hand

end
-- ==== Proof.KI.Fold.lean ====
/-
  The contents of the TensorCore's unscoped buffers at every boundary between two items of the program's
  main function — host stretch, host stretch, dense region, seven host stretches, gather region, scatter-add
  region, final host stretch — as a fold from the launch memory: a host stretch applies its operations; a
  kernel region leaves each of its windows' arrays at what its write-backs leave and every other buffer as
  entered. And the three regions' proof data, each at its own region's entry contents.
-/
import proofs.«410919_j82858509074624_1_alg».proof.Proof.KI.Reg0
import proofs.«410919_j82858509074624_1_alg».proof.Proof.KI.Reg1
import proofs.«410919_j82858509074624_1_alg».proof.Proof.KI.Reg2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- After the first host stretch (the summed weights and biases). -/
abbrev W1 (c : Dev nD) : Valuation τ sig (Elt F) := StableHlo.after hostOps0 (W0 m c)
/-- After the second (the padded node features): the dense region's entry. -/
abbrev W2 (c : Dev nD) : Valuation τ sig (Elt F) := StableHlo.after hostOps0_1 (W1 m c)
/-- The same read at the TensorCore's references. -/
abbrev V2 (c : Dev nD) (b : Ref sig .tc) : Buf (Elt F) ((c : Thread nD τ).loc b) := W2 m c b
/-- At the dense region's exit. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 (c : Dev nD) (b : Ref sig .tc) : Buf (Elt F) ((c : Thread nD τ).loc b) := W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

/-- After each of the seven host stretches between the dense and the gather region (the padded and reshaped
    edge arrays). -/
abbrev W4 (c : Dev nD) : Valuation τ sig (Elt F) := StableHlo.after hostOps1 (W3 m c)
abbrev W5 (c : Dev nD) : Valuation τ sig (Elt F) := StableHlo.after hostOps1_1 (W4 m c)
abbrev W6 (c : Dev nD) : Valuation τ sig (Elt F) := StableHlo.after hostOps1_2 (W5 m c)
abbrev W7 (c : Dev nD) : Valuation τ sig (Elt F) := StableHlo.after hostOps1_3 (W6 m c)
abbrev W8 (c : Dev nD) : Valuation τ sig (Elt F) := StableHlo.after hostOps1_4 (W7 m c)
abbrev W9 (c : Dev nD) : Valuation τ sig (Elt F) := StableHlo.after hostOps1_5 (W8 m c)
/-- The gather region's entry. -/
abbrev W10 (c : Dev nD) : Valuation τ sig (Elt F) := StableHlo.after hostOps1_6 (W9 m c)
abbrev V10 (c : Dev nD) (b : Ref sig .tc) : Buf (Elt F) ((c : Thread nD τ).loc b) := W10 m c b
/-- At the gather region's exit: the scatter-add region's entry. -/
def W11 (c : Dev nD) : Valuation τ sig (Elt F) :=
  Pipeline.withArrays spec1 c (W10 m c) fun w => (dat1 (V10 m) c).arrAt w cfg1.N
theorem W11_arr (c : Dev nD) (w : Fin cfg1.W) :
    W11 m c (Proc.devRef .tc (Pipeline.arrRef spec1 w)) = (dat1 (V10 m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m c (Proc.devRef .tc b) = W10 m c (Proc.devRef .tc b) := by
  unfold W11; exact Pipeline.withArrays_of_ne spec1 c _ _ b hb
abbrev V11 (c : Dev nD) (b : Ref sig .tc) : Buf (Elt F) ((c : Thread nD τ).loc b) := W11 m c b
theorem hF1 (c : Dev nD) (w : Fin cfg1.W) : (dat1 (V10 m) c).arrAt w cfg1.N = V11 m c (Pipeline.arrRef spec1 w) :=
  (W11_arr m c w).symm
theorem hrest1 (c : Dev nD) : ∀ b, b ∉ Finset.univ.image (Pipeline.arrRef spec1) → V11 m c b = V10 m c b :=
  fun b hb => W11_of_ne m c b fun w e => hb (Finset.mem_image.mpr ⟨w, Finset.mem_univ _, e⟩)

/-- At the scatter-add region's exit. -/
def W12 (c : Dev nD) : Valuation τ sig (Elt F) :=
  Pipeline.withArrays spec2 c (W11 m c) fun w => (dat2 (V11 m) c).arrAt w cfg2.N
theorem W12_arr (c : Dev nD) (w : Fin cfg2.W) :
    W12 m c (Proc.devRef .tc (Pipeline.arrRef spec2 w)) = (dat2 (V11 m) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb
abbrev V12 (c : Dev nD) (b : Ref sig .tc) : Buf (Elt F) ((c : Thread nD τ).loc b) := W12 m c b
theorem hF2 (c : Dev nD) (w : Fin cfg2.W) : (dat2 (V11 m) c).arrAt w cfg2.N = V12 m c (Pipeline.arrRef spec2 w) :=
  (W12_arr m c w).symm
theorem hrest2 (c : Dev nD) : ∀ b, b ∉ Finset.univ.image (Pipeline.arrRef spec2) → V12 m c b = V11 m c b :=
  fun b hb => W12_of_ne m c b fun w e => hb (Finset.mem_image.mpr ⟨w, Finset.mem_univ _, e⟩)

/-- After the last host stretch (the slice that drops the padding rows): the contents at the return. -/
abbrev W13 (c : Dev nD) : Valuation τ sig (Elt F) := StableHlo.after hostOps3 (W12 m c)

/-- No pallas_call of the program has a prefetched table. -/
abbrev adm : (p : Fin 3) → (pcfgs (F := F) p).Adm := fun p => (cfgs p).toPCfg_adm

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V10 m) c
  | ⟨2, _⟩ => fun c => dat2 (V11 m) c

end Cert.KernelIdeal.Hand

end
-- ==== Proof.KI.Run.lean ====
/-
  The run of the whole program: its main function is thirteen items in order — two host stretches, the dense
  region, seven host stretches, the gather region, the scatter-add region, a last host stretch —, each
  entered from the buffer contents the one before it left (the fold of Fold.lean). Every weakly fair execution
  terminates without a fault, and at the end every unscoped buffer holds the fold's last contents; so the
  six argument arrays end as launched (no item writes one), and the result buffer holds the fold's value.
-/
import proofs.«410919_j82858509074624_1_alg».proof.Proof.KI.Fold
import proofs.«410919_j82858509074624_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The thread state between items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and its debts, at nothing. -/
abbrev R (c : Dev nD) : sProp 𝕄 := iprop((∃ r, prngReg c r) ∗ ∃ W, owes (c : Thread nD τ) (0 : CellTallies nD τ sig Unit) W)
/-- A host stretch as an item: its operations over the unscoped buffers from the contents `W`, `R` riding along;
    it leaves those buffers at the operations' image of `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the debts: every unscoped buffer at the fold's last contents, the generator
    register at some state. -/
abbrev Tₙ (c : Dev nD) : sProp 𝕄 := iprop(StableHlo.held (c : Thread nD τ) (Pipeline.ucRefs τ sig) (W13 m c) ∗ ∃ r, prngReg c r)

/-- What the last host stretch leaves is the last thread state beside the core owing nothing. -/
theorem last_link (c : Dev nD) :
    iprop(StableHlo.held (c : Thread nD τ) (Pipeline.ucRefs τ sig) (W13 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The regions as items -/

set_option backward.isDefEq.respectTransparency.types false in
/-- The dense region over the thread state: entered from every unscoped buffer at `W2`, left at `W3`.
    Its windows' arrays are split out of the unscoped buffers at entry and put back at the exit contents; the
    generator register goes into the region's invariant and comes back out; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather region over the thread state: entered from every unscoped buffer at `W10`, left at `W11`.
    Its windows' arrays are split out of the unscoped buffers at entry and put back at the exit contents; the
    generator register goes into the region's invariant and comes back out; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V10 m) c).loose
  hwaits := Pipeline.hwaits_of_owed_zero _ _ _ _ L lv 1 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec1 c (V10 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V10 m c) (V11 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter-add region over the thread state: entered from every unscoped buffer at `W11`, left at `W12`.
    Its windows' arrays are split out of the unscoped buffers at entry and put back at the exit contents; the
    generator register goes into the region's invariant and comes back out; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m) c).loose
  hwaits := Pipeline.hwaits_of_owed_zero _ _ _ _ L lv 2 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec2 c (V11 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec2 c : sProp 𝕄)).trans (hin2 (V11 m) c)
    unfold Pipeline.ΦA
    iintro ⟨Hp, -, Hr⟩
    isplitl [Hr]; · iexact Hr
    iexact Hp
  hout c := by
    rw [Pipeline.ownSems0_none]
    refine (hout2 (V11 m) c).trans (?_ : (Pipeline.ΦA spec2 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V11 m c) (V12 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as its thirteen items, and the launch -/

/-- The thirteen items in order: a host stretch from its boundary's contents, a region per kernel call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .host (hseg hostOps1 hostOps1_sub hostOps1_fresh (W3 m)),
    .host (hseg hostOps1_1 hostOps1_1_sub hostOps1_1_fresh (W4 m)),
    .host (hseg hostOps1_2 hostOps1_2_sub hostOps1_2_fresh (W5 m)),
    .host (hseg hostOps1_3 hostOps1_3_sub hostOps1_3_fresh (W6 m)),
    .host (hseg hostOps1_4 hostOps1_4_sub hostOps1_4_fresh (W7 m)),
    .host (hseg hostOps1_5 hostOps1_5_sub hostOps1_5_fresh (W8 m)),
    .host (hseg hostOps1_6 hostOps1_6_sub hostOps1_6_fresh (W9 m)),
    .region (reg1 m),
    .region (reg2 m),
    .host (hseg hostOps3 hostOps3_sub hostOps3_fresh (W12 m)) ]

set_option backward.isDefEq.respectTransparency.types false in
/-- THE RUN: every weakly fair execution of the main function from memory `m` with zero counters terminates,
    and at the end every unscoped buffer of every core holds the fold's last contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W13 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h => h)

/-- A reference that no host stretch writes and that is no region's window array holds at the end what the
    launch memory held: the fold at its buffer walks back item by item. -/
theorem W13_of (c : Dev nD) (r : Ref sig .tc)
    (h12 : r ∉ hostOps3_W) (h11 : ∀ w, Pipeline.arrRef spec2 w ≠ r) (h10 : ∀ w, Pipeline.arrRef spec1 w ≠ r)
    (h9 : r ∉ hostOps1_6_W) (h8 : r ∉ hostOps1_5_W) (h7 : r ∉ hostOps1_4_W) (h6 : r ∉ hostOps1_3_W)
    (h5 : r ∉ hostOps1_2_W) (h4 : r ∉ hostOps1_1_W) (h3 : r ∉ hostOps1_W) (h2 : ∀ w, Pipeline.arrRef spec0 w ≠ r)
    (h1 : r ∉ hostOps0_1_W) (h0 : r ∉ hostOps0_W) :
    W13 m c (Proc.devRef .tc r) = m ((c : Thread nD τ).loc r) :=
  calc W13 m c (Proc.devRef .tc r)
    _ = W12 m c (Proc.devRef .tc r) := StableHlo.after_of_writes_sub hostOps3 _ hostOps3_writes h12
    _ = W11 m c (Proc.devRef .tc r) := W12_of_ne m c r h11
    _ = W10 m c (Proc.devRef .tc r) := W11_of_ne m c r h10
    _ = W9 m c (Proc.devRef .tc r) := StableHlo.after_of_writes_sub hostOps1_6 _ hostOps1_6_writes h9
    _ = W8 m c (Proc.devRef .tc r) := StableHlo.after_of_writes_sub hostOps1_5 _ hostOps1_5_writes h8
    _ = W7 m c (Proc.devRef .tc r) := StableHlo.after_of_writes_sub hostOps1_4 _ hostOps1_4_writes h7
    _ = W6 m c (Proc.devRef .tc r) := StableHlo.after_of_writes_sub hostOps1_3 _ hostOps1_3_writes h6
    _ = W5 m c (Proc.devRef .tc r) := StableHlo.after_of_writes_sub hostOps1_2 _ hostOps1_2_writes h5
    _ = W4 m c (Proc.devRef .tc r) := StableHlo.after_of_writes_sub hostOps1_1 _ hostOps1_1_writes h4
    _ = W3 m c (Proc.devRef .tc r) := StableHlo.after_of_writes_sub hostOps1 _ hostOps1_writes h3
    _ = W2 m c (Proc.devRef .tc r) := W3_of_ne m c r h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

/-- No item writes argument 0: the fold at its buffer walks back to the launch memory. -/
theorem W13_main_arg0 (c : Dev nD) : W13 m c (Proc.devRef .tc main_arg0) = m ((c : Thread nD τ).loc main_arg0) :=
  W13_of m c main_arg0 (by decide) (by decide) (by decide) (by decide) (by decide) (by decide) (by decide)
    (by decide) (by decide) (by decide) (by decide) (by decide) (by decide)
/-- No item writes argument 1: the fold at its buffer walks back to the launch memory. -/
theorem W13_main_arg1 (c : Dev nD) : W13 m c (Proc.devRef .tc main_arg1) = m ((c : Thread nD τ).loc main_arg1) :=
  W13_of m c main_arg1 (by decide) (by decide) (by decide) (by decide) (by decide) (by decide) (by decide)
    (by decide) (by decide) (by decide) (by decide) (by decide) (by decide)
/-- No item writes argument 2: the fold at its buffer walks back to the launch memory. -/
theorem W13_main_arg2 (c : Dev nD) : W13 m c (Proc.devRef .tc main_arg2) = m ((c : Thread nD τ).loc main_arg2) :=
  W13_of m c main_arg2 (by decide) (by decide) (by decide) (by decide) (by decide) (by decide) (by decide)
    (by decide) (by decide) (by decide) (by decide) (by decide) (by decide)
/-- No item writes argument 3: the fold at its buffer walks back to the launch memory. -/
theorem W13_main_arg3 (c : Dev nD) : W13 m c (Proc.devRef .tc main_arg3) = m ((c : Thread nD τ).loc main_arg3) :=
  W13_of m c main_arg3 (by decide) (by decide) (by decide) (by decide) (by decide) (by decide) (by decide)
    (by decide) (by decide) (by decide) (by decide) (by decide) (by decide)
/-- No item writes argument 4: the fold at its buffer walks back to the launch memory. -/
theorem W13_main_arg4 (c : Dev nD) : W13 m c (Proc.devRef .tc main_arg4) = m ((c : Thread nD τ).loc main_arg4) :=
  W13_of m c main_arg4 (by decide) (by decide) (by decide) (by decide) (by decide) (by decide) (by decide)
    (by decide) (by decide) (by decide) (by decide) (by decide) (by decide)
/-- No item writes argument 5: the fold at its buffer walks back to the launch memory. -/
theorem W13_main_arg5 (c : Dev nD) : W13 m c (Proc.devRef .tc main_arg5) = m ((c : Thread nD τ).loc main_arg5) :=
  W13_of m c main_arg5 (by decide) (by decide) (by decide) (by decide) (by decide) (by decide) (by decide)
    (by decide) (by decide) (by decide) (by decide) (by decide) (by decide)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c),
     (h c _ (mem_uc main_arg4 (by decide))).trans (W13_main_arg4 m c),
     (h c _ (mem_uc main_arg5 (by decide))).trans (W13_main_arg5 m c)⟩) (run_all m ρ)

/-- The run with the result named: the result buffer ends at the fold's value, the arguments as launched. -/
theorem run_value : θ_run defs (onTc (τ := τ) (main (F := F))) ⟨m, fun _ => 0, ρ⟩ (fun r => ∀ c : Dev nD,
      r.2.mem ((c.tc : Thread nD τ).loc main_v13) = W13 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v13 (by decide)),
     (h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c),
     (h c _ (mem_uc main_arg4 (by decide))).trans (W13_main_arg4 m c),
     (h c _ (mem_uc main_arg5 (by decide))).trans (W13_main_arg5 m c)⟩) (run_all m ρ)

end Cert.KernelIdeal.Hand

end
-- ==== Proof.KI.Val0.lean ====
/-
  What the dense region leaves in its output array, at the exact instance, as ONE function of the arrays the
  region finds: entry (n, u) is Σ_k xpad[n, k] · wsum[k, u] + bsum[0, u] — each grid point writes back the
  1024-row block of this function, and the 49 blocks cover the array.
-/
import proofs.«410919_j82858509074624_1_alg».proof.Proof.KI.Reg0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

section
variable (V : (c : Dev nD) → (b : Ref sig .tc) → Buf (Elt Ideal) ((c : Thread nD τ).loc b))

/-- The arrays the dense region finds, and the one it leaves, as functions into the extended reals. -/
abbrev xpadIn (c : Dev nD) : S50176x128.Idx → EReal := V c main_v3
abbrev wsumIn (c : Dev nD) : S128x128.Idx → EReal := V c main_v0
abbrev bsumIn (c : Dev nD) : S1x128.Idx → EReal := V c main_v2
abbrev hOut (c : Dev nD) : S50176x128.Idx → EReal := (dat0 (F := Ideal) V c).arrAt 3 cfg0.N

/-! ## The block's affine image at a coordinate pair -/

theorem zeroOffsets : (![0, 0] : Fin 2 → Nat) = fun _ => 0 := funext fun a => by fin_cases a <;> rfl

/-- The product's left operand is read at the output's row, -/
theorem lhs_dense_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- and at the summation index along its columns; -/
theorem lhs_dense_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- the right operand at the summation index along its rows, -/
theorem rhs_dense_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- and at the output's column. -/
theorem rhs_dense_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- A matrix product into the zero accumulator, read at (p, q): Σ_k a[p, k] · b[k, q]. -/
theorem matmul_dense_apply (a : FVec Ideal S1024x128 .bf16) (b : FVec Ideal S128x128 .bf16) (p : Fin 1024) (q : Fin 128) :
    matmul dot_S1024x128_S128x128_S1024x128_1_0_0_1_n_n none a b (constant S1024x128 .f32 0x00000000#32) (ix2 p q)
      = ∑ k : Fin 128, a (ix2 p k) * b (ix2 k q) := by
  simp only [matmul]
  rw [Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 p q) ((ValueIdx.contrEquiv1 dot_S1024x128_S128x128_S1024x128_1_0_0_1_n_n 128 rfl rfl).symm k) = ix2 p k := funext fun ax => Fin.ext (by
    match ax with
    | ⟨0, _⟩ => exact lhs_dense_0 _ _
    | ⟨1, _⟩ => exact (lhs_dense_1 _ _).trans hk)
  have er : dot_S1024x128_S128x128_S1024x128_1_0_0_1_n_n.rhsIdx (ix2 p q) ((ValueIdx.contrEquiv1 dot_S1024x128_S128x128_S1024x128_1_0_0_1_n_n 128 rfl rfl).symm k) = ix2 k q := funext fun ax => Fin.ext (by
    match ax with
    | ⟨0, _⟩ => exact (rhs_dense_0 _ _).trans hk
    | ⟨1, _⟩ => exact rhs_dense_1 _ _)
  rw [el, er]

/-- The body's payload at (p, q): the row of the feature block against the column of the weights, plus the bias. -/
theorem pay_dense_apply (x : Vec Ideal S1024x128 .f32) (w : Vec Ideal S128x128 .f32) (b : Vec Ideal S1x128 .f32)
    (p : Fin 1024) (q : Fin 128) :
    k0_pay1 x w b (ix2 p q) = (∑ k : Fin 128, x (ix2 p k) * w (ix2 k q)) + b (ix2 (0 : Fin 1) q) := by
  unfold k0_pay1
  rw [truncf_apply, addf_apply, shapeCast_self, shapeCast_self, shapeCast_self, matmul_dense_apply,
    broadcastTo_1b_ab_apply]
  rfl

/-- The same at any index of the block. -/
theorem pay_dense_idx (x : Vec Ideal S1024x128 .f32) (w : Vec Ideal S128x128 .f32) (b : Vec Ideal S1x128 .f32)
    (j : S1024x128.Idx) :
    k0_pay1 x w b j = (∑ k : Fin 128, x (ix2 (j 0) k) * w (ix2 k (j 1))) + b (ix2 (0 : Fin 1) (j 1)) := by
  obtain ⟨p, q, rfl⟩ : ∃ (p : Fin 1024) (q : Fin 128), j = ix2 p q := ⟨j 0, j 1, eq_ix2 j⟩
  exact pay_dense_apply x w b p q

/-! ## From blocks to the array -/

/-- The whole-array function the region leaves: row n of the features against column u of the weights, plus the bias. -/
abbrev denseG (c : Dev nD) : S50176x128.Idx → EReal :=
  fun j => (∑ k : Fin 128, xpadIn V c (ix2 (j 0) k) * wsumIn V c (ix2 k (j 1))) + bsumIn V c (ix2 0 (j 1))

/-- The index maps over the grid: the feature block and the output block both sit at block row t, column block 0;
    the weights and the bias are one block. -/
theorem idx_dense : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the whole-array function. -/
theorem flushed_dense (c : Dev nD) (t : Fin cfg0.N) :
    (dat0 (F := Ideal) V c).flushed 3 t = ((cfg0.win 3).blk t).view.read (Elt Ideal) (denseG V c) := by
  show (cfg0.win 3).cut (grid0.coords t) ((dat0 (F := Ideal) V c).after 3 t) = _
  rw [after0_3]
  unfold out0_3
  rw [View.canon_unit_zero zeroOffsets]
  simp only [View.ld_unit_zero (S := S1024x128) zeroOffsets, View.ld_unit_zero (S := S128x128) zeroOffsets, View.ld_unit_zero (S := S1x128) zeroOffsets]
  obtain ⟨e00, e01, e10, e11, e20, e21, e30, e31⟩ := idx_dense t
  funext j
  refine (pay_dense_idx (iblk0 (F := Ideal) V c 0 t) (iblk0 (F := Ideal) V c 1 t) (iblk0 (F := Ideal) V c 2 t) j).trans ?_
  show _ = (∑ k : Fin 128, xpadIn V c (ix2 ((((cfg0.win 3).blk t).view.emb j) 0) k) * wsumIn V c (ix2 k ((((cfg0.win 3).blk t).view.emb j) 1)))
    + bsumIn V c (ix2 0 ((((cfg0.win 3).blk t).view.emb j) 1))
  have hx : ∀ k : Fin 128, (iblk0 (F := Ideal) V c 0 t (ix2 (j 0) k) : EReal) = xpadIn V c (ix2 ((((cfg0.win 3).blk t).view.emb j) 0) k) := fun k => by
    show xpadIn V c (((cfg0.win 0).blk t).view.emb (ix2 (j 0) k)) = _
    refine congrArg (xpadIn V c) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 128 + 1 * k.val = k.val; omega
  have hw : ∀ k : Fin 128, (iblk0 (F := Ideal) V c 1 t (ix2 k (j 1)) : EReal) = wsumIn V c (ix2 k ((((cfg0.win 3).blk t).view.emb j) 1)) := fun k => by
    show wsumIn V c (((cfg0.win 1).blk t).view.emb (ix2 k (j 1))) = _
    refine congrArg (wsumIn V c) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have hb : (iblk0 (F := Ideal) V c 2 t (ix2 (0 : Fin 1) (j 1)) : EReal) = bsumIn V c (ix2 0 ((((cfg0.win 3).blk t).view.emb j) 1)) := by
    show bsumIn V c (((cfg0.win 2).blk t).view.emb (ix2 (0 : Fin 1) (j 1))) = _
    refine congrArg (bsumIn V c) (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  exact congrArg₂ (· + ·) (Finset.sum_congr rfl fun k _ => congrArg₂ (· * ·) (hx k) (hw k)) hb

/-- An index of the array is in point t's block iff each coordinate is in the block's range on its axis. -/
theorem mem_blk_dense (t : Fin cfg0.N) (i : S50176x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v4).slice (win0_3.rect t)).set ↔ _
  rw [View.set_slice_whole, Rect.mem_set_unit]
  exact Iff.rfl

/-- Row r lies in the block of point r / 1024: the 49 blocks of 1024 rows cover the 50176 rows. -/
theorem cover_dense (i : S50176x128.Idx) :
    ∃ t : Fin cfg0.N, (cfg0.win 3).flush t = true ∧ i ∈ ((cfg0.win 3).blk t).view.set := by
  have hi0 : (i 0).val < 50176 := idx2_lt0 i
  have hi1 : (i 1).val < 128 := idx2_lt1 i
  refine ⟨⟨(i 0).val / 1024, by show _ < 49; omega⟩, flush0_3 _, ?_⟩
  rw [mem_blk_dense]
  obtain ⟨e00, e01, e10, e11, e20, e21, e30, e31⟩ := idx_dense ⟨(i 0).val / 1024, by show _ < 49; omega⟩
  intro a
  match a with
  | ⟨0, _⟩ => show win0_3.index _ (0 : Fin 2) * 1024 ≤ (i 0).val ∧ (i 0).val < win0_3.index _ (0 : Fin 2) * 1024 + 1024; rw [e30]; show (i 0).val / 1024 * 1024 ≤ _ ∧ _ < (i 0).val / 1024 * 1024 + 1024; omega
  | ⟨1, _⟩ => show win0_3.index _ (1 : Fin 2) * 128 ≤ (i 1).val ∧ (i 1).val < win0_3.index _ (1 : Fin 2) * 128 + 128; rw [e31]; omega

/-- The dense region's output array after the region. -/
theorem arr0 (c : Dev nD) :
    hOut V c = fun j => (∑ k : Fin 128, xpadIn V c (ix2 (j 0) k) * wsumIn V c (ix2 k (j 1))) + bsumIn V c (ix2 0 (j 1)) :=
  (dat0 (F := Ideal) V c).arrAt_eq_of_cover 3 (denseG V c) (fun t _ => flushed_dense V c t) (cover_dense)

end

end Cert.KernelIdeal.Hand

end
-- ==== Proof.KI.Val1.lean ====
/-
  What the gather region leaves in its output array, at the exact instance, as ONE function of the arrays
  the region finds: entry (e, u) is Σ_n sel(e, n) · h[n, u], where sel(e, n) is edge e's weight when the
  edge's column word is n and zero otherwise — each grid point writes back a 128-edge block of this
  function, and the 3136 blocks cover the array.
-/
import proofs.«410919_j82858509074624_1_alg».proof.Proof.KI.Reg1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The selector product at an entry -/

theorem lhs_sel_0 (i : S128x128.Idx) (q : dot_S128x50176_S50176x128_S128x128_1_0_0_1_n_n.contr.Idx) :
    (dot_S128x50176_S50176x128_S128x128_1_0_0_1_n_n.lhsIdx i q 0).val = (i 0).val := by
  unfold DotDims.lhsIdx
  rw [dif_neg (show ¬(0 : Fin S128x50176.rank) ∈ dot_S128x50176_S50176x128_S128x128_1_0_0_1_n_n.lhsBatch by decide), dif_pos (show (0 : Fin S128x50176.rank) ∈ dot_S128x50176_S50176x128_S128x128_1_0_0_1_n_n.lhsNonContracting by decide)]
  rfl
theorem lhs_sel_1 (i : S128x128.Idx) (q : dot_S128x50176_S50176x128_S128x128_1_0_0_1_n_n.contr.Idx) :
    (dot_S128x50176_S50176x128_S128x128_1_0_0_1_n_n.lhsIdx i q 1).val = (q ⟨0, by decide⟩).val :=
  dot_S128x50176_S50176x128_S128x128_1_0_0_1_n_n.lhsIdx_val_of_single rfl i q
theorem rhs_sel_0 (i : S128x128.Idx) (q : dot_S128x50176_S50176x128_S128x128_1_0_0_1_n_n.contr.Idx) :
    (dot_S128x50176_S50176x128_S128x128_1_0_0_1_n_n.rhsIdx i q 0).val = (q ⟨0, by decide⟩).val :=
  dot_S128x50176_S50176x128_S128x128_1_0_0_1_n_n.rhsIdx_val_of_single rfl i q
theorem rhs_sel_1 (i : S128x128.Idx) (q : dot_S128x50176_S50176x128_S128x128_1_0_0_1_n_n.contr.Idx) :
    (dot_S128x50176_S50176x128_S128x128_1_0_0_1_n_n.rhsIdx i q 1).val = (i 1).val := by
  unfold DotDims.rhsIdx
  rw [dif_neg (show ¬(1 : Fin S50176x128.rank) ∈ dot_S128x50176_S50176x128_S128x128_1_0_0_1_n_n.rhsBatch by decide), dif_pos (show (1 : Fin S50176x128.rank) ∈ dot_S128x50176_S50176x128_S128x128_1_0_0_1_n_n.rhsNonContracting by decide)]
  rfl

/-- The product into the zero accumulator, at entry (e, u): the row of the left operand against the column of the right. -/
theorem sel_matmul_apply (L : FVec Ideal S128x50176 .bf16) (R : FVec Ideal S50176x128 .bf16) (e u : Fin 128) :
    matmul dot_S128x50176_S50176x128_S128x128_1_0_0_1_n_n none L R (constant S128x128 .f32 0x00000000#32) (ix2 e u)
      = ∑ n : Fin 50176, L (ix2 e n) * R (ix2 n u) := by
  simp only [matmul]
  rw [Ideal.matmul_constant_zero_apply, ← Equiv.sum_comp (ValueIdx.contrEquiv1 dot_S128x50176_S50176x128_S128x128_1_0_0_1_n_n 50176 rfl rfl).symm]
  refine Finset.sum_congr rfl fun k _ => ?_
  have hk := ValueIdx.contrEquiv1_symm_val dot_S128x50176_S50176x128_S128x128_1_0_0_1_n_n 50176 rfl rfl k
  have el : dot_S128x50176_S50176x128_S128x128_1_0_0_1_n_n.lhsIdx (ix2 e u) ((ValueIdx.contrEquiv1 dot_S128x50176_S50176x128_S128x128_1_0_0_1_n_n 50176 rfl rfl).symm k) = ix2 e k := funext fun a => Fin.ext (by
    match a with
    | ⟨0, _⟩ => exact lhs_sel_0 _ _
    | ⟨1, _⟩ => exact (lhs_sel_1 _ _).trans hk)
  have er : dot_S128x50176_S50176x128_S128x128_1_0_0_1_n_n.rhsIdx (ix2 e u) ((ValueIdx.contrEquiv1 dot_S128x50176_S50176x128_S128x128_1_0_0_1_n_n 50176 rfl rfl).symm k) = ix2 k u := funext fun a => Fin.ext (by
    match a with
    | ⟨0, _⟩ => exact (rhs_sel_0 _ _).trans hk
    | ⟨1, _⟩ => exact rhs_sel_1 _ _)
  rw [el, er]

/-! ## The payload at an entry -/

/-- A one-column array broadcast along its unit axis reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The selector at (e, n): the edge's weight where the edge's column word is n, zero elsewhere. -/
theorem sel_apply (col : IVec S128x1 32) (val : FVec Ideal S128x1 .f32) (e : Fin 128) (n : Fin 50176) :
    select
        (cmpi CmpIPredicate.eq (broadcastTo S128x50176 col broadcasts_S128x1_S128x50176)
          (broadcastTo S128x50176 (iota Kind.tc S1x50176 32 [1] iota_S1x50176_d1_w32) broadcasts_S1x50176_S128x50176))
        (broadcastTo S128x50176 val broadcasts_S128x1_S128x50176)
        (broadcast S128x50176 (FloatOps.ofBits (F := Ideal) FTy.f32 0#32)) (ix2 e n)
      = if col (ix2 e 0) = BitVec.ofNat 32 n.val then val (ix2 e 0) else 0 := by
  rw [select_apply, broadcast_apply]
  show Scalar.select (IntOp.cmpi .eq (broadcastTo S128x50176 col broadcasts_S128x1_S128x50176 (ix2 e n))
      (broadcastTo S128x50176 (iota Kind.tc S1x50176 32 [1] iota_S1x50176_d1_w32) broadcasts_S1x50176_S128x50176 (ix2 e n))) _ _ = _
  rw [broadcastTo_a1_ab_apply, broadcastTo_a1_ab_apply, broadcastTo_1b_ab_apply, iota_single_apply]
  show Scalar.select (IntOp.cmpi .eq (col (ix2 e 0)) (BitVec.ofNat 32 n.val)) (val (ix2 e 0)) (Ideal.ofBits .f32 0x00000000#32) = _
  rw [Ideal.ofBits_zero_f32]
  by_cases hc : col (ix2 e 0) = BitVec.ofNat 32 n.val
  · rw [if_pos hc, hc]
    have : IntOp.cmpi .eq (BitVec.ofNat 32 n.val) (BitVec.ofNat 32 n.val) = 1#1 := by
      simp only [IntOp.cmpi, beq_self_eq_true, BitVec.ofBool_true]; rfl
    rw [this, select_one]
  · rw [if_neg hc]
    have : IntOp.cmpi .eq (col (ix2 e 0)) (BitVec.ofNat 32 n.val) = 0#1 := by
      simp only [IntOp.cmpi, beq_eq_false_iff_ne.mpr hc, BitVec.ofBool_false]; rfl
    rw [this, select_zero]

/-- Entry (e, u) of the block the body stores: the sum over the feature rows n of the selector (the edge's weight
    where the edge's column word is n, zero elsewhere) against the feature entry (n, u). -/
theorem pay1_apply (col : Vec Ideal S128x1 .i32) (val : Vec Ideal S128x1 .f32) (h : Vec Ideal S50176x128 .bf16) (e u : Fin 128) :
    k1_pay1 (F := Ideal) col val h (ix2 e u)
      = ∑ n : Fin 50176, (if col (ix2 e 0) = BitVec.ofNat 32 n.val then val (ix2 e 0) else 0) * h (ix2 n u) := by
  unfold k1_pay1
  simp only [shapeCast_self]
  rw [truncf_apply, sel_matmul_apply]
  refine Finset.sum_congr rfl fun n _ => ?_
  rw [truncf_apply]
  exact congrArg (· * h (ix2 n u)) (sel_apply col val e n)

/-! ## From blocks to the array -/

theorem hz1 : (![0, 0] : Fin 2 → Nat) = fun _ => 0 := funext fun a => by fin_cases a <;> rfl

/-- The index maps over the grid: the features' one block sits at the origin; the edge windows and the output move
    together, point t at block row t. -/
theorem idx_facts1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- The features' block is the whole feature array. -/
theorem iblk1_0_apply (c : Dev nD) (t : Fin cfg1.N) (x : S50176x128.Idx) :
    (iblk1 (F := Ideal) V c 0 t : Vec Ideal S50176x128 .bf16) x = (V c main_v4 : S50176x128.Idx → EReal) x := by
  obtain ⟨e0, e1, -⟩ := idx_facts1 t
  unfold iblk1
  rw [View.read_apply]
  show V c main_v4 _ = V c main_v4 _
  congr 1
  funext a
  apply Fin.ext
  match a with
  | ⟨0, _⟩ => show win1_0.index t 0 * 50176 + 1 * (x 0).val = (x 0).val; rw [e0]; omega
  | ⟨1, _⟩ => show win1_0.index t 1 * 128 + 1 * (x 1).val = (x 1).val; rw [e1]; omega

/-- The column words' block at point t is rows 128 t … 128 t + 127 of the column array. -/
theorem iblk1_1_apply (c : Dev nD) (t : Fin cfg1.N) (x : S128x1.Idx) (k : S401408x1.Idx)
    (hk0 : (k 0).val = 128 * t.val + (x 0).val) (hk1 : (k 1).val = (x 1).val) :
    (iblk1 (F := Ideal) V c 1 t : Vec Ideal S128x1 .i32) x = (V c main_v8 : S401408x1.Idx → BitVec 32) k := by
  obtain ⟨-, -, e0, e1, -⟩ := idx_facts1 t
  unfold iblk1
  rw [View.read_apply]
  show V c main_v8 _ = V c main_v8 _
  congr 1
  funext a
  apply Fin.ext
  match a with
  | ⟨0, _⟩ => show win1_1.index t 0 * 128 + 1 * (x 0).val = (k 0).val; rw [e0, hk0]; omega
  | ⟨1, _⟩ => show win1_1.index t 1 * 1 + 1 * (x 1).val = (k 1).val; rw [e1, hk1]; omega

/-- The weights' block likewise. -/
theorem iblk1_2_apply (c : Dev nD) (t : Fin cfg1.N) (x : S128x1.Idx) (k : S401408x1.Idx)
    (hk0 : (k 0).val = 128 * t.val + (x 0).val) (hk1 : (k 1).val = (x 1).val) :
    (iblk1 (F := Ideal) V c 2 t : Vec Ideal S128x1 .f32) x = (V c main_v9 : S401408x1.Idx → EReal) k := by
  obtain ⟨-, -, -, -, e0, e1, -⟩ := idx_facts1 t
  unfold iblk1
  rw [View.read_apply]
  show V c main_v9 _ = V c main_v9 _
  congr 1
  funext a
  apply Fin.ext
  match a with
  | ⟨0, _⟩ => show win1_2.index t 0 * 128 + 1 * (x 0).val = (k 0).val; rw [e0, hk0]; omega
  | ⟨1, _⟩ => show win1_2.index t 1 * 1 + 1 * (x 1).val = (k 1).val; rw [e1, hk1]; omega

end

section
variable (V : (c : Dev nD) → (b : Ref sig .tc) → Buf (Elt Ideal) ((c : Thread nD τ).loc b))

/-- What the output array ends holding: entry (r, u) is the selector row of edge r against column u of the features. -/
def G1 (hA : S50176x128.Idx → EReal) (colA : S401408x1.Idx → BitVec 32) (valA : S401408x1.Idx → EReal) :
    S401408x128.Idx → EReal := fun j => ∑ n : Fin 50176,
  (if colA (ix2 (j 0) 0) = BitVec.ofNat 32 n.val then valA (ix2 (j 0) 0) else 0) * hA (ix2 n (j 1))

theorem G1_eq (hA : S50176x128.Idx → EReal) (colA : S401408x1.Idx → BitVec 32) (valA : S401408x1.Idx → EReal) :
    G1 hA colA valA = fun j => ∑ n : Fin 50176,
      (if colA (ix2 (j 0) 0) = BitVec.ofNat 32 n.val then valA (ix2 (j 0) 0) else 0) * hA (ix2 n (j 1)) := rfl

theorem G1_apply (hA : S50176x128.Idx → EReal) (colA : S401408x1.Idx → BitVec 32) (valA : S401408x1.Idx → EReal) (j : S401408x128.Idx) :
    G1 hA colA valA j = ∑ n : Fin 50176,
      (if colA (ix2 (j 0) 0) = BitVec.ofNat 32 n.val then valA (ix2 (j 0) 0) else 0) * hA (ix2 n (j 1)) := rfl

attribute [irreducible] G1

/-- Entry y of the block point t stores is the array function at row 128 t + y₀, column y₁. -/
theorem point1 (c : Dev nD) (t : Fin cfg1.N) (y : S128x128.Idx) (k : S401408x128.Idx)
    (hk0 : (k 0).val = 128 * t.val + (y 0).val) (hk1 : (k 1).val = (y 1).val) :
    k1_pay1 (F := Ideal) (iblk1 (F := Ideal) V c 1 t) (iblk1 (F := Ideal) V c 2 t) (iblk1 (F := Ideal) V c 0 t) y
      = G1 (V c main_v4) (V c main_v8) (V c main_v9) k := by
  obtain ⟨p, q, rfl⟩ : ∃ (p : Fin 128) (q : Fin 128), y = ix2 p q := ⟨y 0, y 1, eq_ix2 y⟩
  refine (pay1_apply (iblk1 (F := Ideal) V c 1 t) (iblk1 (F := Ideal) V c 2 t) (iblk1 (F := Ideal) V c 0 t) p q).trans ?_
  have hq : q = k 1 := Fin.ext hk1.symm
  subst hq
  rw [G1_apply]
  refine Finset.sum_congr rfl fun n _ => ?_
  rw [iblk1_0_apply V c t (ix2 n (k 1)), iblk1_1_apply V c t (ix2 p 0) (ix2 (k 0) 0) hk0 rfl,
    iblk1_2_apply V c t (ix2 p 0) (ix2 (k 0) 0) hk0 rfl]

/-- A function on the output array read through point t's block, at y, is the function at y's place in the array. -/
theorem read_blk1 (G : S401408x128.Idx → EReal) (t : Fin cfg1.N) (y : ((win1 3).xblock (grid1.coords t)).Idx) :
    ((cfg1.win 3).blk t).view.read (Elt Ideal) G y = G (((cfg1.win 3).blk t).view.emb y) := by
  rw [View.read_apply]; rfl

/-- What point t writes back is block t of the array function. -/
theorem flushed1_eq (c : Dev nD) (t : Fin cfg1.N) :
    (dat1 (F := Ideal) V c).flushed 3 t = ((cfg1.win 3).blk t).view.read (Elt Ideal) (G1 (V c main_v4) (V c main_v8) (V c main_v9)) := by
  show (cfg1.win 3).cut (grid1.coords t) ((dat1 (F := Ideal) V c).after 3 t) = _
  rw [after1_3]
  unfold out1_3
  rw [View.canon_unit_zero hz1]
  simp only [View.ld_unit_zero (S := S128x1) hz1, View.ld_unit_zero (S := S50176x128) hz1]
  obtain ⟨-, -, -, -, -, -, e0, e1⟩ := idx_facts1 t
  funext y
  refine (point1 V c t ((win1 3).xinj (grid1.coords t) y) (((cfg1.win 3).blk t).view.emb y) ?_ ?_).trans
    (read_blk1 (G1 (V c main_v4) (V c main_v8) (V c main_v9)) t y).symm
  · show win1_3.index t 0 * 128 + 1 * (y 0).val = 128 * t.val + (y 0).val; rw [e0]; omega
  · show win1_3.index t 1 * 128 + 1 * (y 1).val = (y 1).val; rw [e1]; omega
/-- An index of the array is in point t's block iff each coordinate is in the block's range on its axis. -/
theorem mem_blk1 (t : Fin cfg1.N) (i : S401408x128.Idx) :
    i ∈ ((cfg1.win 3).blk t).view.set ↔ ∀ a : Fin 2, win1_3.index t a * S128x128.size a ≤ (i a).val ∧ (i a).val < win1_3.index t a * S128x128.size a + S128x128.size a := by
  show i ∈ ((View.whole main_v11).slice (win1_3.rect t)).set ↔ _
  rw [View.set_slice_whole, Rect.mem_set_unit]
  exact Iff.rfl

/-- Every row r of the array lies in the block of point r / 128. -/
theorem cover1 (i : S401408x128.Idx) : ∃ t : Fin cfg1.N, (cfg1.win 3).flush t = true ∧ i ∈ ((cfg1.win 3).blk t).view.set := by
  have hi0 : (i 0).val < 401408 := (i 0).isLt
  have hi1 : (i 1).val < 128 := (i 1).isLt
  have hN : cfg1.N = 3136 := N_1
  obtain ⟨t, ht⟩ : ∃ t : Fin cfg1.N, t.val = (i 0).val / 128 := ⟨⟨(i 0).val / 128, by omega⟩, rfl⟩
  obtain ⟨-, -, -, -, -, -, e0, e1⟩ := idx_facts1 t
  refine ⟨t, flush1_3 t, ?_⟩
  rw [mem_blk1]
  intro a
  match a with
  | ⟨0, _⟩ => show win1_3.index t (0 : Fin 2) * 128 ≤ (i 0).val ∧ (i 0).val < win1_3.index t (0 : Fin 2) * 128 + 128; rw [e0, ht]; omega
  | ⟨1, _⟩ => show win1_3.index t (1 : Fin 2) * 128 ≤ (i 1).val ∧ (i 1).val < win1_3.index t (1 : Fin 2) * 128 + 128; rw [e1]; omega

end

section
variable (V : (c : Dev nD) → (b : Ref sig .tc) → Buf (Elt Ideal) ((c : Thread nD τ).loc b))

/-- The arrays the gather region finds, and the one it leaves. -/
abbrev hIn (c : Dev nD) : S50176x128.Idx → EReal := V c main_v4
abbrev colIn (c : Dev nD) : S401408x1.Idx → BitVec 32 := V c main_v8
abbrev valIn (c : Dev nD) : S401408x1.Idx → EReal := V c main_v9
abbrev msgOut (c : Dev nD) : S401408x128.Idx → EReal := (dat1 (F := Ideal) V c).arrAt 3 cfg1.N

/-- The gather region's output array after the region. -/
theorem arr1 (c : Dev nD) :
    msgOut V c = fun j => ∑ n : Fin 50176,
      (if colIn V c (ix2 (j 0) 0) = BitVec.ofNat 32 n.val then valIn V c (ix2 (j 0) 0) else 0) * hIn V c (ix2 n (j 1)) := by
  exact ((dat1 (F := Ideal) V c).arrAt_eq_of_cover 3 (G1 (V c main_v4) (V c main_v8) (V c main_v9)) (fun t _ => flushed1_eq V c t) cover1).trans (G1_eq _ _ _)

end

end Cert.KernelIdeal.Hand

end
-- ==== Proof.KI.Val2.lean ====
/-
  What the scatter-add region leaves in its output array, at the exact instance, as ONE function of the
  arrays the region finds: entry (g, u) is the positive part of Σ_e [row word of e is g] · msg[e, u] over all
  401408 edge slots — the 49 chunks of 8192 edges accumulate in the scratch from j = 0 to j = 48, the point
  (i, 48) writes back the 1024-row block i, and the 49 blocks cover the array.
-/
import proofs.«410919_j82858509074624_1_alg».proof.Proof.KI.Reg2
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

namespace Scatter

/-- The selector entry: a compared pair of words, widened and converted, is one where they agree and zero elsewhere. -/
theorem sel_val (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · subst h
    simp [IntOp.cmpi]
  · have hb : (a == b) = false := beq_eq_false_iff_ne.mpr h
    simp [IntOp.cmpi, hb, h]

theorem lhs_D2_0 (i : S1024x128.Idx) (q : dot_S1024x8192_S8192x128_S1024x128_1_0_0_1_n_n.contr.Idx) :
    (dot_S1024x8192_S8192x128_S1024x128_1_0_0_1_n_n.lhsIdx i q 0).val = (i 0).val := by
  unfold DotDims.lhsIdx
  rw [dif_neg (show ¬(0 : Fin S1024x8192.rank) ∈ dot_S1024x8192_S8192x128_S1024x128_1_0_0_1_n_n.lhsBatch by decide), dif_pos (show (0 : Fin S1024x8192.rank) ∈ dot_S1024x8192_S8192x128_S1024x128_1_0_0_1_n_n.lhsNonContracting by decide)]
  rfl
theorem lhs_D2_1 (i : S1024x128.Idx) (q : dot_S1024x8192_S8192x128_S1024x128_1_0_0_1_n_n.contr.Idx) :
    (dot_S1024x8192_S8192x128_S1024x128_1_0_0_1_n_n.lhsIdx i q 1).val = (q ⟨0, by decide⟩).val :=
  dot_S1024x8192_S8192x128_S1024x128_1_0_0_1_n_n.lhsIdx_val_of_single rfl i q
theorem rhs_D2_0 (i : S1024x128.Idx) (q : dot_S1024x8192_S8192x128_S1024x128_1_0_0_1_n_n.contr.Idx) :
    (dot_S1024x8192_S8192x128_S1024x128_1_0_0_1_n_n.rhsIdx i q 0).val = (q ⟨0, by decide⟩).val :=
  dot_S1024x8192_S8192x128_S1024x128_1_0_0_1_n_n.rhsIdx_val_of_single rfl i q
theorem rhs_D2_1 (i : S1024x128.Idx) (q : dot_S1024x8192_S8192x128_S1024x128_1_0_0_1_n_n.contr.Idx) :
    (dot_S1024x8192_S8192x128_S1024x128_1_0_0_1_n_n.rhsIdx i q 1).val = (i 1).val := by
  unfold DotDims.rhsIdx
  rw [dif_neg (show ¬(1 : Fin S8192x128.rank) ∈ dot_S1024x8192_S8192x128_S1024x128_1_0_0_1_n_n.rhsBatch by decide), dif_pos (show (1 : Fin S8192x128.rank) ∈ dot_S1024x8192_S8192x128_S1024x128_1_0_0_1_n_n.rhsNonContracting by decide)]
  rfl

/-- The block product read at an index: the sum over the 8192 contraction slots of the operands' products. -/
theorem mm2_apply (a : FVec Ideal S1024x8192 .bf16) (b : FVec Ideal S8192x128 .bf16) (r : Fin 1024) (u : Fin 128) :
    (matmul dot_S1024x8192_S8192x128_S1024x128_1_0_0_1_n_n none a b (constant (F := Ideal) S1024x128 .f32 0x00000000#32) : FVec Ideal S1024x128 .f32) (ix2 r u)
      = ∑ k : Fin 8192, a (ix2 r k) * b (ix2 k u) := by
  simp only [matmul]
  rw [Ideal.matmul_constant_zero_apply, ← Equiv.sum_comp (ValueIdx.contrEquiv1 dot_S1024x8192_S8192x128_S1024x128_1_0_0_1_n_n 8192 rfl rfl).symm]
  refine Finset.sum_congr rfl fun k _ => ?_
  have hk := ValueIdx.contrEquiv1_symm_val dot_S1024x8192_S8192x128_S1024x128_1_0_0_1_n_n 8192 rfl rfl k
  have el : dot_S1024x8192_S8192x128_S1024x128_1_0_0_1_n_n.lhsIdx (ix2 r u) ((ValueIdx.contrEquiv1 dot_S1024x8192_S8192x128_S1024x128_1_0_0_1_n_n 8192 rfl rfl).symm k) = ix2 r k := funext fun a => Fin.ext (by
    match a with
    | ⟨0, _⟩ => exact lhs_D2_0 _ _
    | ⟨1, _⟩ => exact (lhs_D2_1 _ _).trans hk)
  have er : dot_S1024x8192_S8192x128_S1024x128_1_0_0_1_n_n.rhsIdx (ix2 r u) ((ValueIdx.contrEquiv1 dot_S1024x8192_S8192x128_S1024x128_1_0_0_1_n_n 8192 rfl rfl).symm k) = ix2 k u := funext fun a => Fin.ext (by
    match a with
    | ⟨0, _⟩ => exact (rhs_D2_0 _ _).trans hk
    | ⟨1, _⟩ => exact rhs_D2_1 _ _)
  rw [el, er]

/-- A one-column array broadcast along rows reads, at (p, c), the operand's row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One accumulation step read at an index: the accumulator there plus, over the point's 8192 edge slots, the slot's
    message where the slot's row word is the word of row r of the point's row block, the block's first row being
    1024 times the point's first coordinate. -/
theorem acc2_apply (i : grid2.Coords) (xmsg : Vec Ideal S8192x128 .bf16) (xrow : Vec Ideal S1x8192 .i32)
    (prev : Vec Ideal S1024x128 .f32) (r : Fin 1024) (u : Fin 128) :
    acc2 (F := Ideal) i xmsg xrow prev (ix2 r u) = prev (ix2 r u) + ∑ e' : Fin 8192,
      (if BitVec.ofNat 32 r.val + BitVec.ofNat 32 (i 0).val * 1024#32 = xrow (ix2 0 e') then (1 : EReal) else 0) * xmsg (ix2 e' u) := by
  unfold acc2 k2_pay2
  dsimp only
  rw [shapeCast_self, shapeCast_self, shapeCast_self]
  refine (addf_apply _ _ _).trans ?_
  refine congrArg (prev (ix2 r u) + ·) ?_
  refine (mm2_apply _ _ r u).trans ?_
  refine Finset.sum_congr rfl fun k _ => ?_
  refine congrArg (· * xmsg (ix2 k u)) ?_
  have e1 : (addi (iota Kind.tc S1024x1 32 [0] iota_S1024x1_d0_w32) (broadcast S1024x1 (Scalar.muli (BitVec.ofNat 32 (i 0).val) 1024#32))) (ix2 r (0 : Fin 1)) = BitVec.ofNat 32 r.val + BitVec.ofNat 32 (i 0).val * 1024#32 := by
    show IntOp.addi (iota Kind.tc S1024x1 32 [0] iota_S1024x1_d0_w32 (ix2 r (0 : Fin 1))) (Scalar.muli (BitVec.ofNat 32 (i 0).val) 1024#32) = _
    rw [iota_single_apply]
    rfl
  refine (sel_val _ _).trans ?_
  rw [broadcastTo_a1_ab_apply, broadcastTo_1b_ab_apply, e1]

/-- The reset block is zero everywhere. -/
theorem pay1_apply (j : S1024x128.Idx) : k2_pay1 (F := Ideal) j = 0 := by
  unfold k2_pay1
  rw [shapeCast_self]
  exact Ideal.ofBits_zero_f32

/-- The stored block is the positive part of the accumulator. -/
theorem pay3_apply (x : Vec Ideal S1024x128 .f32) (j : S1024x128.Idx) : k2_pay3 (F := Ideal) x j = max (x j) 0 := by
  unfold k2_pay3
  refine (maximumf_apply _ _ _).trans ?_
  exact congrArg (max (x j)) Ideal.ofBits_zero_f32

/-- The row number as the kernel forms it, a word sum, is the word of the row number. -/
theorem row_word (i0 r : ℕ) : BitVec.ofNat 32 r + BitVec.ofNat 32 i0 * 1024#32 = BitVec.ofNat 32 (1024 * i0 + r) := by
  rw [BitVec.ofNat_add, BitVec.ofNat_mul, BitVec.add_comm, BitVec.mul_comm]

/-- The printed index maps over the grid: the message and row-index blocks move with the chunk number t mod 49, the
    output block with the row-block number t / 49, which is the point's first coordinate. -/
theorem idx_facts2 : ∀ t : Fin cfg2.N, win2_0.index t (0 : Fin 2) = t.val % 49 ∧ win2_0.index t (1 : Fin 2) = 0
    ∧ win2_1.index t (0 : Fin 2) = 0 ∧ win2_1.index t (1 : Fin 2) = t.val % 49
    ∧ win2_2.index t (0 : Fin 2) = t.val / 49 ∧ win2_2.index t (1 : Fin 2) = 0
    ∧ (grid2.coords t 0).val = t.val / 49 :=
  (by decide +kernel : ∀ t : Fin grid2.N, _)

end Scatter

section
variable (V : (c : Dev nD) → (b : Ref sig .tc) → Buf (Elt Ideal) ((c : Thread nD τ).loc b))

/-- The arrays the scatter-add region finds, and the one it leaves. -/
abbrev msgIn (c : Dev nD) : S401408x128.Idx → EReal := V c main_v11
abbrev rowIn (c : Dev nD) : S1x401408.Idx → BitVec 32 := V c main_v10
abbrev aggOut (c : Dev nD) : S50176x128.Idx → EReal := (dat2 (F := Ideal) V c).arrAt 2 cfg2.N

namespace Scatter

/-- What edge slot e gives row g at lane u: its message there if its row word is g's, else nothing. -/
abbrev slot2 (c : Dev nD) (g : ℕ) (u : Fin 128) (e : Fin 401408) : EReal :=
  (if BitVec.ofNat 32 g = rowIn V c (ix2 0 e) then (1 : EReal) else 0) * msgIn V c (ix2 e u)

/-- What chunk jc of 8192 edge slots gives row g at lane u. -/
def chunk2 (c : Dev nD) (g : ℕ) (u : Fin 128) (jc : ℕ) : EReal :=
  if h : jc < 49 then ∑ e' : Fin 8192, slot2 V c g u ⟨8192 * jc + e'.val, by omega⟩ else 0

/-- The message block of point t is chunk t mod 49 of the messages. -/
theorem msg_blk (c : Dev nD) (t : Fin cfg2.N) (e' : Fin 8192) (u : Fin 128) (h : 8192 * (t.val % 49) + e'.val < 401408) :
    iblk2 V c 0 t (ix2 e' u) = msgIn V c (ix2 ⟨8192 * (t.val % 49) + e'.val, h⟩ u) := by
  obtain ⟨e0, e1, -⟩ := idx_facts2 t
  show V c main_v11 (((cfg2.win 0).blk t).view.emb (ix2 e' u)) = V c main_v11 _
  refine congrArg (V c main_v11) (funext fun a => Fin.ext ?_)
  match a with
  | ⟨0, _⟩ => show win2_0.index t (0 : Fin 2) * 8192 + 1 * e'.val = 8192 * (t.val % 49) + e'.val; omega
  | ⟨1, _⟩ => show win2_0.index t (1 : Fin 2) * 128 + 1 * u.val = u.val; omega

/-- The row-index block of point t is chunk t mod 49 of the row words. -/
theorem row_blk (c : Dev nD) (t : Fin cfg2.N) (e' : Fin 8192) (h : 8192 * (t.val % 49) + e'.val < 401408) :
    iblk2 V c 1 t (ix2 0 e') = rowIn V c (ix2 0 ⟨8192 * (t.val % 49) + e'.val, h⟩) := by
  obtain ⟨-, -, e2, e3, -⟩ := idx_facts2 t
  show V c main_v10 (((cfg2.win 1).blk t).view.emb (ix2 0 e')) = V c main_v10 _
  refine congrArg (V c main_v10) (funext fun a => Fin.ext ?_)
  match a with
  | ⟨0, _⟩ => show win2_1.index t (0 : Fin 2) * 1 + 1 * 0 = 0; omega
  | ⟨1, _⟩ => show win2_1.index t (1 : Fin 2) * 8192 + 1 * e'.val = 8192 * (t.val % 49) + e'.val; omega

/-- One accumulation step at point t adds chunk t mod 49's gift to row 1024·(t / 49) + r. -/
theorem step2 (c : Dev nD) (t : Fin cfg2.N) (prev : Vec Ideal S1024x128 .f32) (r : Fin 1024) (u : Fin 128) :
    acc2 (F := Ideal) (grid2.coords t) (iblk2 V c 0 t) (iblk2 V c 1 t) prev (ix2 r u)
      = prev (ix2 r u) + chunk2 V c (1024 * (t.val / 49) + r.val) u (t.val % 49) := by
  have hj : t.val % 49 < 49 := Nat.mod_lt _ (by decide)
  obtain ⟨-, -, -, -, -, -, e6⟩ := idx_facts2 t
  refine (acc2_apply (grid2.coords t) (iblk2 V c 0 t) (iblk2 V c 1 t) prev r u).trans ?_
  refine congrArg (prev (ix2 r u) + ·) ?_
  unfold chunk2
  rw [dif_pos hj]
  refine Finset.sum_congr rfl fun e' _ => ?_
  rw [msg_blk V c t e' u (by omega), row_blk V c t e' (by omega), row_word, e6]

/-- At a chunk number 0 the accumulator holds chunk 0's gift alone. -/
theorem sAt2_val_reset (c : Dev nD) (t : Fin cfg2.N) (h : t.val % 49 = 0) (r : Fin 1024) (u : Fin 128) :
    sAt2 (F := Ideal) V c t.val t.isLt (ix2 r u)
      = ∑ jc ∈ Finset.range (t.val % 49 + 1), chunk2 V c (1024 * (t.val / 49) + r.val) u jc := by
  refine (congrFun (sAt2_reset V c t h) (ix2 r u)).trans ?_
  refine (step2 V c t (k2_pay1 (F := Ideal)) r u).trans ?_
  rw [pay1_apply, zero_add, h, Finset.sum_range_one]

/-- THE ACCUMULATOR after the point at position n, entry (r, u): the gifts of chunks 0 … n mod 49 to row
    1024·(n / 49) + r — by induction along the points. -/
theorem sAt2_val (c : Dev nD) (n : ℕ) : ∀ (hn : n < cfg2.N) (r : Fin 1024) (u : Fin 128),
    sAt2 (F := Ideal) V c n hn (ix2 r u)
      = ∑ jc ∈ Finset.range (n % 49 + 1), chunk2 V c (1024 * (n / 49) + r.val) u jc := by
  induction n with
  | zero => intro hn r u; exact sAt2_val_reset V c ⟨0, hn⟩ rfl r u
  | succ n ih =>
    intro hn r u
    by_cases h : (n + 1) % 49 = 0
    · exact sAt2_val_reset V c ⟨n + 1, hn⟩ h r u
    · refine (congrFun (sAt2_step V c ⟨n + 1, hn⟩ h) (ix2 r u)).trans ?_
      refine (step2 V c ⟨n + 1, hn⟩ _ r u).trans ?_
      refine (congrArg (· + chunk2 V c (1024 * ((n + 1) / 49) + r.val) u ((n + 1) % 49)) (ih (Nat.lt_of_succ_lt hn) r u)).trans ?_
      have e1 : (n + 1) / 49 = n / 49 := by omega
      have e2 : (n + 1) % 49 = n % 49 + 1 := by omega
      rw [e1, e2, Finset.sum_range_succ _ (n % 49 + 1)]

/-- The 49 chunks' gifts are the gifts of all 401408 edge slots: slot 8192·jc + e' is slot e' of chunk jc. -/
theorem chunks_total (c : Dev nD) (g : ℕ) (u : Fin 128) :
    ∑ jc ∈ Finset.range 49, chunk2 V c g u jc = ∑ e : Fin 401408, slot2 V c g u e := by
  rw [← Fin.sum_univ_eq_sum_range (fun jc => chunk2 V c g u jc) 49,
    ← Equiv.sum_comp ((finProdFinEquiv (m := 49) (n := 8192)).trans (finCongr (by decide : 49 * 8192 = 401408))) (slot2 V c g u),
    Fintype.sum_prod_type]
  refine Finset.sum_congr rfl fun a _ => ?_
  unfold chunk2
  rw [dif_pos a.isLt]
  refine Finset.sum_congr rfl fun e' _ => ?_
  refine congrArg (slot2 V c g u) (Fin.ext ?_)
  show 8192 * a.val + e'.val = e'.val + 8192 * a.val
  omega

/-- What the region's output array ends holding. -/
abbrev agg2 (c : Dev nD) : S50176x128.Idx → EReal := fun j => max (∑ e : Fin 401408, slot2 V c (j 0).val (j 1) e) 0

/-- What a writing point (chunk number 48) leaves in the output block, entry (p, q): the positive part of all
    edge slots' gifts to row 1024·(t / 49) + p. -/
theorem out_val (c : Dev nD) (t : Fin cfg2.N) (h48 : t.val % 49 = 48) (p : Fin 1024) (q : Fin 128)
    (hg : 1024 * (t.val / 49) + p.val < 50176) :
    k2_pay3 (sAt2 (F := Ideal) V c t.val t.isLt) (ix2 p q) = agg2 V c (ix2 ⟨1024 * (t.val / 49) + p.val, hg⟩ q) := by
  rw [pay3_apply, sAt2_val V c t.val t.isLt p q, h48, chunks_total]

/-- An index of the array is in point t's block iff each coordinate is in the block's range on its axis. -/
theorem mem_blk2 (t : Fin cfg2.N) (i : S50176x128.Idx) :
    i ∈ ((cfg2.win 2).blk t).view.set ↔ ∀ a : Fin 2, win2_2.index t a * S1024x128.size a ≤ (i a).val ∧ (i a).val < win2_2.index t a * S1024x128.size a + S1024x128.size a := by
  show i ∈ ((View.whole main_v12).slice (win2_2.rect t)).set ↔ _
  rw [View.set_slice_whole, Rect.mem_set_unit]
  exact Iff.rfl

/-- WHAT A WRITING POINT WRITES BACK is its block of the whole-array function. -/
theorem flushed2_eq (c : Dev nD) (t : Fin cfg2.N) (hf : (cfg2.win 2).flush t = true) :
    (dat2 (F := Ideal) V c).flushed 2 t = ((cfg2.win 2).blk t).view.read (Elt Ideal) (agg2 V c) := by
  have h48 : t.val % 49 = 48 := (flush2_2 t).mp hf
  have hN : t.val < 2401 := t.isLt
  show (cfg2.win 2).cut (grid2.coords t) ((dat2 (F := Ideal) V c).after 2 t) = _
  rw [after2_2]
  funext j
  have hp : (j 0).val < 1024 := (j 0).isLt
  have hq : (j 1).val < 128 := (j 1).isLt
  have hx : (cfg2.win 2).xinj (grid2.coords t) j = ix2 (⟨(j 0).val, hp⟩ : Fin 1024) (⟨(j 1).val, hq⟩ : Fin 128) :=
    funext fun a => by
      match a with
      | ⟨0, _⟩ => rfl
      | ⟨1, _⟩ => rfl
  show k2_pay3 (sAt2 (F := Ideal) V c t.val t.isLt) ((cfg2.win 2).xinj (grid2.coords t) j) = agg2 V c (((cfg2.win 2).blk t).view.emb j)
  rw [hx, out_val V c t h48 ⟨(j 0).val, hp⟩ ⟨(j 1).val, hq⟩ (by show 1024 * (t.val / 49) + (j 0).val < 50176; omega)]
  obtain ⟨-, -, -, -, e4, e5, -⟩ := idx_facts2 t
  refine congrArg (agg2 V c) (funext fun a => Fin.ext ?_)
  match a with
  | ⟨0, _⟩ => show 1024 * (t.val / 49) + (j 0).val = win2_2.index t (0 : Fin 2) * 1024 + 1 * (j 0).val; omega
  | ⟨1, _⟩ => show (j 1).val = win2_2.index t (1 : Fin 2) * 128 + 1 * (j 1).val; omega

/-- Every row g lies in the block of the writing point (g / 1024, 48). -/
theorem cover2 (i : S50176x128.Idx) :
    ∃ t : Fin cfg2.N, (cfg2.win 2).flush t = true ∧ i ∈ ((cfg2.win 2).blk t).view.set := by
  have hi0 : (i 0).val < 50176 := (i 0).isLt
  have hi1 : (i 1).val < 128 := (i 1).isLt
  have ht : 49 * ((i 0).val / 1024) + 48 < cfg2.N := by show 49 * ((i 0).val / 1024) + 48 < 2401; omega
  refine ⟨⟨49 * ((i 0).val / 1024) + 48, ht⟩, (flush2_2 _).mpr (by show (49 * ((i 0).val / 1024) + 48) % 49 = 48; omega), ?_⟩
  rw [mem_blk2]
  obtain ⟨-, -, -, -, e4, e5, -⟩ := idx_facts2 ⟨49 * ((i 0).val / 1024) + 48, ht⟩
  have e4' : win2_2.index ⟨49 * ((i 0).val / 1024) + 48, ht⟩ (0 : Fin 2) = (49 * ((i 0).val / 1024) + 48) / 49 := e4
  intro a
  match a with
  | ⟨0, _⟩ => show win2_2.index ⟨49 * ((i 0).val / 1024) + 48, ht⟩ (0 : Fin 2) * 1024 ≤ (i 0).val ∧ (i 0).val < win2_2.index ⟨49 * ((i 0).val / 1024) + 48, ht⟩ (0 : Fin 2) * 1024 + 1024; omega
  | ⟨1, _⟩ => show win2_2.index ⟨49 * ((i 0).val / 1024) + 48, ht⟩ (1 : Fin 2) * 128 ≤ (i 1).val ∧ (i 1).val < win2_2.index ⟨49 * ((i 0).val / 1024) + 48, ht⟩ (1 : Fin 2) * 128 + 128; omega

end Scatter

/-- The scatter-add region's output array after the region. -/
theorem arr2 (c : Dev nD) :
    aggOut V c = fun j => max (∑ e : Fin 401408,
      (if BitVec.ofNat 32 (j 0).val = rowIn V c (ix2 0 e) then (1 : EReal) else 0) * msgIn V c (ix2 e (j 1))) 0 :=
  (dat2 (F := Ideal) V c).arrAt_eq_of_cover 2 (Scatter.agg2 V c) (fun t hf => Scatter.flushed2_eq V c t hf) Scatter.cover2

end

end Cert.KernelIdeal.Hand

end
-- ==== Proof.KI.ValHost.lean ====
/-
  What the host stretches and the passages between the regions leave in the arrays the three kernel regions
  read, at the exact instance, each read at an index in terms of the six arguments: the summed weights and
  biases, the node features padded with zero rows, the three edge arrays padded with zero slots and laid out
  as columns / a row; each region's output reaching the next region's input unchanged; and the result as the
  scatter-add region's output without its padding rows.
-/
import proofs.«410919_j82858509074624_1_alg».proof.Proof.KI.Fold
import proofs.«410919_j82858509074624_1_alg».proof.Proof.KI.Val0
import proofs.«410919_j82858509074624_1_alg».proof.Proof.KI.Val1
import proofs.«410919_j82858509074624_1_alg».proof.Proof.KI.Val2
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The host stretches read at a generic valuation -/
section Host
variable (v : Valuation τ sig (Elt Ideal))

/-- The last stretch leaves in the result the slice of the scatter-add region's output array. -/
theorem host3_v13 :
    StableHlo.after hostOps3 v (Proc.devRef .tc main_v13)
      = extractStridedSlice S50000x128 ![0, 0] (v (Proc.devRef .tc main_v12)) slices_S50176x128_S50000x128_0_0 := by
  after_results

/-- After the first two stretches: the weights reduced over their first axis from zero. -/
theorem host0_v0 :
    StableHlo.after hostOps0_1 (StableHlo.after hostOps0 v) (Proc.devRef .tc main_v0)
      = Host.reduceAdd (F := Ideal) (v (Proc.devRef .tc main_arg4)) (constant (F := Ideal) S_ .f32 0x00000000#32) reducesTo_S8x128x128_S128x128_d0 h_S_ := by
  after_results

/-- … the biases reduced over their first axis from zero, recast as one row. -/
theorem host0_v2 :
    StableHlo.after hostOps0_1 (StableHlo.after hostOps0 v) (Proc.devRef .tc main_v2)
      = shapeCast S1x128 (Host.reduceAdd (F := Ideal) (v (Proc.devRef .tc main_arg5)) (constant (F := Ideal) S_ .f32 0x00000000#32) reducesTo_S8x128_S128_d0 h_S_) shapeCasts_S128_S1x128 := by
  after_results; rfl

/-- … the node features padded by 176 rows of the scalar zero converted to a float. -/
theorem host0_v3 :
    StableHlo.after hostOps0_1 (StableHlo.after hostOps0 v) (Proc.devRef .tc main_v3)
      = pad S50176x128 ![0, 0] ![176, 0] ![0, 0] (v (Proc.devRef .tc main_arg0)) (sitofp (F := Ideal) .f32 (constantI S_ 32 0#32)) pads_S50000x128_S50176x128_01760_000 h_S_ := by
  after_results; rfl

/-- … and the three edge arguments untouched. -/
theorem host0_arg (r : Ref sig .tc) (hr : r ∈ [main_arg1, main_arg2, main_arg3]) :
    StableHlo.after hostOps0_1 (StableHlo.after hostOps0 v) (Proc.devRef .tc r) = v (Proc.devRef .tc r) := by
  simp only [List.mem_cons, List.mem_singleton, List.not_mem_nil, or_false] at hr
  rcases hr with rfl | rfl | rfl <;> after_results

/-- The seven stretches between the dense and the gather region leave the dense region's output untouched, -/
theorem host1_v4 :
    StableHlo.after hostOps1_6 (StableHlo.after hostOps1_5 (StableHlo.after hostOps1_4 (StableHlo.after hostOps1_3
      (StableHlo.after hostOps1_2 (StableHlo.after hostOps1_1 (StableHlo.after hostOps1 v)))))) (Proc.devRef .tc main_v4)
      = v (Proc.devRef .tc main_v4) := by
  after_results

/-- leave as the column words the second edge argument padded by 1408 zero words, recast as a column, -/
theorem host1_v8 :
    StableHlo.after hostOps1_6 (StableHlo.after hostOps1_5 (StableHlo.after hostOps1_4 (StableHlo.after hostOps1_3
      (StableHlo.after hostOps1_2 (StableHlo.after hostOps1_1 (StableHlo.after hostOps1 v)))))) (Proc.devRef .tc main_v8)
      = shapeCast S401408x1 (pad S401408 ![0] ![1408] ![0] (v (Proc.devRef .tc main_arg2)) (constantI S_ 32 0#32) pads_S400000_S401408_014080 h_S_) shapeCasts_S401408_S401408x1 := by
  after_results; rfl

/-- as the weights the third edge argument padded by 1408 zeros, recast as a column, -/
theorem host1_v9 :
    StableHlo.after hostOps1_6 (StableHlo.after hostOps1_5 (StableHlo.after hostOps1_4 (StableHlo.after hostOps1_3
      (StableHlo.after hostOps1_2 (StableHlo.after hostOps1_1 (StableHlo.after hostOps1 v)))))) (Proc.devRef .tc main_v9)
      = shapeCast S401408x1 (pad S401408 ![0] ![1408] ![0] (v (Proc.devRef .tc main_arg3)) (sitofp (F := Ideal) .f32 (constantI S_ 32 0#32)) pads_S400000_S401408_014080 h_S_) shapeCasts_S401408_S401408x1 := by
  after_results; rfl

/-- and as the row words the first edge argument padded by 1408 zero words, recast as a row. -/
theorem host1_v10 :
    StableHlo.after hostOps1_6 (StableHlo.after hostOps1_5 (StableHlo.after hostOps1_4 (StableHlo.after hostOps1_3
      (StableHlo.after hostOps1_2 (StableHlo.after hostOps1_1 (StableHlo.after hostOps1 v)))))) (Proc.devRef .tc main_v10)
      = shapeCast S1x401408 (pad S401408 ![0] ![1408] ![0] (v (Proc.devRef .tc main_arg1)) (constantI S_ 32 0#32) pads_S400000_S401408_014080 h_S_) shapeCasts_S401408_S1x401408 := by
  after_results; rfl

end Host

section
variable (m : (ℓ : Loc nD τ sig) → Buf (Elt Ideal) ℓ)

/-- The six argument arrays at launch, as functions of their literal types. -/
abbrev xArg (c : Dev nD) : S50000x128.Idx → EReal := m ((c.tc : Thread nD τ).loc main_arg0)
abbrev rowArg (c : Dev nD) : S400000.Idx → BitVec 32 := m ((c.tc : Thread nD τ).loc main_arg1)
abbrev colArg (c : Dev nD) : S400000.Idx → BitVec 32 := m ((c.tc : Thread nD τ).loc main_arg2)
abbrev valArg (c : Dev nD) : S400000.Idx → EReal := m ((c.tc : Thread nD τ).loc main_arg3)
abbrev wArg (c : Dev nD) : S8x128x128.Idx → EReal := m ((c.tc : Thread nD τ).loc main_arg4)
abbrev bArg (c : Dev nD) : S8x128.Idx → EReal := m ((c.tc : Thread nD τ).loc main_arg5)
/-- The result buffer's contents at the return, by the fold. -/
abbrev resOut (c : Dev nD) : S50000x128.Idx → EReal := W13 (F := Ideal) m c (Proc.devRef .tc main_v13)

/-- A node, and an edge slot, as a row of the padded arrays. -/
abbrev padNode (i : Fin 50000) : Fin 50176 := ⟨i.val, by omega⟩
abbrev padEdge (e : Fin 400000) : Fin 401408 := ⟨e.val, by omega⟩

/-! ## The dense region's inputs -/

/-- The padded node features: a node's row, then zero rows. -/
theorem xpadIn_eq (c : Dev nD) (n : Fin 50176) (k : Fin 128) :
    xpadIn (V2 (F := Ideal) m) c (ix2 n k) = if h : n.val < 50000 then xArg m c (ix2 (⟨n.val, h⟩ : Fin 50000) k) else 0 := by
  show StableHlo.after hostOps0_1 (StableHlo.after hostOps0 (W0 m c)) (Proc.devRef .tc main_v3) (ix2 n k) = _
  rw [host0_v3]
  split_ifs with h
  · exact pad_apply_of_inside _ _ _ _ _ _ _ _ (ix2 (⟨n.val, h⟩ : Fin 50000) k) (fun a => by
      match a with
      | ⟨0, _⟩ => simp
      | ⟨1, _⟩ => simp)
  · rw [pad_apply_of_not_inside _ _ _ _ _ _ _ _ (0 : Fin 2) (fun hc => h (by
      have h3 : (n.val - 0) / (0 + 1) < 50000 := hc.2.2
      omega))]
    show (((0#32 : BitVec 32).toInt : ℝ) : EReal) = 0
    simp

/-- The weights summed over the relations. -/
theorem wsumIn_eq (c : Dev nD) (k u : Fin 128) :
    wsumIn (V2 (F := Ideal) m) c (ix2 k u) = ∑ r : Fin 8, wArg m c (ix3 r k u) := by
  have e : wsumIn (V2 (F := Ideal) m) c (ix2 k u)
      = Ideal.hostReduceAdd reducesTo_S8x128x128_S128x128_d0 (wArg m c) (Ideal.ofBits .f32 0x00000000#32) (ix2 k u) :=
    congrFun (host0_v0 (W0 m c)) (ix2 k u)
  rw [e, Ideal.hostReduceAdd_single _ (by decide),
    show Ideal.ofBits .f32 0x00000000#32 = (0 : EReal) by simp [Ideal.ofBits, Ideal.ieee], zero_add]
  refine Finset.sum_congr rfl fun r _ => congrArg _ (funext fun a => ?_)
  match a with
  | ⟨0, _⟩ => exact Fin.ext rfl
  | ⟨1, _⟩ => exact Fin.ext rfl
  | ⟨2, _⟩ => exact Fin.ext rfl

/-- The biases summed over the relations, as one row. -/
theorem bsumIn_eq (c : Dev nD) (u : Fin 128) :
    bsumIn (V2 (F := Ideal) m) c (ix2 (0 : Fin 1) u) = ∑ r : Fin 8, bArg m c (ix2 r u) := by
  have e : bsumIn (V2 (F := Ideal) m) c (ix2 (0 : Fin 1) u)
      = shapeCast S1x128 (Ideal.hostReduceAdd reducesTo_S8x128_S128_d0 (bArg m c) (Ideal.ofBits .f32 0x00000000#32)) shapeCasts_S128_S1x128 (ix2 (0 : Fin 1) u) :=
    congrFun (host0_v2 (W0 m c)) (ix2 (0 : Fin 1) u)
  rw [e, shapeCast_apply _ _ _ (ix1 u) (by rw [Shape.rowMajor_val_one, Shape.rowMajor_val_two]; simp),
    Ideal.hostReduceAdd_single _ (by decide),
    show Ideal.ofBits .f32 0x00000000#32 = (0 : EReal) by simp [Ideal.ofBits, Ideal.ieee], zero_add]
  refine Finset.sum_congr rfl fun r _ => congrArg _ (funext fun a => ?_)
  match a with
  | ⟨0, _⟩ => exact Fin.ext rfl
  | ⟨1, _⟩ => exact Fin.ext rfl

/-! ## The gather region's inputs -/

/-- The transformed features reach the gather region as the dense region left them. -/
theorem hIn_eq (c : Dev nD) : hIn (V10 (F := Ideal) m) c = hOut (V2 (F := Ideal) m) c := by
  exact (host1_v4 (W3 m c)).trans (W3_arr m c 3)

/-- The column words as one column: an edge's word, then zero words. -/
theorem colIn_eq (c : Dev nD) (e : Fin 401408) :
    colIn (V10 (F := Ideal) m) c (ix2 e (0 : Fin 1)) = if h : e.val < 400000 then colArg m c (ix1 (⟨e.val, h⟩ : Fin 400000)) else 0#32 := by
  have e1 : colIn (V10 (F := Ideal) m) c (ix2 e (0 : Fin 1))
      = shapeCast S401408x1 (pad S401408 ![0] ![1408] ![0] (colArg m c) (constantI S_ 32 0#32) pads_S400000_S401408_014080 h_S_) shapeCasts_S401408_S401408x1 (ix2 e (0 : Fin 1)) := by
    have h1 := congrFun (host1_v8 (W3 m c)) (ix2 e (0 : Fin 1))
    have h2 : W3 m c (Proc.devRef .tc main_arg2) = colArg m c :=
      (W3_of_ne m c main_arg2 (fun w => by fin_cases w <;> decide)).trans (host0_arg (W0 m c) main_arg2 (by simp))
    rw [h2] at h1
    exact h1
  rw [e1, shapeCast_apply _ _ _ (ix1 e) (by rw [Shape.rowMajor_val_one, Shape.rowMajor_val_two]; simp)]
  split_ifs with h
  · exact pad_apply_of_inside _ _ _ _ _ _ _ _ (ix1 (⟨e.val, h⟩ : Fin 400000)) (fun a => by
      match a with
      | ⟨0, _⟩ => simp)
  · rw [pad_apply_of_not_inside _ _ _ _ _ _ _ _ (0 : Fin 1) (fun hc => h (by
      have h3 : (e.val - 0) / (0 + 1) < 400000 := hc.2.2
      omega))]
    rfl

/-- The edge weights as one column: an edge's weight, then zeros. -/
theorem valIn_eq (c : Dev nD) (e : Fin 401408) :
    valIn (V10 (F := Ideal) m) c (ix2 e (0 : Fin 1)) = if h : e.val < 400000 then valArg m c (ix1 (⟨e.val, h⟩ : Fin 400000)) else 0 := by
  have e1 : valIn (V10 (F := Ideal) m) c (ix2 e (0 : Fin 1))
      = shapeCast S401408x1 (pad S401408 ![0] ![1408] ![0] (valArg m c) (sitofp (F := Ideal) .f32 (constantI S_ 32 0#32)) pads_S400000_S401408_014080 h_S_) shapeCasts_S401408_S401408x1 (ix2 e (0 : Fin 1)) := by
    have h1 := congrFun (host1_v9 (W3 m c)) (ix2 e (0 : Fin 1))
    have h2 : W3 m c (Proc.devRef .tc main_arg3) = valArg m c :=
      (W3_of_ne m c main_arg3 (fun w => by fin_cases w <;> decide)).trans (host0_arg (W0 m c) main_arg3 (by simp))
    rw [h2] at h1
    exact h1
  rw [e1, shapeCast_apply _ _ _ (ix1 e) (by rw [Shape.rowMajor_val_one, Shape.rowMajor_val_two]; simp)]
  split_ifs with h
  · exact pad_apply_of_inside _ _ _ _ _ _ _ _ (ix1 (⟨e.val, h⟩ : Fin 400000)) (fun a => by
      match a with
      | ⟨0, _⟩ => simp)
  · rw [pad_apply_of_not_inside _ _ _ _ _ _ _ _ (0 : Fin 1) (fun hc => h (by
      have h3 : (e.val - 0) / (0 + 1) < 400000 := hc.2.2
      omega))]
    show (((0#32 : BitVec 32).toInt : ℝ) : EReal) = 0
    simp

/-! ## The scatter-add region's inputs -/

/-- The messages reach the scatter-add region as the gather region left them. -/
theorem msgIn_eq (c : Dev nD) : msgIn (V11 (F := Ideal) m) c = msgOut (V10 (F := Ideal) m) c := by
  exact W11_arr m c 3

/-- The row words as one row: an edge's word, then zero words. -/
theorem rowIn_eq (c : Dev nD) (e : Fin 401408) :
    rowIn (V11 (F := Ideal) m) c (ix2 (0 : Fin 1) e) = if h : e.val < 400000 then rowArg m c (ix1 (⟨e.val, h⟩ : Fin 400000)) else 0#32 := by
  have e1 : rowIn (V11 (F := Ideal) m) c (ix2 (0 : Fin 1) e)
      = shapeCast S1x401408 (pad S401408 ![0] ![1408] ![0] (rowArg m c) (constantI S_ 32 0#32) pads_S400000_S401408_014080 h_S_) shapeCasts_S401408_S1x401408 (ix2 (0 : Fin 1) e) := by
    have h0 : W11 m c (Proc.devRef .tc main_v10) = W10 m c (Proc.devRef .tc main_v10) :=
      W11_of_ne m c main_v10 (fun w => by fin_cases w <;> decide)
    have h1 := congrFun (host1_v10 (W3 m c)) (ix2 (0 : Fin 1) e)
    have h2 : W3 m c (Proc.devRef .tc main_arg1) = rowArg m c :=
      (W3_of_ne m c main_arg1 (fun w => by fin_cases w <;> decide)).trans (host0_arg (W0 m c) main_arg1 (by simp))
    rw [h2] at h1
    exact (congrFun h0 _).trans h1
  rw [e1, shapeCast_apply _ _ _ (ix1 e) (by rw [Shape.rowMajor_val_one, Shape.rowMajor_val_two]; simp)]
  split_ifs with h
  · exact pad_apply_of_inside _ _ _ _ _ _ _ _ (ix1 (⟨e.val, h⟩ : Fin 400000)) (fun a => by
      match a with
      | ⟨0, _⟩ => simp)
  · rw [pad_apply_of_not_inside _ _ _ _ _ _ _ _ (0 : Fin 1) (fun hc => h (by
      have h3 : (e.val - 0) / (0 + 1) < 400000 := hc.2.2
      omega))]
    rfl

/-! ## The result -/

/-- The result is the scatter-add region's output without its padding rows. -/
theorem resOut_eq (c : Dev nD) (i : Fin 50000) (u : Fin 128) :
    resOut m c (ix2 i u) = aggOut (V11 (F := Ideal) m) c (ix2 (padNode i) u) := by
  show StableHlo.after hostOps3 (W12 m c) (Proc.devRef .tc main_v13) (ix2 i u) = _
  rw [host3_v13, show W12 m c (Proc.devRef .tc main_v12) = _ from W12_arr m c 2]
  exact slice2_axis0_apply 0 _ _ i u (padNode i) (by simp)

end

end Cert.KernelIdeal.Hand

end
-- ==== Proof.Spec.lean ====
/-
  The mathematics of the relational graph layer, free of any program: node features X (50000 × 128), edges
  e with a row word, a column word and a weight, eight relation matrices W_r (128 × 128) and biases b_r.
  The layer's output at node i, unit u is the positive part of
      Σ_r Σ_{e : row e = i} val e · ( Σ_k X[col e, k] · W_r[k, u] + b_r[u] ),
  which is how the reference computes it, relation by relation. Since every relation gathers and scatters
  along the SAME edges, linearity lets the sum over relations move inside:
      Σ_{e : row e = i} val e · ( Σ_k X[col e, k] · (Σ_r W_r[k, u]) + Σ_r b_r[u] ),
  one transform and one aggregation, which is what the kernel computes. The two agree when every float is
  a real number (distributivity and the exchange of finite sums, which fail at infinities).
-/
import Idealize.ShloMosaic.PureOps.Ideal
import Idealize.ShloMosaic.Lib.ValueIdx

noncomputable section

namespace Cert.Spec

open Idealize.ShloMosaic

/-- The coercion of reals into the extended reals commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with a guarded term whose other branch is zero. -/
private theorem coe_ite_zero (p : Prop) [Decidable p] (a : ℝ) :
    ((if p then a else 0 : ℝ) : EReal) = if p then (a : EReal) else 0 := by
  split_ifs <;> simp

/-- Over the reals: the sum over relations moves inside the aggregation and the transform
(distributivity and the exchange of finite sums). -/
private theorem real_form {ε κ ρ : Type} [Fintype ε] [Fintype κ] [Fintype ρ] (p : ε → Prop)
    [DecidablePred p] (v : ε → ℝ) (x : ε → κ → ℝ) (w : ρ → κ → ℝ) (b : ρ → ℝ) :
    (∑ e, if p e then v e * ((∑ k, x e k * (∑ r, w r k)) + ∑ r, b r) else 0)
      = ∑ r, ∑ e, if p e then v e * ((∑ k, x e k * w r k) + b r) else 0 := by
  rw [Finset.sum_comm]
  refine Finset.sum_congr rfl fun e _ => ?_
  split_ifs
  · rw [← Finset.mul_sum]
    congr 1
    rw [Finset.sum_add_distrib, Finset.sum_comm]
    congr 1
    refine Finset.sum_congr rfl fun k _ => ?_
    rw [Finset.mul_sum]
  · simp

/-- The node a column word addresses: the word read as a signed integer, clamped into the node range. -/
def nodeOf (c : BitVec 32) : Fin 50000 := ⟨min c.toInt.toNat 49999, by omega⟩

section Forms
variable (X : Fin 50000 → Fin 128 → EReal) (ROW COL : Fin 400000 → BitVec 32) (VAL : Fin 400000 → EReal)
  (Wt : Fin 8 → Fin 128 → Fin 128 → EReal) (Bi : Fin 8 → Fin 128 → EReal)

/-- One transform by the summed weights and biases, one aggregation along the edges, positive part. -/
def kerForm (i : Fin 50000) (u : Fin 128) : EReal :=
  max (∑ e : Fin 400000, if (ROW e).toInt = (i.val : ℤ) then
      VAL e * ((∑ k : Fin 128, X (nodeOf (COL e)) k * (∑ r : Fin 8, Wt r k u)) + ∑ r : Fin 8, Bi r u) else 0) 0

/-- Per relation a transform and an aggregation, summed over the relations, positive part. -/
def refForm (i : Fin 50000) (u : Fin 128) : EReal :=
  max (∑ r : Fin 8, ∑ e : Fin 400000, if (ROW e).toInt = (i.val : ℤ) then
      VAL e * ((∑ k : Fin 128, X (nodeOf (COL e)) k * Wt r k u) + Bi r u) else 0) 0

/-- Over real inputs the two forms are one function. -/
theorem kerForm_eq_refForm (hX : ∀ n k, ∃ x : ℝ, X n k = (x : EReal)) (hV : ∀ e, ∃ v : ℝ, VAL e = (v : EReal))
    (hW : ∀ r k u, ∃ w : ℝ, Wt r k u = (w : EReal)) (hB : ∀ r u, ∃ b : ℝ, Bi r u = (b : EReal))
    (i : Fin 50000) (u : Fin 128) :
    kerForm X ROW COL VAL Wt Bi i u = refForm X ROW COL VAL Wt Bi i u := by
  choose x hx using hX
  choose v hv using hV
  choose w hw using hW
  choose b hb using hB
  unfold kerForm refForm
  refine congrArg (fun t : EReal => max t 0) ?_
  simp only [hx, hv, hw, hb]
  have key := congrArg (fun t : ℝ => (t : EReal))
    (real_form (fun e : Fin 400000 => (ROW e).toInt = (i.val : ℤ)) v
      (fun e k => x (nodeOf (COL e)) k) (fun r k => w r k u) (fun r => b r u))
  simp only [coe_sum, coe_ite_zero, EReal.coe_mul, EReal.coe_add] at key
  exact key

end Forms

end Cert.Spec

end
-- ==== Proof.KI.ValAll.lean ====
/-
  The program's result at the exact instance, as ONE function of its six arguments: the fold of buffer
  contents through the main function, read at the result buffer. The host stretches pad the node features with
  zero rows, sum the weights and the biases over the relations, pad the three edge arrays with zero slots and
  lay them out as columns / a row; the dense region transforms every (padded) node, the gather region picks
  each edge's source row scaled by its weight (a padded slot has weight zero; a column word in the node
  range selects exactly that node's row), the scatter-add region sums the edges landing on each row and takes
  the positive part, and the last host stretch drops the padding rows.
-/
import proofs.«410919_j82858509074624_1_alg».proof.Proof.KI.ValHost
import proofs.«410919_j82858509074624_1_alg».proof.Proof.Spec

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

section
variable (m : (ℓ : Loc nD τ sig) → Buf (Elt Ideal) ℓ)

/-! ## Words and nodes -/

/-- A word whose signed value is in the node range is its unsigned value. -/
theorem toInt_eq_toNat_of_range (w : BitVec 32) (h0 : 0 ≤ w.toInt) : w.toInt = (w.toNat : ℤ) := by
  have hN := w.isLt
  rw [BitVec.toInt_eq_toNat_cond] at h0 ⊢
  split_ifs at h0 ⊢ with hc
  · rfl
  · omega

/-- A word in the node range is the word of a natural below 50176 exactly when that natural is its value. -/
theorem word_eq_ofNat_iff (w : BitVec 32) (h0 : 0 ≤ w.toInt) (h1 : w.toInt < 50000) (n : ℕ) (hn : n < 50176) :
    w = BitVec.ofNat 32 n ↔ n = w.toInt.toNat := by
  have hN := w.isLt
  have hI := toInt_eq_toNat_of_range w h0
  rw [← BitVec.toNat_inj, BitVec.toNat_ofNat, hI, Int.toNat_natCast]
  rw [hI] at h1
  omega

/-- The word of a node index is a given word exactly when the word's signed value is the index. -/
theorem ofNat_eq_word_iff (w : BitVec 32) (i : ℕ) (hi : i < 50000) : BitVec.ofNat 32 i = w ↔ w.toInt = (i : ℤ) := by
  have hN := w.isLt
  rw [← BitVec.toNat_inj, BitVec.toNat_ofNat, BitVec.toInt_eq_toNat_cond]
  split_ifs <;> omega

/-- The node a word in the node range addresses is its value. -/
theorem nodeOf_of_range (w : BitVec 32) (h0 : 0 ≤ w.toInt) (h1 : w.toInt < 50000) :
    (Cert.Spec.nodeOf w).val = w.toInt.toNat := by
  show min w.toInt.toNat 49999 = w.toInt.toNat
  omega

/-! ## The three regions' outputs at an entry -/

/-- The dense region's output at (n, u). -/
theorem h_at (c : Dev nD) (n : Fin 50176) (u : Fin 128) :
    hOut (V2 (F := Ideal) m) c (ix2 n u)
      = (∑ k : Fin 128, xpadIn (V2 (F := Ideal) m) c (ix2 n k) * wsumIn (V2 (F := Ideal) m) c (ix2 k u))
        + bsumIn (V2 (F := Ideal) m) c (ix2 (0 : Fin 1) u) :=
  congrFun (arr0 (V2 (F := Ideal) m) c) (ix2 n u)

/-- A node's transformed row, in terms of the arguments. -/
theorem h_node (c : Dev nD) (n : Fin 50000) (u : Fin 128) :
    hOut (V2 (F := Ideal) m) c (ix2 (padNode n) u)
      = (∑ k : Fin 128, xArg m c (ix2 n k) * ∑ r : Fin 8, wArg m c (ix3 r k u)) + ∑ r : Fin 8, bArg m c (ix2 r u) := by
  rw [h_at m c (padNode n) u, bsumIn_eq m c u]
  refine congrArg (· + _) (Finset.sum_congr rfl fun k _ => ?_)
  rw [xpadIn_eq m c (padNode n) k, dif_pos (show (padNode n).val < 50000 from n.isLt), wsumIn_eq m c k u]

/-- The gather region's output at (e, u). -/
theorem msg_at (c : Dev nD) (e : Fin 401408) (u : Fin 128) :
    msgIn (V11 (F := Ideal) m) c (ix2 e u)
      = ∑ n : Fin 50176, (if colIn (V10 (F := Ideal) m) c (ix2 e (0 : Fin 1)) = BitVec.ofNat 32 n.val
          then valIn (V10 (F := Ideal) m) c (ix2 e (0 : Fin 1)) else 0) * hOut (V2 (F := Ideal) m) c (ix2 n u) := by
  rw [msgIn_eq m c, ← hIn_eq m c]
  exact congrFun (arr1 (V10 (F := Ideal) m) c) (ix2 e u)

/-- A padding slot carries weight zero, so its message row is zero. -/
theorem msg_pad (c : Dev nD) (e : Fin 401408) (he : ¬e.val < 400000) (u : Fin 128) :
    msgIn (V11 (F := Ideal) m) c (ix2 e u) = 0 := by
  rw [msg_at m c e u, valIn_eq m c e, dif_neg he]
  refine Finset.sum_eq_zero fun n _ => ?_
  rw [ite_self, zero_mul]

/-- An edge whose column word is in the node range selects exactly that node's transformed row, scaled by its weight. -/
theorem msg_edge (c : Dev nD) (e : Fin 400000)
    (h0 : 0 ≤ (colArg m c (ix1 e)).toInt) (h1 : (colArg m c (ix1 e)).toInt < 50000) (u : Fin 128) :
    msgIn (V11 (F := Ideal) m) c (ix2 (padEdge e) u)
      = valArg m c (ix1 e) * ((∑ k : Fin 128, xArg m c (ix2 (Cert.Spec.nodeOf (colArg m c (ix1 e))) k) * ∑ r : Fin 8, wArg m c (ix3 r k u))
          + ∑ r : Fin 8, bArg m c (ix2 r u)) := by
  have hlt : (padEdge e).val < 400000 := e.isLt
  have hnode := nodeOf_of_range _ h0 h1
  rw [msg_at m c (padEdge e) u, colIn_eq m c (padEdge e), valIn_eq m c (padEdge e), dif_pos hlt, dif_pos hlt]
  rw [Finset.sum_eq_single (padNode (Cert.Spec.nodeOf (colArg m c (ix1 e))))]
  · rw [if_pos ((word_eq_ofNat_iff _ h0 h1 _ (padNode _).isLt).mpr hnode), h_node m c _ u]
  · intro n _ hn
    rw [if_neg (fun h => hn (Fin.ext (((word_eq_ofNat_iff _ h0 h1 _ n.isLt).mp h).trans hnode.symm))), zero_mul]
  · intro h; exact absurd (Finset.mem_univ _) h

/-- The scatter-add region's output at (g, u). -/
theorem agg_at (c : Dev nD) (g : Fin 50176) (u : Fin 128) :
    aggOut (V11 (F := Ideal) m) c (ix2 g u)
      = max (∑ e : Fin 401408, (if BitVec.ofNat 32 g.val = rowIn (V11 (F := Ideal) m) c (ix2 (0 : Fin 1) e) then (1 : EReal) else 0)
          * msgIn (V11 (F := Ideal) m) c (ix2 e u)) 0 :=
  congrFun (arr2 (V11 (F := Ideal) m) c) (ix2 g u)

/-! ## The composition -/

/-- The result at (i, u). -/
theorem kernel_value_at (c : Dev nD)
    (hcol : ∀ e : Fin 400000, 0 ≤ (colArg m c (ix1 e)).toInt ∧ (colArg m c (ix1 e)).toInt < 50000) (i : Fin 50000) (u : Fin 128) :
    resOut m c (ix2 i u) = Cert.Spec.kerForm (fun n k => xArg m c (ix2 n k)) (fun e => rowArg m c (ix1 e))
      (fun e => colArg m c (ix1 e)) (fun e => valArg m c (ix1 e)) (fun r k u => wArg m c (ix3 r k u))
      (fun r u => bArg m c (ix2 r u)) i u := by
  rw [resOut_eq m c i u, agg_at m c (padNode i) u]
  unfold Cert.Spec.kerForm
  refine congrArg (fun t : EReal => max t 0) ?_
  symm
  refine Fintype.sum_of_injective padEdge (fun a b h => Fin.ext (by have h' : (padEdge a).val = (padEdge b).val := congrArg Fin.val h; exact h')) _ _ ?_ ?_
  · intro e he
    have he' : ¬e.val < 400000 := fun h => he ⟨⟨e.val, h⟩, Fin.ext rfl⟩
    rw [msg_pad m c e he' u, mul_zero]
  · intro e
    have hlt : (padEdge e).val < 400000 := e.isLt
    rw [rowIn_eq m c (padEdge e), dif_pos hlt, msg_edge m c e (hcol e).1 (hcol e).2 u]
    by_cases hr : (rowArg m c (ix1 e)).toInt = (i.val : ℤ)
    · rw [if_pos hr, if_pos ((ofNat_eq_word_iff _ _ i.isLt).mpr hr), one_mul]
    · rw [if_neg hr, if_neg (fun h => hr ((ofNat_eq_word_iff _ _ i.isLt).mp h)), zero_mul]

/-- THE KERNEL'S VALUE: with every column word in the node range, the result is the one-transform,
    one-aggregation form of the six arguments. -/
theorem kernel_value (c : Dev nD)
    (hcol : ∀ e : Fin 400000, 0 ≤ (colArg m c (ix1 e)).toInt ∧ (colArg m c (ix1 e)).toInt < 50000) :
    resOut m c = fun j => Cert.Spec.kerForm (fun n k => xArg m c (ix2 n k)) (fun e => rowArg m c (ix1 e))
      (fun e => colArg m c (ix1 e)) (fun e => valArg m c (ix1 e)) (fun r k u => wArg m c (ix3 r k u))
      (fun r u => bArg m c (ix2 r u)) (j 0) (j 1) := by
  funext j
  rw [eq_ix2 j]
  exact kernel_value_at m c hcol (j 0) (j 1)

end

end Cert.KernelIdeal.Hand

end
-- ==== Proof.Ref.RefValue.lean ====
/-
  The reference program's result at the exact instance, as ONE function of its six arguments: relation by
  relation it transforms every node (a matrix product plus the bias row), gathers each edge's source row —
  the column word made non-negative by adding the node count when negative, then clamped into the node
  range; with the word already in range that is the word itself —, scales it by the edge's weight, and adds
  it into the row the edge's row word names (a word outside the node range adds nothing); the eight
  aggregates are summed from zero and the positive part is taken.
-/
import proofs.«410919_j82858509074624_1_alg».proof.Defs
import proofs.«410919_j82858509074624_1_alg».proof.Proof.Gen.ReferenceIdeal.Run
import proofs.«410919_j82858509074624_1_alg».proof.Proof.Gen.ReferenceIdeal.Read
import proofs.«410919_j82858509074624_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen

/-- The row gather's dimension numbers: axis 0 collapsed and addressed by the start index, axis 1 the offset axis. -/
abbrev gd := gather_S50000x128_S400000x1_S400000x128_1_0_n_n_0_1_1128

/-- THE ROW GATHER READ AT `(e, u)`: the operand's row at the start index `idx[e, 0]`, read signed and clamped into
    `[0, 49999]`, at column `u`. -/
theorem gather_row {α : Type} (x : S50000x128.Idx → α) (idx : IVec S400000x1 32) (e : Fin 400000) (u : Fin 128) :
    Host.gather gather_S50000x128_S400000x1_S400000x128_1_0_n_n_0_1_1128 x idx (ix2 e u)
      = x (ix2 ⟨min (idx (ix2 e 0)).toInt.toNat 49999, by omega⟩ u) := by
  unfold Host.gather
  congr 1
  funext a
  refine Fin.ext ?_
  match a with
  | ⟨0, _⟩ =>
    show gd.start (ix2 e u) idx 0 + gd.batchCoord (ix2 e u) 0 + gd.offCoord (ix2 e u) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ix2 e u) ⟨List.idxOf (0 : Fin 2) gd.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show gd.start (ix2 e u) idx 1 + gd.batchCoord (ix2 e u) 1 + gd.offCoord (ix2 e u) 1 = _
    rw [GatherDims.batchCoord_eq_zero _ _ _ List.not_mem_nil]
    unfold GatherDims.start
    rw [dif_neg (show ¬ (1 : Fin 2) ∈ gd.startIndexMap by decide)]
    unfold GatherDims.offCoord
    rw [dif_pos (show (1 : Fin 2) ∈ gd.sKept by decide)]
    simp only [Nat.add_zero, Nat.zero_add]
    rfl

/-- The row scatter's dimension numbers: axis 0 inserted and addressed by the scatter index, axis 1 the window axis. -/
abbrev sd := scatter_S50000x128_S400000x1_S400000x128_1_0_0_1

/-- On axis 0 the window of update `(e, u')` starts at the scatter index `idx[e, 0]` read signed … -/
theorem sd_start0 (e : Fin 400000) (u' : Fin 128) (idx : IVec S400000x1 32) :
    sd.start (ix2 e u') idx 0 = (idx (ix2 e 0)).toInt := by
  unfold ScatterDims.start
  rw [dif_pos (show (0 : Fin 2) ∈ sd.scatterDimsToOperandDims from List.mem_singleton.mpr rfl)]
  have hsi : sd.siIdx (ix2 e u') ⟨List.idxOf (0 : Fin 2) sd.scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on axis 1 at zero. -/
theorem sd_start1 (e : Fin 400000) (u' : Fin 128) (idx : IVec S400000x1 32) :
    sd.start (ix2 e u') idx 1 = 0 := by
  unfold ScatterDims.start
  rw [dif_neg (show ¬ (1 : Fin 2) ∈ sd.scatterDimsToOperandDims by decide)]

/-- The window coordinate of update `(e, u')` is zero on axis 0 … -/
theorem sd_window0 (e : Fin 400000) (u' : Fin 128) : sd.window (ix2 e u') 0 = 0 := by
  unfold ScatterDims.window
  rw [dif_neg (show ¬ (0 : Fin 2) ∈ sd.sKept by decide)]

/-- … and `u'` on axis 1. -/
theorem sd_window1 (e : Fin 400000) (u' : Fin 128) : sd.window (ix2 e u') 1 = u'.val := by
  unfold ScatterDims.window
  rw [dif_pos (show (1 : Fin 2) ∈ sd.sKept by decide)]
  rfl

/-- Update `(e, u')` lands on `(i, u)` exactly when its scatter index read signed is `i` and `u' = u`; an index
    outside the node range lands nowhere. -/
theorem sd_result_iff (e : Fin 400000) (u' : Fin 128) (idx : IVec S400000x1 32) (i : Fin 50000) (u : Fin 128) :
    sd.resultIdx? (ix2 e u') idx = some (ix2 i u) ↔ ((idx (ix2 e 0)).toInt = (i.val : ℤ) ∧ u' = u) := by
  unfold ScatterDims.resultIdx?
  constructor
  · intro h
    split at h
    · rename_i hb
      have hf := Option.some.inj h
      have h0 := congrArg (fun f : S50000x128.Idx => (f 0).val) hf
      have h1 := congrArg (fun f : S50000x128.Idx => (f 1).val) hf
      have hb0 := hb 0
      have hb1 := hb 1
      simp only [sd_start0, sd_start1, sd_window0, sd_window1] at h0 h1 hb0 hb1
      refine ⟨?_, Fin.ext ?_⟩
      · show _ = (i.val : ℤ)
        have : ((idx (ix2 e 0)).toInt + ((0 : ℕ) : ℤ)).toNat = i.val := h0
        omega
      · have : ((0 : ℤ) + (u'.val : ℤ)).toNat = u.val := h1
        omega
    · exact absurd h (by simp)
  · rintro ⟨hr, rfl⟩
    have hb : ∀ a, 0 ≤ sd.start (ix2 e u') idx a + sd.window (ix2 e u') a ∧ sd.start (ix2 e u') idx a + sd.window (ix2 e u') a < S50000x128.size a := by
      intro a
      match a with
      | ⟨0, _⟩ =>
        show 0 ≤ sd.start (ix2 e u') idx 0 + sd.window (ix2 e u') 0 ∧ sd.start (ix2 e u') idx 0 + sd.window (ix2 e u') 0 < ((50000 : ℕ) : ℤ)
        rw [sd_start0, sd_window0, hr]; have := i.isLt; omega
      | ⟨1, _⟩ =>
        show 0 ≤ sd.start (ix2 e u') idx 1 + sd.window (ix2 e u') 1 ∧ sd.start (ix2 e u') idx 1 + sd.window (ix2 e u') 1 < ((128 : ℕ) : ℤ)
        rw [sd_start1, sd_window1]; have := u'.isLt; omega
    rw [dif_pos hb]
    congr 1
    funext a
    refine Fin.ext ?_
    match a with
    | ⟨0, _⟩ =>
      show (sd.start (ix2 e u') idx 0 + sd.window (ix2 e u') 0).toNat = i.val
      rw [sd_start0, sd_window0, hr]; omega
    | ⟨1, _⟩ =>
      show (sd.start (ix2 e u') idx 1 + sd.window (ix2 e u') 1).toNat = u'.val
      rw [sd_start1, sd_window1]; omega

/-- THE ROW SCATTER-ADD READ AT `(i, u)`: the operand there plus the updates `(e, u)` of the edges whose scatter index
    is `i`. -/
theorem scatter_row (x : S50000x128.Idx → EReal) (idx : IVec S400000x1 32) (upd : S400000x128.Idx → EReal)
    (i : Fin 50000) (u : Fin 128) :
    Host.scatterAdd (F := Ideal) (φ := .f32) scatter_S50000x128_S400000x1_S400000x128_1_0_0_1 x idx upd (ix2 i u)
      = x (ix2 i u) + ∑ e : Fin 400000, if (idx (ix2 e 0)).toInt = (i.val : ℤ) then upd (ix2 e u) else 0 := by
  show Ideal.hostScatterAdd sd x idx upd (ix2 i u) = _
  unfold Ideal.hostScatterAdd
  refine congrArg (fun t : EReal => x (ix2 i u) + t) ?_
  rw [Finset.sum_filter, sum_idx2]
  refine Finset.sum_congr rfl fun e _ => ?_
  simp only [sd_result_iff]
  by_cases hr : (idx (ix2 e 0)).toInt = (i.val : ℤ)
  · simp only [hr, true_and, if_true]
    rw [Finset.sum_ite_eq' Finset.univ u (fun u' => upd (ix2 e u'))]
    simp
  · simp only [hr, false_and, if_false, Finset.sum_const_zero]

/-- Relation 0's transformed features at node `n`, unit `u`: the row of `X` times the column of `W_0`, plus `b_0[u]`. -/
theorem h0_apply (x0 : (⟨S50000x128, .f32⟩ : BufTy).Contents (Elt Ideal)) (x4 : (⟨S8x128x128, .f32⟩ : BufTy).Contents (Elt Ideal))
    (x5 : (⟨S8x128, .f32⟩ : BufTy).Contents (Elt Ideal)) (n : Fin 50000) (u : Fin 128) :
    Read.val_main_v8 (F := Ideal) x0 x4 x5 (ix2 n u)
      = (∑ k : Fin 128, x0 (ix2 n k) * x4 (ix3 (0 : Fin 8) k u)) + x5 (ix2 (0 : Fin 8) u) := by
  rw [Read.val_main_v8_apply, Read.val_main_v3_apply, Read.val_main_v7_apply, Read.val_main_v6_apply, Read.val_main_v5_apply, Read.val_main_v4_apply]
  simp only [Read.val_main_v2_apply, Read.val_main_v1_apply]
  have eb : Read.idx_main_v4 (Read.idx_main_v5 (Read.idx_main_v6 (Read.idx_main_v7 (ix2 n u)))) = ix2 (0 : Fin 8) u :=
    funext fun a => Fin.ext (by
      match a with
      | ⟨0, _⟩ => rfl
      | ⟨1, _⟩ => show (u.val) % 128 = u.val; have := u.isLt; omega)
  have el : ∀ k : Fin 128, Read.lidx_main_v3 (ix2 n u) k = ix2 n k := fun k =>
    funext fun a => Fin.ext (by
      match a with
      | ⟨0, _⟩ => rfl
      | ⟨1, _⟩ => rfl)
  have er : ∀ k : Fin 128, Read.idx_main_v1 (Read.idx_main_v2 (Read.ridx_main_v3 (ix2 n u) k)) = ix3 (0 : Fin 8) k u := fun k =>
    funext fun a => Fin.ext (by
      have hk := k.isLt; have hu := u.isLt
      match a with
      | ⟨0, _⟩ => rfl
      | ⟨1, _⟩ => show (k.val * 128 + u.val) / 128 % 128 = k.val; omega
      | ⟨2, _⟩ => show (k.val * 128 + u.val) % 128 = u.val; omega)
  simp only [eb, el, er]
  rfl

/-- Relation 1's transformed features at node `n`, unit `u`: the row of `X` times the column of `W_1`, plus `b_1[u]`. -/
theorem h1_apply (x0 : (⟨S50000x128, .f32⟩ : BufTy).Contents (Elt Ideal)) (x4 : (⟨S8x128x128, .f32⟩ : BufTy).Contents (Elt Ideal))
    (x5 : (⟨S8x128, .f32⟩ : BufTy).Contents (Elt Ideal)) (n : Fin 50000) (u : Fin 128) :
    Read.val_main_v30 (F := Ideal) x0 x4 x5 (ix2 n u)
      = (∑ k : Fin 128, x0 (ix2 n k) * x4 (ix3 (1 : Fin 8) k u)) + x5 (ix2 (1 : Fin 8) u) := by
  rw [Read.val_main_v30_apply, Read.val_main_v25_apply, Read.val_main_v29_apply, Read.val_main_v28_apply, Read.val_main_v27_apply, Read.val_main_v26_apply]
  simp only [Read.val_main_v24_apply, Read.val_main_v23_apply]
  have eb : Read.idx_main_v26 (Read.idx_main_v27 (Read.idx_main_v28 (Read.idx_main_v29 (ix2 n u)))) = ix2 (1 : Fin 8) u :=
    funext fun a => Fin.ext (by
      match a with
      | ⟨0, _⟩ => rfl
      | ⟨1, _⟩ => show (u.val) % 128 = u.val; have := u.isLt; omega)
  have el : ∀ k : Fin 128, Read.lidx_main_v25 (ix2 n u) k = ix2 n k := fun k =>
    funext fun a => Fin.ext (by
      match a with
      | ⟨0, _⟩ => rfl
      | ⟨1, _⟩ => rfl)
  have er : ∀ k : Fin 128, Read.idx_main_v23 (Read.idx_main_v24 (Read.ridx_main_v25 (ix2 n u) k)) = ix3 (1 : Fin 8) k u := fun k =>
    funext fun a => Fin.ext (by
      have hk := k.isLt; have hu := u.isLt
      match a with
      | ⟨0, _⟩ => rfl
      | ⟨1, _⟩ => show (k.val * 128 + u.val) / 128 % 128 = k.val; omega
      | ⟨2, _⟩ => show (k.val * 128 + u.val) % 128 = u.val; omega)
  simp only [eb, el, er]
  rfl

/-- Relation 2's transformed features at node `n`, unit `u`: the row of `X` times the column of `W_2`, plus `b_2[u]`. -/
theorem h2_apply (x0 : (⟨S50000x128, .f32⟩ : BufTy).Contents (Elt Ideal)) (x4 : (⟨S8x128x128, .f32⟩ : BufTy).Contents (Elt Ideal))
    (x5 : (⟨S8x128, .f32⟩ : BufTy).Contents (Elt Ideal)) (n : Fin 50000) (u : Fin 128) :
    Read.val_main_v52 (F := Ideal) x0 x4 x5 (ix2 n u)
      = (∑ k : Fin 128, x0 (ix2 n k) * x4 (ix3 (2 : Fin 8) k u)) + x5 (ix2 (2 : Fin 8) u) := by
  rw [Read.val_main_v52_apply, Read.val_main_v47_apply, Read.val_main_v51_apply, Read.val_main_v50_apply, Read.val_main_v49_apply, Read.val_main_v48_apply]
  simp only [Read.val_main_v46_apply, Read.val_main_v45_apply]
  have eb : Read.idx_main_v48 (Read.idx_main_v49 (Read.idx_main_v50 (Read.idx_main_v51 (ix2 n u)))) = ix2 (2 : Fin 8) u :=
    funext fun a => Fin.ext (by
      match a with
      | ⟨0, _⟩ => rfl
      | ⟨1, _⟩ => show (u.val) % 128 = u.val; have := u.isLt; omega)
  have el : ∀ k : Fin 128, Read.lidx_main_v47 (ix2 n u) k = ix2 n k := fun k =>
    funext fun a => Fin.ext (by
      match a with
      | ⟨0, _⟩ => rfl
      | ⟨1, _⟩ => rfl)
  have er : ∀ k : Fin 128, Read.idx_main_v45 (Read.idx_main_v46 (Read.ridx_main_v47 (ix2 n u) k)) = ix3 (2 : Fin 8) k u := fun k =>
    funext fun a => Fin.ext (by
      have hk := k.isLt; have hu := u.isLt
      match a with
      | ⟨0, _⟩ => rfl
      | ⟨1, _⟩ => show (k.val * 128 + u.val) / 128 % 128 = k.val; omega
      | ⟨2, _⟩ => show (k.val * 128 + u.val) % 128 = u.val; omega)
  simp only [eb, el, er]
  rfl

/-- Relation 3's transformed features at node `n`, unit `u`: the row of `X` times the column of `W_3`, plus `b_3[u]`. -/
theorem h3_apply (x0 : (⟨S50000x128, .f32⟩ : BufTy).Contents (Elt Ideal)) (x4 : (⟨S8x128x128, .f32⟩ : BufTy).Contents (Elt Ideal))
    (x5 : (⟨S8x128, .f32⟩ : BufTy).Contents (Elt Ideal)) (n : Fin 50000) (u : Fin 128) :
    Read.val_main_v74 (F := Ideal) x0 x4 x5 (ix2 n u)
      = (∑ k : Fin 128, x0 (ix2 n k) * x4 (ix3 (3 : Fin 8) k u)) + x5 (ix2 (3 : Fin 8) u) := by
  rw [Read.val_main_v74_apply, Read.val_main_v69_apply, Read.val_main_v73_apply, Read.val_main_v72_apply, Read.val_main_v71_apply, Read.val_main_v70_apply]
  simp only [Read.val_main_v68_apply, Read.val_main_v67_apply]
  have eb : Read.idx_main_v70 (Read.idx_main_v71 (Read.idx_main_v72 (Read.idx_main_v73 (ix2 n u)))) = ix2 (3 : Fin 8) u :=
    funext fun a => Fin.ext (by
      match a with
      | ⟨0, _⟩ => rfl
      | ⟨1, _⟩ => show (u.val) % 128 = u.val; have := u.isLt; omega)
  have el : ∀ k : Fin 128, Read.lidx_main_v69 (ix2 n u) k = ix2 n k := fun k =>
    funext fun a => Fin.ext (by
      match a with
      | ⟨0, _⟩ => rfl
      | ⟨1, _⟩ => rfl)
  have er : ∀ k : Fin 128, Read.idx_main_v67 (Read.idx_main_v68 (Read.ridx_main_v69 (ix2 n u) k)) = ix3 (3 : Fin 8) k u := fun k =>
    funext fun a => Fin.ext (by
      have hk := k.isLt; have hu := u.isLt
      match a with
      | ⟨0, _⟩ => rfl
      | ⟨1, _⟩ => show (k.val * 128 + u.val) / 128 % 128 = k.val; omega
      | ⟨2, _⟩ => show (k.val * 128 + u.val) % 128 = u.val; omega)
  simp only [eb, el, er]
  rfl

/-- Relation 4's transformed features at node `n`, unit `u`: the row of `X` times the column of `W_4`, plus `b_4[u]`. -/
theorem h4_apply (x0 : (⟨S50000x128, .f32⟩ : BufTy).Contents (Elt Ideal)) (x4 : (⟨S8x128x128, .f32⟩ : BufTy).Contents (Elt Ideal))
    (x5 : (⟨S8x128, .f32⟩ : BufTy).Contents (Elt Ideal)) (n : Fin 50000) (u : Fin 128) :
    Read.val_main_v96 (F := Ideal) x0 x4 x5 (ix2 n u)
      = (∑ k : Fin 128, x0 (ix2 n k) * x4 (ix3 (4 : Fin 8) k u)) + x5 (ix2 (4 : Fin 8) u) := by
  rw [Read.val_main_v96_apply, Read.val_main_v91_apply, Read.val_main_v95_apply, Read.val_main_v94_apply, Read.val_main_v93_apply, Read.val_main_v92_apply]
  simp only [Read.val_main_v90_apply, Read.val_main_v89_apply]
  have eb : Read.idx_main_v92 (Read.idx_main_v93 (Read.idx_main_v94 (Read.idx_main_v95 (ix2 n u)))) = ix2 (4 : Fin 8) u :=
    funext fun a => Fin.ext (by
      match a with
      | ⟨0, _⟩ => rfl
      | ⟨1, _⟩ => show (u.val) % 128 = u.val; have := u.isLt; omega)
  have el : ∀ k : Fin 128, Read.lidx_main_v91 (ix2 n u) k = ix2 n k := fun k =>
    funext fun a => Fin.ext (by
      match a with
      | ⟨0, _⟩ => rfl
      | ⟨1, _⟩ => rfl)
  have er : ∀ k : Fin 128, Read.idx_main_v89 (Read.idx_main_v90 (Read.ridx_main_v91 (ix2 n u) k)) = ix3 (4 : Fin 8) k u := fun k =>
    funext fun a => Fin.ext (by
      have hk := k.isLt; have hu := u.isLt
      match a with
      | ⟨0, _⟩ => rfl
      | ⟨1, _⟩ => show (k.val * 128 + u.val) / 128 % 128 = k.val; omega
      | ⟨2, _⟩ => show (k.val * 128 + u.val) % 128 = u.val; omega)
  simp only [eb, el, er]
  rfl

/-- Relation 5's transformed features at node `n`, unit `u`: the row of `X` times the column of `W_5`, plus `b_5[u]`. -/
theorem h5_apply (x0 : (⟨S50000x128, .f32⟩ : BufTy).Contents (Elt Ideal)) (x4 : (⟨S8x128x128, .f32⟩ : BufTy).Contents (Elt Ideal))
    (x5 : (⟨S8x128, .f32⟩ : BufTy).Contents (Elt Ideal)) (n : Fin 50000) (u : Fin 128) :
    Read.val_main_v118 (F := Ideal) x0 x4 x5 (ix2 n u)
      = (∑ k : Fin 128, x0 (ix2 n k) * x4 (ix3 (5 : Fin 8) k u)) + x5 (ix2 (5 : Fin 8) u) := by
  rw [Read.val_main_v118_apply, Read.val_main_v113_apply, Read.val_main_v117_apply, Read.val_main_v116_apply, Read.val_main_v115_apply, Read.val_main_v114_apply]
  simp only [Read.val_main_v112_apply, Read.val_main_v111_apply]
  have eb : Read.idx_main_v114 (Read.idx_main_v115 (Read.idx_main_v116 (Read.idx_main_v117 (ix2 n u)))) = ix2 (5 : Fin 8) u :=
    funext fun a => Fin.ext (by
      match a with
      | ⟨0, _⟩ => rfl
      | ⟨1, _⟩ => show (u.val) % 128 = u.val; have := u.isLt; omega)
  have el : ∀ k : Fin 128, Read.lidx_main_v113 (ix2 n u) k = ix2 n k := fun k =>
    funext fun a => Fin.ext (by
      match a with
      | ⟨0, _⟩ => rfl
      | ⟨1, _⟩ => rfl)
  have er : ∀ k : Fin 128, Read.idx_main_v111 (Read.idx_main_v112 (Read.ridx_main_v113 (ix2 n u) k)) = ix3 (5 : Fin 8) k u := fun k =>
    funext fun a => Fin.ext (by
      have hk := k.isLt; have hu := u.isLt
      match a with
      | ⟨0, _⟩ => rfl
      | ⟨1, _⟩ => show (k.val * 128 + u.val) / 128 % 128 = k.val; omega
      | ⟨2, _⟩ => show (k.val * 128 + u.val) % 128 = u.val; omega)
  simp only [eb, el, er]
  rfl

/-- Relation 6's transformed features at node `n`, unit `u`: the row of `X` times the column of `W_6`, plus `b_6[u]`. -/
theorem h6_apply (x0 : (⟨S50000x128, .f32⟩ : BufTy).Contents (Elt Ideal)) (x4 : (⟨S8x128x128, .f32⟩ : BufTy).Contents (Elt Ideal))
    (x5 : (⟨S8x128, .f32⟩ : BufTy).Contents (Elt Ideal)) (n : Fin 50000) (u : Fin 128) :
    Read.val_main_v140 (F := Ideal) x0 x4 x5 (ix2 n u)
      = (∑ k : Fin 128, x0 (ix2 n k) * x4 (ix3 (6 : Fin 8) k u)) + x5 (ix2 (6 : Fin 8) u) := by
  rw [Read.val_main_v140_apply, Read.val_main_v135_apply, Read.val_main_v139_apply, Read.val_main_v138_apply, Read.val_main_v137_apply, Read.val_main_v136_apply]
  simp only [Read.val_main_v134_apply, Read.val_main_v133_apply]
  have eb : Read.idx_main_v136 (Read.idx_main_v137 (Read.idx_main_v138 (Read.idx_main_v139 (ix2 n u)))) = ix2 (6 : Fin 8) u :=
    funext fun a => Fin.ext (by
      match a with
      | ⟨0, _⟩ => rfl
      | ⟨1, _⟩ => show (u.val) % 128 = u.val; have := u.isLt; omega)
  have el : ∀ k : Fin 128, Read.lidx_main_v135 (ix2 n u) k = ix2 n k := fun k =>
    funext fun a => Fin.ext (by
      match a with
      | ⟨0, _⟩ => rfl
      | ⟨1, _⟩ => rfl)
  have er : ∀ k : Fin 128, Read.idx_main_v133 (Read.idx_main_v134 (Read.ridx_main_v135 (ix2 n u) k)) = ix3 (6 : Fin 8) k u := fun k =>
    funext fun a => Fin.ext (by
      have hk := k.isLt; have hu := u.isLt
      match a with
      | ⟨0, _⟩ => rfl
      | ⟨1, _⟩ => show (k.val * 128 + u.val) / 128 % 128 = k.val; omega
      | ⟨2, _⟩ => show (k.val * 128 + u.val) % 128 = u.val; omega)
  simp only [eb, el, er]
  rfl

/-- Relation 7's transformed features at node `n`, unit `u`: the row of `X` times the column of `W_7`, plus `b_7[u]`. -/
theorem h7_apply (x0 : (⟨S50000x128, .f32⟩ : BufTy).Contents (Elt Ideal)) (x4 : (⟨S8x128x128, .f32⟩ : BufTy).Contents (Elt Ideal))
    (x5 : (⟨S8x128, .f32⟩ : BufTy).Contents (Elt Ideal)) (n : Fin 50000) (u : Fin 128) :
    Read.val_main_v162 (F := Ideal) x0 x4 x5 (ix2 n u)
      = (∑ k : Fin 128, x0 (ix2 n k) * x4 (ix3 (7 : Fin 8) k u)) + x5 (ix2 (7 : Fin 8) u) := by
  rw [Read.val_main_v162_apply, Read.val_main_v157_apply, Read.val_main_v161_apply, Read.val_main_v160_apply, Read.val_main_v159_apply, Read.val_main_v158_apply]
  simp only [Read.val_main_v156_apply, Read.val_main_v155_apply]
  have eb : Read.idx_main_v158 (Read.idx_main_v159 (Read.idx_main_v160 (Read.idx_main_v161 (ix2 n u)))) = ix2 (7 : Fin 8) u :=
    funext fun a => Fin.ext (by
      match a with
      | ⟨0, _⟩ => rfl
      | ⟨1, _⟩ => show (u.val) % 128 = u.val; have := u.isLt; omega)
  have el : ∀ k : Fin 128, Read.lidx_main_v157 (ix2 n u) k = ix2 n k := fun k =>
    funext fun a => Fin.ext (by
      match a with
      | ⟨0, _⟩ => rfl
      | ⟨1, _⟩ => rfl)
  have er : ∀ k : Fin 128, Read.idx_main_v155 (Read.idx_main_v156 (Read.ridx_main_v157 (ix2 n u) k)) = ix3 (7 : Fin 8) k u := fun k =>
    funext fun a => Fin.ext (by
      have hk := k.isLt; have hu := u.isLt
      match a with
      | ⟨0, _⟩ => rfl
      | ⟨1, _⟩ => show (k.val * 128 + u.val) / 128 % 128 = k.val; omega
      | ⟨2, _⟩ => show (k.val * 128 + u.val) % 128 = u.val; omega)
  simp only [eb, el, er]
  rfl

/-- A word whose signed value is non-negative is not below zero. -/
theorem slt_zero_of_nonneg (a : BitVec 32) (h : 0 ≤ a.toInt) : IntOp.cmpi .slt a 0#32 = 0#1 := by
  unfold IntOp.cmpi
  show BitVec.ofBool (a.slt 0#32) = 0#1
  have h0 : (0#32 : BitVec 32).toInt = 0 := by decide
  have : a.slt 0#32 = false := by
    simp only [BitVec.slt, h0]
    exact decide_eq_false (by omega)
  rw [this]; rfl

/-- The normalised column word of edge `e` (the node count added when negative) is the word itself when it is in the
    node range. -/
theorem colword_apply (x2 : (⟨S400000, .i32⟩ : BufTy).Contents (Elt Ideal))
    (hcol : ∀ e : Fin 400000, 0 ≤ (x2 (ix1 e) : BitVec 32).toInt ∧ (x2 (ix1 e) : BitVec 32).toInt < 50000) (e : Fin 400000) :
    Read.val_main_v15 (F := Ideal) x2 (ix2 e 0) = x2 (ix1 e) := by
  have ei : Read.idx_main_v15 (ix2 e (0 : Fin 1)) = ix1 e := funext fun a => Fin.ext (by match a with | ⟨0, _⟩ => rfl)
  rw [Read.val_main_v15_apply, ei, Read.val_main_v14_apply, Read.val_main_v11_apply, Read.val_main_v10_apply,
    Read.val_main_c_apply, slt_zero_of_nonneg _ (hcol e).1, select_zero]

/-- One relation's aggregate as a function of its transformed features `h`: gather each edge's source row of `h`,
    scale it by the edge's weight, add it from zero into the row the edge's row word names. -/
def relTerm (h : (⟨S50000x128, .f32⟩ : BufTy).Contents (Elt Ideal)) (x1 x2 : (⟨S400000, .i32⟩ : BufTy).Contents (Elt Ideal))
    (x3 : (⟨S400000, .f32⟩ : BufTy).Contents (Elt Ideal)) : (⟨S50000x128, .f32⟩ : BufTy).Contents (Elt Ideal) :=
  Host.scatterAdd (F := Ideal) (φ := .f32) scatter_S50000x128_S400000x1_S400000x128_1_0_0_1 (Read.val_main_v19 (F := Ideal)) (Read.val_main_v20 (F := Ideal) x1)
    (mulf (F := Ideal) (φ := .f32) (Read.val_main_v17 (F := Ideal) x3)
      (Host.gather gather_S50000x128_S400000x1_S400000x128_1_0_n_n_0_1_1128 h (Read.val_main_v15 (F := Ideal) x2)))

/-- One relation's aggregate at `(i, u)`: the sum over the edges whose row word is `i` of the weight times `h` at the
    edge's source node, unit `u`. -/
theorem relTerm_apply (h : (⟨S50000x128, .f32⟩ : BufTy).Contents (Elt Ideal)) (x1 x2 : (⟨S400000, .i32⟩ : BufTy).Contents (Elt Ideal))
    (x3 : (⟨S400000, .f32⟩ : BufTy).Contents (Elt Ideal))
    (hcol : ∀ e : Fin 400000, 0 ≤ (x2 (ix1 e) : BitVec 32).toInt ∧ (x2 (ix1 e) : BitVec 32).toInt < 50000)
    (i : Fin 50000) (u : Fin 128) :
    relTerm h x1 x2 x3 (ix2 i u)
      = ∑ e : Fin 400000, if (x1 (ix1 e) : BitVec 32).toInt = (i.val : ℤ) then
          x3 (ix1 e) * h (ix2 (Cert.Spec.nodeOf (x2 (ix1 e))) u) else 0 := by
  unfold relTerm
  rw [scatter_row, Read.val_main_v19_apply, Read.val_main_cst_1_apply, Ideal.ofBits_def, Ideal.ofBits_zero_f32, zero_add]
  refine Finset.sum_congr rfl fun e _ => ?_
  have e20 : Read.idx_main_v20 (ix2 e (0 : Fin 1)) = ix1 e := funext fun a => Fin.ext (by match a with | ⟨0, _⟩ => rfl)
  have e9 : Read.idx_main_v9 (Read.idx_main_v17 (ix2 e u)) = ix1 e := funext fun a => Fin.ext (by match a with | ⟨0, _⟩ => rfl)
  rw [Read.val_main_v20_apply, e20, mulf_apply, Read.val_main_v17_apply, Read.val_main_v9_apply, e9, gather_row]
  simp only [colword_apply x2 hcol]
  rfl

/-! Each of the eight relations' aggregates is that function of its own transformed features. -/

theorem v21_eq (x0 : (⟨S50000x128, .f32⟩ : BufTy).Contents (Elt Ideal)) (x1 x2 : (⟨S400000, .i32⟩ : BufTy).Contents (Elt Ideal))
    (x3 : (⟨S400000, .f32⟩ : BufTy).Contents (Elt Ideal)) (x4 : (⟨S8x128x128, .f32⟩ : BufTy).Contents (Elt Ideal))
    (x5 : (⟨S8x128, .f32⟩ : BufTy).Contents (Elt Ideal)) :
    Read.val_main_v21 (F := Ideal) x0 x1 x2 x3 x4 x5 = relTerm (Read.val_main_v8 (F := Ideal) x0 x4 x5) x1 x2 x3 := rfl

theorem v43_eq (x0 : (⟨S50000x128, .f32⟩ : BufTy).Contents (Elt Ideal)) (x1 x2 : (⟨S400000, .i32⟩ : BufTy).Contents (Elt Ideal))
    (x3 : (⟨S400000, .f32⟩ : BufTy).Contents (Elt Ideal)) (x4 : (⟨S8x128x128, .f32⟩ : BufTy).Contents (Elt Ideal))
    (x5 : (⟨S8x128, .f32⟩ : BufTy).Contents (Elt Ideal)) :
    Read.val_main_v43 (F := Ideal) x0 x1 x2 x3 x4 x5 = relTerm (Read.val_main_v30 (F := Ideal) x0 x4 x5) x1 x2 x3 := rfl

theorem v65_eq (x0 : (⟨S50000x128, .f32⟩ : BufTy).Contents (Elt Ideal)) (x1 x2 : (⟨S400000, .i32⟩ : BufTy).Contents (Elt Ideal))
    (x3 : (⟨S400000, .f32⟩ : BufTy).Contents (Elt Ideal)) (x4 : (⟨S8x128x128, .f32⟩ : BufTy).Contents (Elt Ideal))
    (x5 : (⟨S8x128, .f32⟩ : BufTy).Contents (Elt Ideal)) :
    Read.val_main_v65 (F := Ideal) x0 x1 x2 x3 x4 x5 = relTerm (Read.val_main_v52 (F := Ideal) x0 x4 x5) x1 x2 x3 := rfl

theorem v87_eq (x0 : (⟨S50000x128, .f32⟩ : BufTy).Contents (Elt Ideal)) (x1 x2 : (⟨S400000, .i32⟩ : BufTy).Contents (Elt Ideal))
    (x3 : (⟨S400000, .f32⟩ : BufTy).Contents (Elt Ideal)) (x4 : (⟨S8x128x128, .f32⟩ : BufTy).Contents (Elt Ideal))
    (x5 : (⟨S8x128, .f32⟩ : BufTy).Contents (Elt Ideal)) :
    Read.val_main_v87 (F := Ideal) x0 x1 x2 x3 x4 x5 = relTerm (Read.val_main_v74 (F := Ideal) x0 x4 x5) x1 x2 x3 := rfl

theorem v109_eq (x0 : (⟨S50000x128, .f32⟩ : BufTy).Contents (Elt Ideal)) (x1 x2 : (⟨S400000, .i32⟩ : BufTy).Contents (Elt Ideal))
    (x3 : (⟨S400000, .f32⟩ : BufTy).Contents (Elt Ideal)) (x4 : (⟨S8x128x128, .f32⟩ : BufTy).Contents (Elt Ideal))
    (x5 : (⟨S8x128, .f32⟩ : BufTy).Contents (Elt Ideal)) :
    Read.val_main_v109 (F := Ideal) x0 x1 x2 x3 x4 x5 = relTerm (Read.val_main_v96 (F := Ideal) x0 x4 x5) x1 x2 x3 := rfl

theorem v131_eq (x0 : (⟨S50000x128, .f32⟩ : BufTy).Contents (Elt Ideal)) (x1 x2 : (⟨S400000, .i32⟩ : BufTy).Contents (Elt Ideal))
    (x3 : (⟨S400000, .f32⟩ : BufTy).Contents (Elt Ideal)) (x4 : (⟨S8x128x128, .f32⟩ : BufTy).Contents (Elt Ideal))
    (x5 : (⟨S8x128, .f32⟩ : BufTy).Contents (Elt Ideal)) :
    Read.val_main_v131 (F := Ideal) x0 x1 x2 x3 x4 x5 = relTerm (Read.val_main_v118 (F := Ideal) x0 x4 x5) x1 x2 x3 := rfl

theorem v153_eq (x0 : (⟨S50000x128, .f32⟩ : BufTy).Contents (Elt Ideal)) (x1 x2 : (⟨S400000, .i32⟩ : BufTy).Contents (Elt Ideal))
    (x3 : (⟨S400000, .f32⟩ : BufTy).Contents (Elt Ideal)) (x4 : (⟨S8x128x128, .f32⟩ : BufTy).Contents (Elt Ideal))
    (x5 : (⟨S8x128, .f32⟩ : BufTy).Contents (Elt Ideal)) :
    Read.val_main_v153 (F := Ideal) x0 x1 x2 x3 x4 x5 = relTerm (Read.val_main_v140 (F := Ideal) x0 x4 x5) x1 x2 x3 := rfl

theorem v175_eq (x0 : (⟨S50000x128, .f32⟩ : BufTy).Contents (Elt Ideal)) (x1 x2 : (⟨S400000, .i32⟩ : BufTy).Contents (Elt Ideal))
    (x3 : (⟨S400000, .f32⟩ : BufTy).Contents (Elt Ideal)) (x4 : (⟨S8x128x128, .f32⟩ : BufTy).Contents (Elt Ideal))
    (x5 : (⟨S8x128, .f32⟩ : BufTy).Contents (Elt Ideal)) :
    Read.val_main_v175 (F := Ideal) x0 x1 x2 x3 x4 x5 = relTerm (Read.val_main_v162 (F := Ideal) x0 x4 x5) x1 x2 x3 := rfl

/-- THE REFERENCE'S VALUE: with every column word in the node range, the result is the per-relation form of
    the six arguments. -/
theorem ref_value (x0 : (⟨S50000x128, .f32⟩ : BufTy).Contents (Elt Ideal)) (x1 x2 : (⟨S400000, .i32⟩ : BufTy).Contents (Elt Ideal))
    (x3 : (⟨S400000, .f32⟩ : BufTy).Contents (Elt Ideal)) (x4 : (⟨S8x128x128, .f32⟩ : BufTy).Contents (Elt Ideal))
    (x5 : (⟨S8x128, .f32⟩ : BufTy).Contents (Elt Ideal))
    (hcol : ∀ e : Fin 400000, 0 ≤ (x2 (ix1 e) : BitVec 32).toInt ∧ (x2 (ix1 e) : BitVec 32).toInt < 50000) :
    (Cert.ReferenceIdeal.Read.val_main_v177 (F := Ideal) x0 x1 x2 x3 x4 x5 : S50000x128.Idx → EReal)
      = fun j => Cert.Spec.refForm (fun n k => x0 (ix2 n k)) (fun e => x1 (ix1 e)) (fun e => x2 (ix1 e))
          (fun e => x3 (ix1 e)) (fun r k u => x4 (ix3 r k u)) (fun r u => x5 (ix2 r u)) (j 0) (j 1) := by
  funext j
  obtain ⟨i, u, rfl⟩ : ∃ (i : Fin 50000) (u : Fin 128), j = ix2 i u := ⟨j 0, j 1, eq_ix2 j⟩
  rw [Read.val_main_v177_apply, Read.val_main_v176_apply, Read.val_main_v154_apply, Read.val_main_v132_apply, Read.val_main_v110_apply, Read.val_main_v88_apply, Read.val_main_v66_apply, Read.val_main_v44_apply, Read.val_main_v22_apply,
    Read.val_main_v0_apply, Read.val_main_cst_apply, Read.val_main_call0_v0_apply, Read.val_main_call0_cst_apply,
    v21_eq, v43_eq, v65_eq, v87_eq, v109_eq, v131_eq, v153_eq, v175_eq]
  simp only [relTerm_apply _ _ _ _ hcol, h0_apply, h1_apply, h2_apply, h3_apply, h4_apply, h5_apply, h6_apply, h7_apply, Ideal.ofBits_def, Ideal.ofBits_zero_f32,
    Ideal.addf_def, Ideal.maximumf_def, zero_add]
  show _ = Cert.Spec.refForm _ _ _ _ _ _ i u
  unfold Cert.Spec.refForm
  rw [Fin.sum_univ_eight]

end Cert.ReferenceIdeal.RefValue

end
-- ==== Proof.PreDecode.lean ====
/-
  What the precondition says, read out of its printed predicate: every entry of the four float arguments is
  a real number (its absolute value is below +∞), and every column word, read as a signed integer, lies in
  the node range [0, 50000).
-/
import proofs.«410919_j82858509074624_1_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx
open Cert.Pre_finite_inputs

variable [Cert.Pre_finite_inputs.Facts]

/-- The scalar shape has one index. -/
private instance subsingleton_scalar_idx : Subsingleton S_.Idx := ⟨fun a b => funext fun d => d.elim0⟩

/-- An extended real whose absolute value is strictly below +∞ is a real number. -/
private theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  simp only [Ideal.cmp, StableHlo.Predicate.ofBool_eq_one_iff, decide_eq_true_eq] at h
  induction x using EReal.rec with
  | bot => simp at h
  | coe r => exact ⟨r, rfl⟩
  | top => simp at h

/-- `all (|x| < +∞)` being one says every entry of `x` is a real number, at any shape. -/
private theorem all_real {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
      (cmpf .olt (Host.absf x) (broadcastInDim s ![] hb (constant S_ .f32 0x7F800000#32))) init hr hu ix0 = 1#1)
    (i : s.Idx) : ∃ r : ℝ, (x i : EReal) = (r : EReal) :=
  real_of_abs_lt (x i) (Host.reduce_andi_all _ _ hr hu ix0 e i)

/-- A word that is at least 0 and below 50000 as a signed comparison is so as a signed integer. -/
private theorem range_of_cmp (c : BitVec 32)
    (h : IntOp.andi (IntOp.cmpi .sge c 0#32) (IntOp.cmpi .slt c 50000#32) = 1#1) :
    0 ≤ c.toInt ∧ c.toInt < 50000 := by
  obtain ⟨h1, h2⟩ := IntOp.andi_eq_one.1 h
  simp only [IntOp.cmpi, StableHlo.Predicate.ofBool_eq_one_iff, BitVec.sle, BitVec.slt, decide_eq_true_eq] at h1 h2
  have e0 : (0#32 : BitVec 32).toInt = 0 := by decide
  have e5 : (50000#32 : BitVec 32).toInt = 50000 := by decide
  rw [e0] at h1
  rw [e5] at h2
  exact ⟨h1, h2⟩

/-- The precondition decoded. -/
theorem decode (x : FVec Ideal S50000x128 .f32) (row col : IVec S400000 32) (val : FVec Ideal S400000 .f32)
    (W : FVec Ideal S8x128x128 .f32) (b : FVec Ideal S8x128 .f32)
    (h : Cert.Pre_finite_inputs.fn (F := Ideal) x row col val W b = fun _ => 1#1) :
    (∀ i, ∃ r : ℝ, (x i : EReal) = (r : EReal)) ∧ (∀ e, ∃ r : ℝ, (val e : EReal) = (r : EReal))
      ∧ (∀ i, ∃ r : ℝ, (W i : EReal) = (r : EReal)) ∧ (∀ i, ∃ r : ℝ, (b i : EReal) = (r : EReal))
      ∧ (∀ e, 0 ≤ (col e).toInt ∧ (col e).toInt < 50000) := by
  have h0 := congrFun h ValueIdx.ix0
  dsimp only [Cert.Pre_finite_inputs.fn, Cert.Pre_finite_inputs.fn_part1] at h0
  obtain ⟨h1, hc⟩ := IntOp.andi_eq_one.1 h0
  obtain ⟨h2, hb⟩ := IntOp.andi_eq_one.1 h1
  obtain ⟨h3, hW⟩ := IntOp.andi_eq_one.1 h2
  obtain ⟨hx, hv⟩ := IntOp.andi_eq_one.1 h3
  refine ⟨all_real x _ _ _ _ hx, all_real val _ _ _ _ hv, all_real W _ _ _ _ hW, all_real b _ _ _ _ hb, fun e => ?_⟩
  exact range_of_cmp (col e) (Host.reduce_andi_all _ _ _ _ ix0 hc e)

end Cert.PreDecode

end
-- ==== Proof.lean ====
/-
  The relational graph layer on a TensorCore against its array-program reference: the five claims.

  The kernel program sums the eight relation matrices and biases on the host, pads the node features and the
  edge arrays, and runs three kernel regions: a dense transform of every node by the summed weights, a gather
  of each edge's source row scaled by the edge weight (a selector-matrix product), and a scatter-add of the
  edge messages onto their rows (a second selector-matrix product, accumulated over edge chunks) followed by
  the positive part. The reference does a transform, a gather and a segment sum per relation and adds the
  eight aggregates. Over real inputs, with every column index in the node range, both compute
      max ( Σ_r Σ_{e : row e = i} val e · ( Σ_k x[col e, k] · W_r[k, u] + b_r[u] ), 0 )
  — the kernel with the sum over relations moved inside by linearity.

  The three frames: each program terminates on every weakly fair execution, faults nowhere, and leaves its
  arguments as launched (the kernel programs by the run of their thirteen items; the reference by its run).
  The idealization rewrote no operation, so its soundness statement is empty. The value claim joins the
  kernel's value and the reference's value through the two closed forms and the algebraic law between them.
-/
import proofs.«410919_j82858509074624_1_alg».proof.Defs
import proofs.«410919_j82858509074624_1_alg».proof.Proof.Gen.Kernel
import proofs.«410919_j82858509074624_1_alg».proof.Proof.Gen.KernelIdeal
import proofs.«410919_j82858509074624_1_alg».proof.Proof.Gen.ReferenceIdeal
import proofs.«410919_j82858509074624_1_alg».proof.Proof.Gen.Pre_finite_inputs
import proofs.«410919_j82858509074624_1_alg».proof.Proof.Gen.ReferenceIdeal.Run
import proofs.«410919_j82858509074624_1_alg».proof.Proof.Gen.ReferenceIdeal.Read
import proofs.«410919_j82858509074624_1_alg».proof.Proof.K.Run
import proofs.«410919_j82858509074624_1_alg».proof.Proof.KI.Run
import proofs.«410919_j82858509074624_1_alg».proof.Proof.KI.ValAll
import proofs.«410919_j82858509074624_1_alg».proof.Proof.Ref.RefValue
import proofs.«410919_j82858509074624_1_alg».proof.Proof.PreDecode
import proofs.«410919_j82858509074624_1_alg».proof.Proof.Spec
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs and keeps its arguments. -/
theorem frame_kernel : Cert.frame_Kernel := fun m ρ _ => Cert.Kernel.Hand.frame (F := Bits) m ρ

/-- The idealized program runs and keeps its arguments. -/
theorem frame_kernelIdeal : Cert.frame_KernelIdeal := fun m ρ _ => Cert.KernelIdeal.Hand.frame (F := Ideal) m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the same result: the kernel's is
    the summed-weights form of the arguments, the reference's the per-relation form, and over real inputs with
    the column words in the node range (the precondition, decoded) the two forms are one function. -/
theorem algebraic : Cert.algebraic_KernelIdeal_ReferenceIdeal := by
  intro m ρ m' ρ' hpre hagree
  refine ⟨fun c => Cert.KernelIdeal.Hand.W13 (F := Ideal) m c (Proc.devRef .tc Cert.KernelIdeal.main_v13),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hv, hw, hb, hcol⟩ := Cert.PreDecode.decode _ _ _ _ _ _ (hpre c)
  have hcol' : ∀ e : Fin 400000, 0 ≤ (Cert.KernelIdeal.Hand.colArg m c (ix1 e)).toInt
      ∧ (Cert.KernelIdeal.Hand.colArg m c (ix1 e)).toInt < 50000 := fun e => hcol (ix1 e)
  rw [Cert.ReferenceIdeal.Read.val_main_v177_eq, (hagree c).1, (hagree c).2.1, (hagree c).2.2.1,
    (hagree c).2.2.2.1, (hagree c).2.2.2.2.1, (hagree c).2.2.2.2.2]
  refine (Cert.ReferenceIdeal.RefValue.ref_value _ _ _ _ _ _ hcol').trans ?_
  refine Eq.trans ?_ (Cert.KernelIdeal.Hand.kernel_value m c hcol').symm
  funext j
  exact (Cert.Spec.kerForm_eq_refForm _ _ _ _ _ _ (fun n k => hx (ix2 n k)) (fun e => hv (ix1 e))
    (fun r k u => hw (ix3 r k u)) (fun r u => hb (ix2 r u)) (j 0) (j 1)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
